-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x13 : Shape := ⟨2, ![4096, 13]⟩
abbrev S26x4096 : Shape := ⟨2, ![26, 4096]⟩
abbrev S26x100000x64 : Shape := ⟨3, ![26, 100000, 64]⟩
abbrev S512x13 : Shape := ⟨2, ![512, 13]⟩
abbrev S512 : Shape := ⟨1, ![512]⟩
abbrev S256x512 : Shape := ⟨2, ![256, 512]⟩
abbrev S256 : Shape := ⟨1, ![256]⟩
abbrev S64x256 : Shape := ⟨2, ![64, 256]⟩
abbrev S64 : Shape := ⟨1, ![64]⟩
abbrev S512x415 : Shape := ⟨2, ![512, 415]⟩
abbrev S1x256 : Shape := ⟨2, ![1, 256]⟩
abbrev S1 : Shape := ⟨1, ![1]⟩
abbrev S_ : Shape := ⟨0, ![]⟩

class Facts : Prop where
  bcast_S_S4096x13 : S_.BroadcastsInDim S4096x13 (![] : Fin 0 → Fin S4096x13.rank)
  reducesTo_S4096x13_S_d0_1 : S4096x13.ReducesTo [0, 1] S_
  h_S_ : 0 < S_.numel
  bcast_S_S26x100000x64 : S_.BroadcastsInDim S26x100000x64 (![] : Fin 0 → Fin S26x100000x64.rank)
  reducesTo_S26x100000x64_S_d0_1_2 : S26x100000x64.ReducesTo [0, 1, 2] S_
  bcast_S_S512x13 : S_.BroadcastsInDim S512x13 (![] : Fin 0 → Fin S512x13.rank)
  reducesTo_S512x13_S_d0_1 : S512x13.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S512x415 : S_.BroadcastsInDim S512x415 (![] : Fin 0 → Fin S512x415.rank)
  reducesTo_S512x415_S_d0_1 : S512x415.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S26x4096 : S_.BroadcastsInDim S26x4096 (![] : Fin 0 → Fin S26x4096.rank)
  reducesTo_S26x4096_S_d0_1 : S26x4096.ReducesTo [0, 1] S_

variable [Facts]

def fn_part4 {F : FTy → Type} [FloatOps F] (main_arg1 : IVec S26x4096 32) (main_v63 : IVec S_ 1) (main_v67 : IVec S_ 1) : IVec S_ 1 :=
  let main_v68 : IVec S_ 1 := andi main_v63 main_v67
  let main_c_26 : IVec S_ 32 := constantI S_ 32 0#32
  let main_v69 : IVec S26x4096 32 := broadcastInDim S26x4096 ![] bcast_S_S26x4096 main_c_26
  let main_v70 : IVec S26x4096 1 := cmpi .sge main_arg1 main_v69
  let main_c_27 : IVec S_ 32 := constantI S_ 32 100000#32
  let main_v71 : IVec S26x4096 32 := broadcastInDim S26x4096 ![] bcast_S_S26x4096 main_c_27
  let main_v72 : IVec S26x4096 1 := cmpi .slt main_arg1 main_v71
  let main_v73 : IVec S26x4096 1 := andi main_v70 main_v72
  let main_c_28 : IVec S_ 1 := constantI S_ 1 1#1
  let main_v74 : IVec S_ 1 := (fun x v => Host.reduce IntOp.andi x v reducesTo_S26x4096_S_d0_1 h_S_) main_v73 main_c_28
  let main_v75 : IVec S_ 1 := andi main_v68 main_v74
  main_v75

def fn_part3 {F : FTy → Type} [FloatOps F] (main_arg1 : IVec S26x4096 32) (main_arg12 : FVec F S256 .f32) (main_arg13 : FVec F S1x256 .f32) (main_arg14 : FVec F S1 .f32) (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S1x256 .f32 := Host.absf main_arg13
  let main_cst_22 : FVec F S_ .f32 := constant S_ .f32 0x7F800000#32
  let main_v60 : FVec F S1x256 .f32 := broadcastInDim S1x256 ![] bcast_S_S1x256 main_cst_22
  let main_v61 : IVec S1x256 1 := cmpf .olt main_v59 main_v60
  let main_c_23 : IVec S_ 1 := constantI S_ 1 1#1
  let main_v62 : IVec S_ 1 := (fun x v => Host.reduce IntOp.andi x v reducesTo_S1x256_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg1 main_v63 main_v67

def fn_part2 {F : FTy → Type} [FloatOps F] (main_arg1 : IVec S26x4096 32) (main_arg8 : FVec F S64 .f32) (main_arg9 : FVec F S512x415 .f32) (main_arg10 : FVec F S512 .f32) (main_arg11 : FVec F S256x512 .f32) (main_arg12 : FVec F S256 .f32) (main_arg13 : FVec F S1x256 .f32) (main_arg14 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S512x415 .f32 := Host.absf main_arg9
  let main_cst_14 : FVec F S_ .f32 := constant S_ .f32 0x7F800000#32
  let main_v40 : FVec F S512x415 .f32 := broadcastInDim S512x415 ![] bcast_S_S512x415 main_cst_14
  let main_v41 : IVec S512x415 1 := cmpf .olt main_v39 main_v40
  let main_c_15 : IVec S_ 1 := constantI S_ 1 1#1
  let main_v42 : IVec S_ 1 := (fun x v => Host.reduce IntOp.andi x v reducesTo_S512x415_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S256x512 .f32 := Host.absf main_arg11
  let main_cst_18 : FVec F S_ .f32 := constant S_ .f32 0x7F800000#32
  let main_v50 : FVec F S256x512 .f32 := broadcastInDim S256x512 ![] bcast_S_S256x512 main_cst_18
  fn_part3 (F := F) main_arg1 main_arg12 main_arg13 main_arg14 main_v48 main_v49 main_v50

def fn_part1 {F : FTy → Type} [FloatOps F] (main_arg1 : IVec S26x4096 32) (main_arg5 : FVec F S256x512 .f32) (main_arg6 : FVec F S256 .f32) (main_arg7 : FVec F S64x256 .f32) (main_arg8 : FVec F S64 .f32) (main_arg9 : FVec F S512x415 .f32) (main_arg10 : FVec F S512 .f32) (main_arg11 : FVec F S256x512 .f32) (main_arg12 : FVec F S256 .f32) (main_arg13 : FVec F S1x256 .f32) (main_arg14 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x512 .f32 := Host.absf main_arg5
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S64x256 .f32 := Host.absf main_arg7
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S4096x13 .f32) (main_arg1 : IVec S26x4096 32) (main_arg2 : FVec F S26x100000x64 .f32) (main_arg3 : FVec F S512x13 .f32) (main_arg4 : FVec F S512 .f32) (main_arg5 : FVec F S256x512 .f32) (main_arg6 : FVec F S256 .f32) (main_arg7 : FVec F S64x256 .f32) (main_arg8 : FVec F S64 .f32) (main_arg9 : FVec F S512x415 .f32) (main_arg10 : FVec F S512 .f32) (main_arg11 : FVec F S256x512 .f32) (main_arg12 : FVec F S256 .f32) (main_arg13 : FVec F S1x256 .f32) (main_arg14 : FVec F S1 .f32) : IVec S_ 1 :=
  let main_v0 : FVec F S4096x13 .f32 := Host.absf main_arg0
  let main_cst : FVec F S_ .f32 := constant S_ .f32 0x7F800000#32
  let main_v1 : FVec F S4096x13 .f32 := broadcastInDim S4096x13 ![] bcast_S_S4096x13 main_cst
  let main_v2 : IVec S4096x13 1 := cmpf .olt main_v0 main_v1
  let main_c : IVec S_ 1 := constantI S_ 1 1#1
  let main_v3 : IVec S_ 1 := (fun x v => Host.reduce IntOp.andi x v reducesTo_S4096x13_S_d0_1 h_S_) main_v2 main_c
  let main_v4 : FVec F S26x100000x64 .f32 := Host.absf main_arg2
  let main_cst_0 : FVec F S_ .f32 := constant S_ .f32 0x7F800000#32
  let main_v5 : FVec F S26x100000x64 .f32 := broadcastInDim S26x100000x64 ![] bcast_S_S26x100000x64 main_cst_0
  let main_v6 : IVec S26x100000x64 1 := cmpf .olt main_v4 main_v5
  let main_c_1 : IVec S_ 1 := constantI S_ 1 1#1
  let main_v7 : IVec S_ 1 := (fun x v => Host.reduce IntOp.andi x v reducesTo_S26x100000x64_S_d0_1_2 h_S_) main_v6 main_c_1
  let main_v8 : IVec S_ 1 := andi main_v3 main_v7
  let main_v9 : FVec F S512x13 .f32 := Host.absf main_arg3
  let main_cst_2 : FVec F S_ .f32 := constant S_ .f32 0x7F800000#32
  let main_v10 : FVec F S512x13 .f32 := broadcastInDim S512x13 ![] bcast_S_S512x13 main_cst_2
  let main_v11 : IVec S512x13 1 := cmpf .olt main_v9 main_v10
  let main_c_3 : IVec S_ 1 := constantI S_ 1 1#1
  let main_v12 : IVec S_ 1 := (fun x v => Host.reduce IntOp.andi x v reducesTo_S512x13_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S4096x13 : Shape := ⟨2, ![4096, 13]⟩
abbrev S26x4096 : Shape := ⟨2, ![26, 4096]⟩
abbrev S26x100000x64 : Shape := ⟨3, ![26, 100000, 64]⟩
abbrev S512x13 : Shape := ⟨2, ![512, 13]⟩
abbrev S512 : Shape := ⟨1, ![512]⟩
abbrev S256x512 : Shape := ⟨2, ![256, 512]⟩
abbrev S256 : Shape := ⟨1, ![256]⟩
abbrev S64x256 : Shape := ⟨2, ![64, 256]⟩
abbrev S64 : Shape := ⟨1, ![64]⟩
abbrev S512x415 : Shape := ⟨2, ![512, 415]⟩
abbrev S1x256 : Shape := ⟨2, ![1, 256]⟩
abbrev S1 : Shape := ⟨1, ![1]⟩
abbrev S26 : Shape := ⟨1, ![26]⟩
abbrev S1x26 : Shape := ⟨2, ![1, 26]⟩
abbrev S4096x26 : Shape := ⟨2, ![4096, 26]⟩
abbrev S_ : Shape := ⟨0, ![]⟩
abbrev S4096x26x1 : Shape := ⟨3, ![4096, 26, 1]⟩
abbrev S4096x26x2 : Shape := ⟨3, ![4096, 26, 2]⟩
abbrev S4096x26x64 : Shape := ⟨3, ![4096, 26, 64]⟩
abbrev S13x512 : Shape := ⟨2, ![13, 512]⟩
abbrev S512x256 : Shape := ⟨2, ![512, 256]⟩
abbrev S256x64 : Shape := ⟨2, ![256, 64]⟩
abbrev S415x512 : Shape := ⟨2, ![415, 512]⟩
abbrev S256x1 : Shape := ⟨2, ![256, 1]⟩
abbrev S1x512 : Shape := ⟨2, ![1, 512]⟩
abbrev S1x64 : Shape := ⟨2, ![1, 64]⟩
abbrev S1x1 : Shape := ⟨2, ![1, 1]⟩
abbrev S4096x1 : Shape := ⟨2, ![4096, 1]⟩
abbrev S512x26x64 : Shape := ⟨3, ![512, 26, 64]⟩
abbrev S512x1 : Shape := ⟨2, ![512, 1]⟩
abbrev S512x351 : Shape := ⟨2, ![512, 351]⟩
abbrev S512x512 : Shape := ⟨2, ![512, 512]⟩
abbrev S512x64 : Shape := ⟨2, ![512, 64]⟩
abbrev S512x1x64 : Shape := ⟨3, ![512, 1, 64]⟩
abbrev S512x27x64 : Shape := ⟨3, ![512, 27, 64]⟩
abbrev S512x2x64 : Shape := ⟨3, ![512, 2, 64]⟩
abbrev S512x2 : Shape := ⟨2, ![512, 2]⟩
abbrev S512x3x64 : Shape := ⟨3, ![512, 3, 64]⟩
abbrev S512x3 : Shape := ⟨2, ![512, 3]⟩
abbrev S512x4x64 : Shape := ⟨3, ![512, 4, 64]⟩
abbrev S512x4 : Shape := ⟨2, ![512, 4]⟩
abbrev S512x5x64 : Shape := ⟨3, ![512, 5, 64]⟩
abbrev S512x5 : Shape := ⟨2, ![512, 5]⟩
abbrev S512x6x64 : Shape := ⟨3, ![512, 6, 64]⟩
abbrev S512x6 : Shape := ⟨2, ![512, 6]⟩
abbrev S512x7x64 : Shape := ⟨3, ![512, 7, 64]⟩
abbrev S512x7 : Shape := ⟨2, ![512, 7]⟩
abbrev S512x8x64 : Shape := ⟨3, ![512, 8, 64]⟩
abbrev S512x8 : Shape := ⟨2, ![512, 8]⟩
abbrev S512x9x64 : Shape := ⟨3, ![512, 9, 64]⟩
abbrev S512x9 : Shape := ⟨2, ![512, 9]⟩
abbrev S512x10x64 : Shape := ⟨3, ![512, 10, 64]⟩
abbrev S512x10 : Shape := ⟨2, ![512, 10]⟩
abbrev S512x11x64 : Shape := ⟨3, ![512, 11, 64]⟩
abbrev S512x11 : Shape := ⟨2, ![512, 11]⟩
abbrev S512x12x64 : Shape := ⟨3, ![512, 12, 64]⟩
abbrev S512x12 : Shape := ⟨2, ![512, 12]⟩
abbrev S512x13x64 : Shape := ⟨3, ![512, 13, 64]⟩
abbrev S512x14x64 : Shape := ⟨3, ![512, 14, 64]⟩
abbrev S512x14 : Shape := ⟨2, ![512, 14]⟩
abbrev S512x15x64 : Shape := ⟨3, ![512, 15, 64]⟩
abbrev S512x15 : Shape := ⟨2, ![512, 15]⟩
abbrev S512x16x64 : Shape := ⟨3, ![512, 16, 64]⟩
abbrev S512x16 : Shape := ⟨2, ![512, 16]⟩
abbrev S512x17x64 : Shape := ⟨3, ![512, 17, 64]⟩
abbrev S512x17 : Shape := ⟨2, ![512, 17]⟩
abbrev S512x18x64 : Shape := ⟨3, ![512, 18, 64]⟩
abbrev S512x18 : Shape := ⟨2, ![512, 18]⟩
abbrev S512x19x64 : Shape := ⟨3, ![512, 19, 64]⟩
abbrev S512x19 : Shape := ⟨2, ![512, 19]⟩
abbrev S512x20x64 : Shape := ⟨3, ![512, 20, 64]⟩
abbrev S512x20 : Shape := ⟨2, ![512, 20]⟩
abbrev S512x21x64 : Shape := ⟨3, ![512, 21, 64]⟩
abbrev S512x21 : Shape := ⟨2, ![512, 21]⟩
abbrev S512x22x64 : Shape := ⟨3, ![512, 22, 64]⟩
abbrev S512x22 : Shape := ⟨2, ![512, 22]⟩
abbrev S512x23x64 : Shape := ⟨3, ![512, 23, 64]⟩
abbrev S512x23 : Shape := ⟨2, ![512, 23]⟩
abbrev S512x24x64 : Shape := ⟨3, ![512, 24, 64]⟩
abbrev S512x24 : Shape := ⟨2, ![512, 24]⟩
abbrev S512x25x64 : Shape := ⟨3, ![512, 25, 64]⟩
abbrev S512x25 : Shape := ⟨2, ![512, 25]⟩
abbrev S512x26 : Shape := ⟨2, ![512, 26]⟩

abbrev nBuf : Space → Nat
  | .hbm => 51
  | .vmem => 19
  | .smem => 0
  | _ => 0

abbrev bufTy : (tb : Table) → Fin (tcTables nBuf tb) → BufTy
  | .hbm, ⟨0, _⟩ => ⟨S4096x13, .f32⟩
  | .hbm, ⟨1, _⟩ => ⟨S26x4096, .i32⟩
  | .hbm, ⟨2, _⟩ => ⟨S26x100000x64, .f32⟩
  | .hbm, ⟨3, _⟩ => ⟨S512x13, .f32⟩
  | .hbm, ⟨4, _⟩ => ⟨S512, .f32⟩
  | .hbm, ⟨5, _⟩ => ⟨S256x512, .f32⟩
  | .hbm, ⟨6, _⟩ => ⟨S256, .f32⟩
  | .hbm, ⟨7, _⟩ => ⟨S64x256, .f32⟩
  | .hbm, ⟨8, _⟩ => ⟨S64, .f32⟩
  | .hbm, ⟨9, _⟩ => ⟨S512x415, .f32⟩
  | .hbm, ⟨10, _⟩ => ⟨S512, .f32⟩
  | .hbm, ⟨11, _⟩ => ⟨S256x512, .f32⟩
  | .hbm, ⟨12, _⟩ => ⟨S256, .f32⟩
  | .hbm, ⟨13, _⟩ => ⟨S1x256, .f32⟩
  | .hbm, ⟨14, _⟩ => ⟨S1, .f32⟩
  | .hbm, ⟨15, _⟩ => ⟨S26, .i32⟩
  | .hbm, ⟨16, _⟩ => ⟨S1x26, .i32⟩
  | .hbm, ⟨17, _⟩ => ⟨S4096x26, .i32⟩
  | .hbm, ⟨18, _⟩ => ⟨S_, .i32⟩
  | .hbm, ⟨19, _⟩ => ⟨S1x26, .i32⟩
  | .hbm, ⟨20, _⟩ => ⟨S1x26, .i1⟩
  | .hbm, ⟨21, _⟩ => ⟨S_, .i32⟩
  | .hbm, ⟨22, _⟩ => ⟨S1x26, .i32⟩
  | .hbm, ⟨23, _⟩ => ⟨S1x26, .i32⟩
  | .hbm, ⟨24, _⟩ => ⟨S1x26, .i32⟩
  | .hbm, ⟨25, _⟩ => ⟨S_, .i32⟩
  | .hbm, ⟨26, _⟩ => ⟨S4096x26, .i32⟩
  | .hbm, ⟨27, _⟩ => ⟨S4096x26, .i1⟩
  | .hbm, ⟨28, _⟩ => ⟨S_, .i32⟩
  | .hbm, ⟨29, _⟩ => ⟨S4096x26, .i32⟩
  | .hbm, ⟨30, _⟩ => ⟨S4096x26, .i32⟩
  | .hbm, ⟨31, _⟩ => ⟨S4096x26, .i32⟩
  | .hbm, ⟨32, _⟩ => ⟨S4096x26, .i32⟩
  | .hbm, ⟨33, _⟩ => ⟨S4096x26x1, .i32⟩
  | .hbm, ⟨34, _⟩ => ⟨S4096x26x1, .i32⟩
  | .hbm, ⟨35, _⟩ => ⟨S4096x26x2, .i32⟩
  | .hbm, ⟨36, _⟩ => ⟨S4096x26x64, .f32⟩
  | .hbm, ⟨37, _⟩ => ⟨S4096x26x64, .bf16⟩
  | .hbm, ⟨38, _⟩ => ⟨S13x512, .f32⟩
  | .hbm, ⟨39, _⟩ => ⟨S512x256, .f32⟩
  | .hbm, ⟨40, _⟩ => ⟨S256x64, .f32⟩
  | .hbm, ⟨41, _⟩ => ⟨S415x512, .f32⟩
  | .hbm, ⟨42, _⟩ => ⟨S512x256, .f32⟩
  | .hbm, ⟨43, _⟩ => ⟨S256x1, .f32⟩
  | .hbm, ⟨44, _⟩ => ⟨S1x512, .f32⟩
  | .hbm, ⟨45, _⟩ => ⟨S1x256, .f32⟩
  | .hbm, ⟨46, _⟩ => ⟨S1x64, .f32⟩
  | .hbm, ⟨47, _⟩ => ⟨S1x512, .f32⟩
  | .hbm, ⟨48, _⟩ => ⟨S1x256, .f32⟩
  | .hbm, ⟨49, _⟩ => ⟨S1x1, .f32⟩
  | .hbm, ⟨50, _⟩ => ⟨S4096x1, .f32⟩
  | .local _ .vmem, ⟨0, _⟩ => ⟨S512x13, .f32⟩
  | .local _ .vmem, ⟨1, _⟩ => ⟨S512x13, .f32⟩
  | .local _ .vmem, ⟨2, _⟩ => ⟨S512x26x64, .bf16⟩
  | .local _ .vmem, ⟨3, _⟩ => ⟨S512x26x64, .bf16⟩
  | .local _ .vmem, ⟨4, _⟩ => ⟨S13x512, .f32⟩
  | .local _ .vmem, ⟨5, _⟩ => ⟨S1x512, .f32⟩
  | .local _ .vmem, ⟨6, _⟩ => ⟨S512x256, .f32⟩
  | .local _ .vmem, ⟨7, _⟩ => ⟨S1x256, .f32⟩
  | .local _ .vmem, ⟨8, _⟩ => ⟨S256x64, .f32⟩
  | .local _ .vmem, ⟨9, _⟩ => ⟨S1x64, .f32⟩
  | .local _ .vmem, ⟨10, _⟩ => ⟨S415x512, .f32⟩
  | .local _ .vmem, ⟨11, _⟩ => ⟨S1x512, .f32⟩
  | .local _ .vmem, ⟨12, _⟩ => ⟨S512x256, .f32⟩
  | .local _ .vmem, ⟨13, _⟩ => ⟨S1x256, .f32⟩
  | .local _ .vmem, ⟨14, _⟩ => ⟨S256x1, .f32⟩
  | .local _ .vmem, ⟨15, _⟩ => ⟨S1x1, .f32⟩
  | .local _ .vmem, ⟨16, _⟩ => ⟨S512x1, .f32⟩
  | .local _ .vmem, ⟨17, _⟩ => ⟨S512x1, .f32⟩
  | .local _ .vmem, ⟨18, _⟩ => ⟨S512x351, .f32⟩
  | _, _ => ⟨S4096x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x26x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S13x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S415x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S26_S1x26_1 : S26.BroadcastsInDim S1x26 (![1] : Fin 1 → Fin S1x26.rank)
  transposes_S26x4096_S4096x26_1_0 : S26x4096.Transposes [1, 0] S4096x26
  bcast_S_S1x26 : S_.BroadcastsInDim S1x26 (![] : Fin 0 → Fin S1x26.rank)
  bcast_S_S4096x26 : S_.BroadcastsInDim S4096x26 (![] : Fin 0 → Fin S4096x26.rank)
  bcast_S1x26_S4096x26_0_1 : S1x26.BroadcastsInDim S4096x26 (![0, 1] : Fin 2 → Fin S4096x26.rank)
  bcast_S4096x26_S4096x26x1_0_1 : S4096x26.BroadcastsInDim S4096x26x1 (![0, 1] : Fin 2 → Fin S4096x26x1.rank)
  concatenates_S4096x26x1_S4096x26x1_S4096x26x2_d2 : Shape.Concatenates [S4096x26x1, S4096x26x1] S4096x26x2 2
  bitsLt_bf16_f32 : FTy.bits .bf16 < FTy.bits .f32
  transposes_S512x13_S13x512_1_0 : S512x13.Transposes [1, 0] S13x512
  transposes_S256x512_S512x256_1_0 : S256x512.Transposes [1, 0] S512x256
  transposes_S64x256_S256x64_1_0 : S64x256.Transposes [1, 0] S256x64
  transposes_S512x415_S415x512_1_0 : S512x415.Transposes [1, 0] S415x512
  transposes_S1x256_S256x1_1_0 : S1x256.Transposes [1, 0] S256x1
  shapeCasts_S512_S1x512 : S512.ShapeCasts S1x512
  shapeCasts_S256_S1x256 : S256.ShapeCasts S1x256
  shapeCasts_S64_S1x64 : S64.ShapeCasts S1x64
  shapeCasts_S1_S1x1 : S1.ShapeCasts S1x1
  inb_S512x13_S512x13_0_0 : ∀ a, (![0, 0] : Fin 2 → Nat) a + S512x13.size a ≤ S512x13.size a
  h_S512x13 : 0 < S512x13.numel
  inb_S13x512_S13x512_0_0 : ∀ a, (![0, 0] : Fin 2 → Nat) a + S13x512.size a ≤ S13x512.size a
  h_S13x512 : 0 < S13x512.numel
  shapeCasts_S13x512_S13x512 : S13x512.ShapeCasts S13x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  shapeCasts_S512x64_S512x1x64 : S512x64.ShapeCasts S512x1x64
  inb_S512x26x64_S512x26x64_0_0_0 : ∀ a, (![0, 0, 0] : Fin 3 → Nat) a + S512x26x64.size a ≤ S512x26x64.size a
  h_S512x26x64 : 0 < S512x26x64.numel
  shapeCasts_S512x26x64_S512x26x64 : S512x26x64.ShapeCasts S512x26x64
  concatenates_S512x1x64_S512x26x64_S512x27x64_d1 : Shape.Concatenates [S512x1x64, S512x26x64] S512x27x64 1
  slices_S512x27x64_o0_1_0_S512x1x64 : S512x27x64.Slices ![0, 1, 0] S512x1x64
  shapeCasts_S512x1x64_S512x64 : S512x1x64.ShapeCasts S512x64
  slices_S512x27x64_o0_0_0_S512x1x64 : S512x27x64.Slices ![0, 0, 0] S512x1x64
  reduces_S512x1x64_S512x1 : S512x1x64.Reduces [2] S512x1
  inb_S512x351_S512x1_0_0 : ∀ a, (![0, 0] : Fin 2 → Nat) a + S512x1.size a ≤ S512x351.size a
  h_S512x1 : 0 < S512x1.numel
  shapeCasts_S512x1_S512x1 : S512x1.ShapeCasts S512x1
  slices_S512x27x64_o0_2_0_S512x1x64 : S512x27x64.Slices ![0, 2, 0] S512x1x64
  slices_S512x27x64_o0_0_0_S512x2x64 : S512x27x64.Slices ![0, 0, 0] S512x2x64
  broadcasts_S512x1x64_S512x2x64 : S512x1x64.Broadcasts S512x2x64
  reduces_S512x2x64_S512x2 : S512x2x64.Reduces [2] S512x2
  inb_S512x351_S512x2_0_1 : ∀ a, (![0, 1] : Fin 2 → Nat) a + S512x2.size a ≤ S512x351.size a
  h_S512x2 : 0 < S512x2.numel
  shapeCasts_S512x2_S512x2 : S512x2.ShapeCasts S512x2
  slices_S512x27x64_o0_3_0_S512x1x64 : S512x27x64.Slices ![0, 3, 0] S512x1x64
  slices_S512x27x64_o0_0_0_S512x3x64 : S512x27x64.Slices ![0, 0, 0] S512x3x64
  broadcasts_S512x1x64_S512x3x64 : S512x1x64.Broadcasts S512x3x64
  reduces_S512x3x64_S512x3 : S512x3x64.Reduces [2] S512x3
  inb_S512x351_S512x3_0_3 : ∀ a, (![0, 3] : Fin 2 → Nat) a + S512x3.size a ≤ S512x351.size a
  h_S512x3 : 0 < S512x3.numel
  shapeCasts_S512x3_S512x3 : S512x3.ShapeCasts S512x3
  slices_S512x27x64_o0_4_0_S512x1x64 : S512x27x64.Slices ![0, 4, 0] S512x1x64
  slices_S512x27x64_o0_0_0_S512x4x64 : S512x27x64.Slices ![0, 0, 0] S512x4x64
  broadcasts_S512x1x64_S512x4x64 : S512x1x64.Broadcasts S512x4x64
  reduces_S512x4x64_S512x4 : S512x4x64.Reduces [2] S512x4
  inb_S512x351_S512x4_0_6 : ∀ a, (![0, 6] : Fin 2 → Nat) a + S512x4.size a ≤ S512x351.size a
  h_S512x4 : 0 < S512x4.numel
  shapeCasts_S512x4_S512x4 : S512x4.ShapeCasts S512x4
  slices_S512x27x64_o0_5_0_S512x1x64 : S512x27x64.Slices ![0, 5, 0] S512x1x64
  slices_S512x27x64_o0_0_0_S512x5x64 : S512x27x64.Slices ![0, 0, 0] S512x5x64
  broadcasts_S512x1x64_S512x5x64 : S512x1x64.Broadcasts S512x5x64
  reduces_S512x5x64_S512x5 : S512x5x64.Reduces [2] S512x5
  inb_S512x351_S512x5_0_10 : ∀ a, (![0, 10] : Fin 2 → Nat) a + S512x5.size a ≤ S512x351.size a
  h_S512x5 : 0 < S512x5.numel
  shapeCasts_S512x5_S512x5 : S512x5.ShapeCasts S512x5
  slices_S512x27x64_o0_6_0_S512x1x64 : S512x27x64.Slices ![0, 6, 0] S512x1x64
  slices_S512x27x64_o0_0_0_S512x6x64 : S512x27x64.Slices ![0, 0, 0] S512x6x64
  broadcasts_S512x1x64_S512x6x64 : S512x1x64.Broadcasts S512x6x64
  reduces_S512x6x64_S512x6 : S512x6x64.Reduces [2] S512x6
  inb_S512x351_S512x6_0_15 : ∀ a, (![0, 15] : Fin 2 → Nat) a + S512x6.size a ≤ S512x351.size a
  h_S512x6 : 0 < S512x6.numel
  shapeCasts_S512x6_S512x6 : S512x6.ShapeCasts S512x6
  slices_S512x27x64_o0_7_0_S512x1x64 : S512x27x64.Slices ![0, 7, 0] S512x1x64
  slices_S512x27x64_o0_0_0_S512x7x64 : S512x27x64.Slices ![0, 0, 0] S512x7x64
  broadcasts_S512x1x64_S512x7x64 : S512x1x64.Broadcasts S512x7x64
  reduces_S512x7x64_S512x7 : S512x7x64.Reduces [2] S512x7
  inb_S512x351_S512x7_0_21 : ∀ a, (![0, 21] : Fin 2 → Nat) a + S512x7.size a ≤ S512x351.size a
  h_S512x7 : 0 < S512x7.numel
  shapeCasts_S512x7_S512x7 : S512x7.ShapeCasts S512x7
  slices_S512x27x64_o0_8_0_S512x1x64 : S512x27x64.Slices ![0, 8, 0] S512x1x64
  slices_S512x27x64_o0_0_0_S512x8x64 : S512x27x64.Slices ![0, 0, 0] S512x8x64
  broadcasts_S512x1x64_S512x8x64 : S512x1x64.Broadcasts S512x8x64
  reduces_S512x8x64_S512x8 : S512x8x64.Reduces [2] S512x8
  inb_S512x351_S512x8_0_28 : ∀ a, (![0, 28] : Fin 2 → Nat) a + S512x8.size a ≤ S512x351.size a
  h_S512x8 : 0 < S512x8.numel
  shapeCasts_S512x8_S512x8 : S512x8.ShapeCasts S512x8
  slices_S512x27x64_o0_9_0_S512x1x64 : S512x27x64.Slices ![0, 9, 0] S512x1x64
  slices_S512x27x64_o0_0_0_S512x9x64 : S512x27x64.Slices ![0, 0, 0] S512x9x64
  broadcasts_S512x1x64_S512x9x64 : S512x1x64.Broadcasts S512x9x64
  reduces_S512x9x64_S512x9 : S512x9x64.Reduces [2] S512x9
  inb_S512x351_S512x9_0_36 : ∀ a, (![0, 36] : Fin 2 → Nat) a + S512x9.size a ≤ S512x351.size a
  h_S512x9 : 0 < S512x9.numel
  shapeCasts_S512x9_S512x9 : S512x9.ShapeCasts S512x9
  slices_S512x27x64_o0_10_0_S512x1x64 : S512x27x64.Slices ![0, 10, 0] S512x1x64
  slices_S512x27x64_o0_0_0_S512x10x64 : S512x27x64.Slices ![0, 0, 0] S512x10x64
  broadcasts_S512x1x64_S512x10x64 : S512x1x64.Broadcasts S512x10x64
  reduces_S512x10x64_S512x10 : S512x10x64.Reduces [2] S512x10
  inb_S512x351_S512x10_0_45 : ∀ a, (![0, 45] : Fin 2 → Nat) a + S512x10.size a ≤ S512x351.size a
  h_S512x10 : 0 < S512x10.numel
  shapeCasts_S512x10_S512x10 : S512x10.ShapeCasts S512x10
  slices_S512x27x64_o0_11_0_S512x1x64 : S512x27x64.Slices ![0, 11, 0] S512x1x64
  slices_S512x27x64_o0_0_0_S512x11x64 : S512x27x64.Slices ![0, 0, 0] S512x11x64
  broadcasts_S512x1x64_S512x11x64 : S512x1x64.Broadcasts S512x11x64
  reduces_S512x11x64_S512x11 : S512x11x64.Reduces [2] S512x11
  inb_S512x351_S512x11_0_55 : ∀ a, (![0, 55] : Fin 2 → Nat) a + S512x11.size a ≤ S512x351.size a
  h_S512x11 : 0 < S512x11.numel
  shapeCasts_S512x11_S512x11 : S512x11.ShapeCasts S512x11
  slices_S512x27x64_o0_12_0_S512x1x64 : S512x27x64.Slices ![0, 12, 0] S512x1x64
  slices_S512x27x64_o0_0_0_S512x12x64 : S512x27x64.Slices ![0, 0, 0] S512x12x64
  broadcasts_S512x1x64_S512x12x64 : S512x1x64.Broadcasts S512x12x64
  reduces_S512x12x64_S512x12 : S512x12x64.Reduces [2] S512x12
  inb_S512x351_S512x12_0_66 : ∀ a, (![0, 66] : Fin 2 → Nat) a + S512x12.size a ≤ S512x351.size a
  h_S512x12 : 0 < S512x12.numel
  shapeCasts_S512x12_S512x12 : S512x12.ShapeCasts S512x12
  slices_S512x27x64_o0_13_0_S512x1x64 : S512x27x64.Slices ![0, 13, 0] S512x1x64
  slices_S512x27x64_o0_0_0_S512x13x64 : S512x27x64.Slices ![0, 0, 0] S512x13x64
  broadcasts_S512x1x64_S512x13x64 : S512x1x64.Broadcasts S512x13x64
  reduces_S512x13x64_S512x13 : S512x13x64.Reduces [2] S512x13
  inb_S512x351_S512x13_0_78 : ∀ a, (![0, 78] : Fin 2 → Nat) a + S512x13.size a ≤ S512x351.size a
  shapeCasts_S512x13_S512x13 : S512x13.ShapeCasts S512x13
  slices_S512x27x64_o0_14_0_S512x1x64 : S512x27x64.Slices ![0, 14, 0] S512x1x64
  slices_S512x27x64_o0_0_0_S512x14x64 : S512x27x64.Slices ![0, 0, 0] S512x14x64
  broadcasts_S512x1x64_S512x14x64 : S512x1x64.Broadcasts S512x14x64
  reduces_S512x14x64_S512x14 : S512x14x64.Reduces [2] S512x14
  inb_S512x351_S512x14_0_91 : ∀ a, (![0, 91] : Fin 2 → Nat) a + S512x14.size a ≤ S512x351.size a
  h_S512x14 : 0 < S512x14.numel
  shapeCasts_S512x14_S512x14 : S512x14.ShapeCasts S512x14
  slices_S512x27x64_o0_15_0_S512x1x64 : S512x27x64.Slices ![0, 15, 0] S512x1x64
  slices_S512x27x64_o0_0_0_S512x15x64 : S512x27x64.Slices ![0, 0, 0] S512x15x64
  broadcasts_S512x1x64_S512x15x64 : S512x1x64.Broadcasts S512x15x64
  reduces_S512x15x64_S512x15 : S512x15x64.Reduces [2] S512x15
  inb_S512x351_S512x15_0_105 : ∀ a, (![0, 105] : Fin 2 → Nat) a + S512x15.size a ≤ S512x351.size a
  h_S512x15 : 0 < S512x15.numel
  shapeCasts_S512x15_S512x15 : S512x15.ShapeCasts S512x15
  slices_S512x27x64_o0_16_0_S512x1x64 : S512x27x64.Slices ![0, 16, 0] S512x1x64
  slices_S512x27x64_o0_0_0_S512x16x64 : S512x27x64.Slices ![0, 0, 0] S512x16x64
  broadcasts_S512x1x64_S512x16x64 : S512x1x64.Broadcasts S512x16x64
  reduces_S512x16x64_S512x16 : S512x16x64.Reduces [2] S512x16
  inb_S512x351_S512x16_0_120 : ∀ a, (![0, 120] : Fin 2 → Nat) a + S512x16.size a ≤ S512x351.size a
  h_S512x16 : 0 < S512x16.numel
  shapeCasts_S512x16_S512x16 : S512x16.ShapeCasts S512x16
  slices_S512x27x64_o0_17_0_S512x1x64 : S512x27x64.Slices ![0, 17, 0] S512x1x64
  slices_S512x27x64_o0_0_0_S512x17x64 : S512x27x64.Slices ![0, 0, 0] S512x17x64
  broadcasts_S512x1x64_S512x17x64 : S512x1x64.Broadcasts S512x17x64
  reduces_S512x17x64_S512x17 : S512x17x64.Reduces [2] S512x17
  inb_S512x351_S512x17_0_136 : ∀ a, (![0, 136] : Fin 2 → Nat) a + S512x17.size a ≤ S512x351.size a
  h_S512x17 : 0 < S512x17.numel
  shapeCasts_S512x17_S512x17 : S512x17.ShapeCasts S512x17
  slices_S512x27x64_o0_18_0_S512x1x64 : S512x27x64.Slices ![0, 18, 0] S512x1x64
  slices_S512x27x64_o0_0_0_S512x18x64 : S512x27x64.Slices ![0, 0, 0] S512x18x64
  broadcasts_S512x1x64_S512x18x64 : S512x1x64.Broadcasts S512x18x64
  reduces_S512x18x64_S512x18 : S512x18x64.Reduces [2] S512x18
  inb_S512x351_S512x18_0_153 : ∀ a, (![0, 153] : Fin 2 → Nat) a + S512x18.size a ≤ S512x351.size a
  h_S512x18 : 0 < S512x18.numel
  shapeCasts_S512x18_S512x18 : S512x18.ShapeCasts S512x18
  slices_S512x27x64_o0_19_0_S512x1x64 : S512x27x64.Slices ![0, 19, 0] S512x1x64
  slices_S512x27x64_o0_0_0_S512x19x64 : S512x27x64.Slices ![0, 0, 0] S512x19x64
  broadcasts_S512x1x64_S512x19x64 : S512x1x64.Broadcasts S512x19x64
  reduces_S512x19x64_S512x19 : S512x19x64.Reduces [2] S512x19
  inb_S512x351_S512x19_0_171 : ∀ a, (![0, 171] : Fin 2 → Nat) a + S512x19.size a ≤ S512x351.size a
  h_S512x19 : 0 < S512x19.numel
  shapeCasts_S512x19_S512x19 : S512x19.ShapeCasts S512x19
  slices_S512x27x64_o0_20_0_S512x1x64 : S512x27x64.Slices ![0, 20, 0] S512x1x64
  slices_S512x27x64_o0_0_0_S512x20x64 : S512x27x64.Slices ![0, 0, 0] S512x20x64
  broadcasts_S512x1x64_S512x20x64 : S512x1x64.Broadcasts S512x20x64
  reduces_S512x20x64_S512x20 : S512x20x64.Reduces [2] S512x20
  inb_S512x351_S512x20_0_190 : ∀ a, (![0, 190] : Fin 2 → Nat) a + S512x20.size a ≤ S512x351.size a
  h_S512x20 : 0 < S512x20.numel
  shapeCasts_S512x20_S512x20 : S512x20.ShapeCasts S512x20
  slices_S512x27x64_o0_21_0_S512x1x64 : S512x27x64.Slices ![0, 21, 0] S512x1x64
  slices_S512x27x64_o0_0_0_S512x21x64 : S512x27x64.Slices ![0, 0, 0] S512x21x64
  broadcasts_S512x1x64_S512x21x64 : S512x1x64.Broadcasts S512x21x64
  reduces_S512x21x64_S512x21 : S512x21x64.Reduces [2] S512x21
  inb_S512x351_S512x21_0_210 : ∀ a, (![0, 210] : Fin 2 → Nat) a + S512x21.size a ≤ S512x351.size a
  h_S512x21 : 0 < S512x21.numel
  shapeCasts_S512x21_S512x21 : S512x21.ShapeCasts S512x21
  slices_S512x27x64_o0_22_0_S512x1x64 : S512x27x64.Slices ![0, 22, 0] S512x1x64
  slices_S512x27x64_o0_0_0_S512x22x64 : S512x27x64.Slices ![0, 0, 0] S512x22x64
  broadcasts_S512x1x64_S512x22x64 : S512x1x64.Broadcasts S512x22x64
  reduces_S512x22x64_S512x22 : S512x22x64.Reduces [2] S512x22
  inb_S512x351_S512x22_0_231 : ∀ a, (![0, 231] : Fin 2 → Nat) a + S512x22.size a ≤ S512x351.size a
  h_S512x22 : 0 < S512x22.numel
  shapeCasts_S512x22_S512x22 : S512x22.ShapeCasts S512x22
  slices_S512x27x64_o0_23_0_S512x1x64 : S512x27x64.Slices ![0, 23, 0] S512x1x64
  slices_S512x27x64_o0_0_0_S512x23x64 : S512x27x64.Slices ![0, 0, 0] S512x23x64
  broadcasts_S512x1x64_S512x23x64 : S512x1x64.Broadcasts S512x23x64
  reduces_S512x23x64_S512x23 : S512x23x64.Reduces [2] S512x23
  inb_S512x351_S512x23_0_253 : ∀ a, (![0, 253] : Fin 2 → Nat) a + S512x23.size a ≤ S512x351.size a
  h_S512x23 : 0 < S512x23.numel
  shapeCasts_S512x23_S512x23 : S512x23.ShapeCasts S512x23
  slices_S512x27x64_o0_24_0_S512x1x64 : S512x27x64.Slices ![0, 24, 0] S512x1x64
  slices_S512x27x64_o0_0_0_S512x24x64 : S512x27x64.Slices ![0, 0, 0] S512x24x64
  broadcasts_S512x1x64_S512x24x64 : S512x1x64.Broadcasts S512x24x64
  reduces_S512x24x64_S512x24 : S512x24x64.Reduces [2] S512x24
  inb_S512x351_S512x24_0_276 : ∀ a, (![0, 276] : Fin 2 → Nat) a + S512x24.size a ≤ S512x351.size a
  h_S512x24 : 0 < S512x24.numel
  shapeCasts_S512x24_S512x24 : S512x24.ShapeCasts S512x24
  slices_S512x27x64_o0_25_0_S512x1x64 : S512x27x64.Slices ![0, 25, 0] S512x1x64
  slices_S512x27x64_o0_0_0_S512x25x64 : S512x27x64.Slices ![0, 0, 0] S512x25x64
  broadcasts_S512x1x64_S512x25x64 : S512x1x64.Broadcasts S512x25x64
  reduces_S512x25x64_S512x25 : S512x25x64.Reduces [2] S512x25
  inb_S512x351_S512x25_0_300 : ∀ a, (![0, 300] : Fin 2 → Nat) a + S512x25.size a ≤ S512x351.size a
  h_S512x25 : 0 < S512x25.numel
  shapeCasts_S512x25_S512x25 : S512x25.ShapeCasts S512x25
  slices_S512x27x64_o0_26_0_S512x1x64 : S512x27x64.Slices ![0, 26, 0] S512x1x64
  slices_S512x27x64_o0_0_0_S512x26x64 : S512x27x64.Slices ![0, 0, 0] S512x26x64
  broadcasts_S512x1x64_S512x26x64 : S512x1x64.Broadcasts S512x26x64
  reduces_S512x26x64_S512x26 : S512x26x64.Reduces [2] S512x26
  inb_S512x351_S512x26_0_325 : ∀ a, (![0, 325] : Fin 2 → Nat) a + S512x26.size a ≤ S512x351.size a
  h_S512x26 : 0 < S512x26.numel
  shapeCasts_S512x26_S512x26 : S512x26.ShapeCasts S512x26
  inb_S512x351_S512x351_0_0 : ∀ a, (![0, 0] : Fin 2 → Nat) a + S512x351.size a ≤ S512x351.size a
  h_S512x351 : 0 < S512x351.numel
  concatenates_S512x64_S512x351_S512x415_d1 : Shape.Concatenates [S512x64, S512x351] S512x415 1
  inb_S415x512_S415x512_0_0 : ∀ a, (![0, 0] : Fin 2 → Nat) a + S415x512.size a ≤ S415x512.size a
  h_S415x512 : 0 < S415x512.numel
  shapeCasts_S415x512_S415x512 : S415x512.ShapeCasts S415x512
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  gather_S26x100000x64_S4096x26x2_S4096x26x64_2_01_n_n_01_2_1164_wf : GatherDims.WF S26x100000x64 S4096x26x2 S4096x26x64 [2] [0, 1] [] [0, 1] [] 2 ![1, 1, 64]
  dot_S512x13_S13x512_S512x512_1_0_0_1_n_n_wf : DotDims.WF S512x13 S13x512 S512x512 [1] [0] [0] [1] [] []
  dot_S512x512_S512x256_S512x256_1_0_0_1_n_n_wf : DotDims.WF S512x512 S512x256 S512x256 [1] [0] [0] [1] [] []
  dot_S512x256_S256x64_S512x64_1_0_0_1_n_n_wf : DotDims.WF S512x256 S256x64 S512x64 [1] [0] [0] [1] [] []
  dot_S512x415_S415x512_S512x512_1_0_0_1_n_n_wf : DotDims.WF S512x415 S415x512 S512x512 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x13.size a ≤ S4096x13.size a
  hwx0_0 : ∀ i : grid0.Coords, EltTy.bits .f32 = 32 ∨ (Rect.block (s := S4096x13) S512x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x26x64.size a ≤ S4096x26x64.size a
  hwx0_1 : ∀ i : grid0.Coords, EltTy.bits .bf16 = 32 ∨ (Rect.block (s := S4096x26x64) S512x26x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S13x512.size a ≤ S13x512.size a
  hwx0_2 : ∀ i : grid0.Coords, EltTy.bits .f32 = 32 ∨ (Rect.block (s := S13x512) S13x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S256x64.size a
  hwx0_6 : ∀ i : grid0.Coords, EltTy.bits .f32 = 32 ∨ (Rect.block (s := S256x64) S256x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S415x512.size a ≤ S415x512.size a
  hwx0_8 : ∀ i : grid0.Coords, EltTy.bits .f32 = 32 ∨ (Rect.block (s := S415x512) S415x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S512x256.size a
  hwx0_10 : ∀ i : grid0.Coords, EltTy.bits .f32 = 32 ∨ (Rect.block (s := S512x256) S512x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x1.size a ≤ S256x1.size a
  hwx0_12 : ∀ i : grid0.Coords, EltTy.bits .f32 = 32 ∨ (Rect.block (s := S256x1) S256x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1.size a ≤ S4096x1.size a
  hwx0_14 : ∀ i : grid0.Coords, EltTy.bits .f32 = 32 ∨ (Rect.block (s := S4096x1) S512x1.size (cc0_transform_14 i) (hinb0_14 i)).WholeWords (EltTy.packing .f32)

variable [Facts₀]

def gather_S26x100000x64_S4096x26x2_S4096x26x64_2_01_n_n_01_2_1164 : GatherDims S26x100000x64 S4096x26x2 S4096x26x64 where
  offsetDims := [2]
  collapsedSliceDims := [0, 1]
  operandBatchingDims := []
  startIndicesBatchingDims := []
  startIndexMap := [0, 1]
  indexVectorDim := 2
  sliceSizes := ![1, 1, 64]
  wf := gather_S26x100000x64_S4096x26x2_S4096x26x64_2_01_n_n_01_2_1164_wf
def dot_S512x13_S13x512_S512x512_1_0_0_1_n_n : DotDims S512x13 S13x512 S512x512 where
  lhsContracting := [1]
  rhsContracting := [0]
  lhsNonContracting := [0]
  rhsNonContracting := [1]
  lhsBatch := []
  rhsBatch := []
  wf := dot_S512x13_S13x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf
def dot_S512x415_S415x512_S512x512_1_0_0_1_n_n : DotDims S512x415 S415x512 S512x512 where
  lhsContracting := [1]
  rhsContracting := [0]
  lhsNonContracting := [0]
  rhsNonContracting := [1]
  lhsBatch := []
  rhsBatch := []
  wf := dot_S512x415_S415x512_S512x512_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg0) S512x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x26x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S13x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S256x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S415x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S512x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v29) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v24) S256x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v30) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v31) S512x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S4096x13 : Shape := ⟨2, ![4096, 13]⟩
abbrev S26x4096 : Shape := ⟨2, ![26, 4096]⟩
abbrev S26x100000x64 : Shape := ⟨3, ![26, 100000, 64]⟩
abbrev S512x13 : Shape := ⟨2, ![512, 13]⟩
abbrev S512 : Shape := ⟨1, ![512]⟩
abbrev S256x512 : Shape := ⟨2, ![256, 512]⟩
abbrev S256 : Shape := ⟨1, ![256]⟩
abbrev S64x256 : Shape := ⟨2, ![64, 256]⟩
abbrev S64 : Shape := ⟨1, ![64]⟩
abbrev S512x415 : Shape := ⟨2, ![512, 415]⟩
abbrev S1x256 : Shape := ⟨2, ![1, 256]⟩
abbrev S1 : Shape := ⟨1, ![1]⟩
abbrev S13x512 : Shape := ⟨2, ![13, 512]⟩
abbrev S4096x512 : Shape := ⟨2, ![4096, 512]⟩
abbrev S1x512 : Shape := ⟨2, ![1, 512]⟩
abbrev S_ : Shape := ⟨0, ![]⟩
abbrev S512x256 : Shape := ⟨2, ![512, 256]⟩
abbrev S4096x256 : Shape := ⟨2, ![4096, 256]⟩
abbrev S256x64 : Shape := ⟨2, ![256, 64]⟩
abbrev S4096x64 : Shape := ⟨2, ![4096, 64]⟩
abbrev S1x64 : Shape := ⟨2, ![1, 64]⟩
abbrev S26x4096x1 : Shape := ⟨3, ![26, 4096, 1]⟩
abbrev S1x1x1 : Shape := ⟨3, ![1, 1, 1]⟩
abbrev S26x4096x64 : Shape := ⟨3, ![26, 4096, 64]⟩
abbrev S4096x1x64 : Shape := ⟨3, ![4096, 1, 64]⟩
abbrev S4096x26x64 : Shape := ⟨3, ![4096, 26, 64]⟩
abbrev S4096x27x64 : Shape := ⟨3, ![4096, 27, 64]⟩
abbrev S4096x27x27 : Shape := ⟨3, ![4096, 27, 27]⟩
abbrev S27x27 : Shape := ⟨2, ![27, 27]⟩
abbrev S729 : Shape := ⟨1, ![729]⟩
abbrev S351 : Shape := ⟨1, ![351]⟩
abbrev S729x1 : Shape := ⟨2, ![729, 1]⟩
abbrev S351x1 : Shape := ⟨2, ![351, 1]⟩
abbrev S351x2 : Shape := ⟨2, ![351, 2]⟩
abbrev S4096x351 : Shape := ⟨2, ![4096, 351]⟩
abbrev S4096x415 : Shape := ⟨2, ![4096, 415]⟩
abbrev S415x512 : Shape := ⟨2, ![415, 512]⟩
abbrev S256x1 : Shape := ⟨2, ![256, 1]⟩
abbrev S4096x1 : Shape := ⟨2, ![4096, 1]⟩
abbrev S1x1 : Shape := ⟨2, ![1, 1]⟩

abbrev nBuf : Space → Nat
  | .hbm => 220
  | .vmem => 0
  | .smem => 0
  | _ => 0

abbrev hbmTy0_0 (i : Nat) : BufTy := match i % 128 with
  | 0 => ⟨S4096x13, .f32⟩
  | 1 => ⟨S26x4096, .i32⟩
  | 2 => ⟨S26x100000x64, .f32⟩
  | 3 => ⟨S512x13, .f32⟩
  | 4 => ⟨S512, .f32⟩
  | 5 => ⟨S256x512, .f32⟩
  | 6 => ⟨S256, .f32⟩
  | 7 => ⟨S64x256, .f32⟩
  | 8 => ⟨S64, .f32⟩
  | 9 => ⟨S512x415, .f32⟩
  | 10 => ⟨S512, .f32⟩
  | 11 => ⟨S256x512, .f32⟩
  | 12 => ⟨S256, .f32⟩
  | 13 => ⟨S1x256, .f32⟩
  | 14 => ⟨S1, .f32⟩
  | 15 => ⟨S13x512, .f32⟩
  | 16 => ⟨S4096x512, .f32⟩
  | 17 => ⟨S1x512, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S512x256, .f32⟩
  | 24 => ⟨S4096x256, .f32⟩
  | 25 => ⟨S1x256, .f32⟩
  | 26 => ⟨S4096x256, .f32⟩
  | 27 => ⟨S4096x256, .f32⟩
  | 28 => ⟨S_, .f32⟩
  | 29 => ⟨S4096x256, .f32⟩
  | 30 => ⟨S4096x256, .f32⟩
  | 31 => ⟨S256x64, .f32⟩
  | 32 => ⟨S4096x64, .f32⟩
  | 33 => ⟨S1x64, .f32⟩
  | 34 => ⟨S4096x64, .f32⟩
  | 35 => ⟨S4096x64, .f32⟩
  | 36 => ⟨S26x4096x1, .i32⟩
  | 37 => ⟨S_, .i32⟩
  | 38 => ⟨S26x4096x1, .i32⟩
  | 39 => ⟨S26x4096x1, .i1⟩
  | 40 => ⟨S_, .i32⟩
  | 41 => ⟨S26x4096x1, .i32⟩
  | 42 => ⟨S26x4096x1, .i32⟩
  | 43 => ⟨S26x4096x1, .i32⟩
  | 44 => ⟨S1, .i32⟩
  | 45 => ⟨S_, .i32⟩
  | 46 => ⟨S26x4096x1, .i32⟩
  | 47 => ⟨S26x4096x1, .i1⟩
  | 48 => ⟨S1x1x1, .i32⟩
  | 49 => ⟨S26x4096x1, .i32⟩
  | 50 => ⟨S26x4096x1, .i1⟩
  | 51 => ⟨S26x4096x1, .i1⟩
  | 52 => ⟨S_, .i1⟩
  | 53 => ⟨S26x4096, .i1⟩
  | 54 => ⟨S26x4096x64, .f32⟩
  | 55 => ⟨S26x4096x64, .i1⟩
  | 56 => ⟨S_, .f32⟩
  | 57 => ⟨S26x4096x64, .f32⟩
  | 58 => ⟨S26x4096x64, .f32⟩
  | 59 => ⟨S4096x1x64, .f32⟩
  | 60 => ⟨S4096x26x64, .f32⟩
  | 61 => ⟨S4096x27x64, .f32⟩
  | 62 => ⟨S4096x27x27, .f32⟩
  | 63 => ⟨S_, .f32⟩
  | 64 => ⟨S27x27, .f32⟩
  | 65 => ⟨S27x27, .i32⟩
  | 66 => ⟨S_, .i32⟩
  | 67 => ⟨S27x27, .i32⟩
  | 68 => ⟨S27x27, .i32⟩
  | 69 => ⟨S27x27, .i32⟩
  | 70 => ⟨S27x27, .i1⟩
  | 71 => ⟨S_, .f32⟩
  | 72 => ⟨S27x27, .f32⟩
  | 73 => ⟨S27x27, .f32⟩
  | 74 => ⟨S_, .f32⟩
  | 75 => ⟨S27x27, .f32⟩
  | 76 => ⟨S27x27, .i1⟩
  | 77 => ⟨S729, .i1⟩
  | 78 => ⟨S729, .i32⟩
  | 79 => ⟨S_, .i32⟩
  | 80 => ⟨S_, .i32⟩
  | 81 => ⟨S729, .i32⟩
  | 82 => ⟨S_, .i32⟩
  | 83 => ⟨S351, .i32⟩
  | 84 => ⟨S_, .i32⟩
  | 85 => ⟨S_, .i32⟩
  | 86 => ⟨S729, .i32⟩
  | 87 => ⟨S729, .i32⟩
  | 88 => ⟨S_, .i32⟩
  | 89 => ⟨S729, .i32⟩
  | 90 => ⟨S729, .i1⟩
  | 91 => ⟨S_, .i32⟩
  | 92 => ⟨S729, .i32⟩
  | 93 => ⟨S729, .i32⟩
  | 94 => ⟨S729, .i32⟩
  | 95 => ⟨S729x1, .i32⟩
  | 96 => ⟨S_, .i32⟩
  | 97 => ⟨S729, .i32⟩
  | 98 => ⟨S351, .i32⟩
  | 99 => ⟨S_, .i32⟩
  | 100 => ⟨S_, .i32⟩
  | 101 => ⟨S351, .i32⟩
  | 102 => ⟨S_, .i32⟩
  | 103 => ⟨S351, .i32⟩
  | 104 => ⟨S351, .i32⟩
  | 105 => ⟨S351, .i32⟩
  | 106 => ⟨S_, .i32⟩
  | 107 => ⟨S351, .i32⟩
  | 108 => ⟨S351, .i1⟩
  | 109 => ⟨S351, .i32⟩
  | 110 => ⟨S351, .i32⟩
  | 111 => ⟨S_, .i32⟩
  | 112 => ⟨S351, .i32⟩
  | 113 => ⟨S351, .i1⟩
  | 114 => ⟨S351, .i1⟩
  | 115 => ⟨S_, .i32⟩
  | 116 => ⟨S351, .i32⟩
  | 117 => ⟨S351, .i32⟩
  | 118 => ⟨S351, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S351, .i32⟩
  | 126 => ⟨S351, .i32⟩
  | 127 => ⟨S_, .i32⟩
  | _ => ⟨S4096x13, .f32⟩

abbrev hbmTy0_1 (i : Nat) : BufTy := match i % 128 with
  | 0 => ⟨S351, .i32⟩
  | 1 => ⟨S351, .i1⟩
  | 2 => ⟨S_, .i32⟩
  | 3 => ⟨S351, .i32⟩
  | 4 => ⟨S351, .i1⟩
  | 5 => ⟨S_, .i32⟩
  | 6 => ⟨S_, .i1⟩
  | 7 => ⟨S351, .i1⟩
  | 8 => ⟨S351, .i1⟩
  | 9 => ⟨S351, .i1⟩
  | 10 => ⟨S351, .i32⟩
  | 11 => ⟨S351, .i32⟩
  | 12 => ⟨S351, .i32⟩
  | 13 => ⟨S_, .i32⟩
  | 14 => ⟨S351, .i32⟩
  | 15 => ⟨S351, .i32⟩
  | 16 => ⟨S351, .i32⟩
  | 17 => ⟨S_, .i32⟩
  | 18 => ⟨S351, .i32⟩
  | 19 => ⟨S351, .i1⟩
  | 20 => ⟨S351, .i32⟩
  | 21 => ⟨S351, .i32⟩
  | 22 => ⟨S_, .i32⟩
  | 23 => ⟨S351, .i32⟩
  | 24 => ⟨S351, .i1⟩
  | 25 => ⟨S351, .i1⟩
  | 26 => ⟨S_, .i32⟩
  | 27 => ⟨S351, .i32⟩
  | 28 => ⟨S351, .i32⟩
  | 29 => ⟨S351, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S351, .i32⟩
  | 37 => ⟨S351, .i32⟩
  | 38 => ⟨S_, .i32⟩
  | 39 => ⟨S351, .i32⟩
  | 40 => ⟨S351, .i1⟩
  | 41 => ⟨S_, .i32⟩
  | 42 => ⟨S351, .i32⟩
  | 43 => ⟨S351, .i1⟩
  | 44 => ⟨S_, .i32⟩
  | 45 => ⟨S_, .i1⟩
  | 46 => ⟨S351, .i1⟩
  | 47 => ⟨S351, .i1⟩
  | 48 => ⟨S351, .i1⟩
  | 49 => ⟨S351, .i32⟩
  | 50 => ⟨S351, .i32⟩
  | 51 => ⟨S351, .i32⟩
  | 52 => ⟨S_, .i32⟩
  | 53 => ⟨S351, .i32⟩
  | 54 => ⟨S351, .i1⟩
  | 55 => ⟨S_, .i32⟩
  | 56 => ⟨S351, .i32⟩
  | 57 => ⟨S351, .i32⟩
  | 58 => ⟨S351, .i32⟩
  | 59 => ⟨S_, .i32⟩
  | 60 => ⟨S351, .i32⟩
  | 61 => ⟨S351, .i1⟩
  | 62 => ⟨S_, .i32⟩
  | 63 => ⟨S351, .i32⟩
  | 64 => ⟨S351, .i32⟩
  | 65 => ⟨S351, .i32⟩
  | 66 => ⟨S351x1, .i32⟩
  | 67 => ⟨S351x1, .i32⟩
  | 68 => ⟨S351x2, .i32⟩
  | 69 => ⟨S4096x351, .f32⟩
  | 70 => ⟨S4096x415, .f32⟩
  | 71 => ⟨S415x512, .f32⟩
  | 72 => ⟨S4096x512, .f32⟩
  | 73 => ⟨S1x512, .f32⟩
  | 74 => ⟨S4096x512, .f32⟩
  | 75 => ⟨S4096x512, .f32⟩
  | 76 => ⟨S_, .f32⟩
  | 77 => ⟨S4096x512, .f32⟩
  | 78 => ⟨S4096x512, .f32⟩
  | 79 => ⟨S512x256, .f32⟩
  | 80 => ⟨S4096x256, .f32⟩
  | 81 => ⟨S1x256, .f32⟩
  | 82 => ⟨S4096x256, .f32⟩
  | 83 => ⟨S4096x256, .f32⟩
  | 84 => ⟨S_, .f32⟩
  | 85 => ⟨S4096x256, .f32⟩
  | 86 => ⟨S4096x256, .f32⟩
  | 87 => ⟨S256x1, .f32⟩
  | 88 => ⟨S4096x1, .f32⟩
  | 89 => ⟨S1x1, .f32⟩
  | 90 => ⟨S4096x1, .f32⟩
  | 91 => ⟨S4096x1, .f32⟩
  | _ => ⟨S4096x13, .f32⟩

abbrev hbmTy (i : Nat) : BufTy := match i / 128 with
  | 0 => hbmTy0_0 i
  | 1 => hbmTy0_1 i
  | _ => ⟨S4096x13, .f32⟩

abbrev bufTy : (tb : Table) → Fin (tcTables nBuf tb) → BufTy
  | .hbm, ⟨i, _⟩ => hbmTy i
  | _, _ => ⟨S4096x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_cst : Ref sig .tc := ⟨.hbm, 28, rfl⟩
abbrev main_call1_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_c_1 : Ref sig .tc := ⟨.hbm, 44, rfl⟩
abbrev main_call2_c_2 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_c_3 : Ref sig .tc := ⟨.hbm, 52, rfl⟩
abbrev main_call2_v11 : Ref sig .tc := ⟨.hbm, 53, rfl⟩
abbrev main_call2_v12 : Ref sig .tc := ⟨.hbm, 54, rfl⟩
abbrev main_call2_v13 : Ref sig .tc := ⟨.hbm, 55, rfl⟩
abbrev main_call2_cst : Ref sig .tc := ⟨.hbm, 56, rfl⟩
abbrev main_call2_v14 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst : Ref sig .tc := ⟨.hbm, 63, rfl⟩
abbrev main_v23 : Ref sig .tc := ⟨.hbm, 64, rfl⟩
abbrev main_call3_v0 : Ref sig .tc := ⟨.hbm, 65, rfl⟩
abbrev main_call3_c : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_cst : Ref sig .tc := ⟨.hbm, 71, rfl⟩
abbrev main_call3_v5 : Ref sig .tc := ⟨.hbm, 72, rfl⟩
abbrev main_v24 : Ref sig .tc := ⟨.hbm, 73, rfl⟩
abbrev main_cst_0 : Ref sig .tc := ⟨.hbm, 74, rfl⟩
abbrev main_v25 : Ref sig .tc := ⟨.hbm, 75, rfl⟩
abbrev main_v26 : Ref sig .tc := ⟨.hbm, 76, rfl⟩
abbrev main_call4_v0 : Ref sig .tc := ⟨.hbm, 77, rfl⟩
abbrev main_call4_v1 : Ref sig .tc := ⟨.hbm, 78, rfl⟩
abbrev main_call4_call0_c : Ref sig .tc := ⟨.hbm, 79, rfl⟩
abbrev main_call4_call0_v0 : Ref sig .tc := ⟨.hbm, 80, rfl⟩
abbrev main_v27 : Ref sig .tc := ⟨.hbm, 81, rfl⟩
abbrev main_c : Ref sig .tc := ⟨.hbm, 82, rfl⟩
abbrev main_v28 : Ref sig .tc := ⟨.hbm, 83, rfl⟩
abbrev main_c_1 : Ref sig .tc := ⟨.hbm, 84, rfl⟩
abbrev main_call5_v0 : Ref sig .tc := ⟨.hbm, 85, rfl⟩
abbrev main_call5_v1 : Ref sig .tc := ⟨.hbm, 86, rfl⟩
abbrev main_v29 : Ref sig .tc := ⟨.hbm, 87, rfl⟩
abbrev main_c_2 : Ref sig .tc := ⟨.hbm, 88, rfl⟩
abbrev main_v30 : Ref sig .tc := ⟨.hbm, 89, rfl⟩
abbrev main_v31 : Ref sig .tc := ⟨.hbm, 90, rfl⟩
abbrev main_c_3 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_c_4 : Ref sig .tc := ⟨.hbm, 96, rfl⟩
abbrev main_v36 : Ref sig .tc := ⟨.hbm, 97, rfl⟩
abbrev main_v37 : Ref sig .tc := ⟨.hbm, 98, rfl⟩
abbrev main_call6_call0_c : Ref sig .tc := ⟨.hbm, 99, rfl⟩
abbrev main_call6_call0_v0 : Ref sig .tc := ⟨.hbm, 100, rfl⟩
abbrev main_v38 : Ref sig .tc := ⟨.hbm, 101, rfl⟩
abbrev main_c_5 : Ref sig .tc := ⟨.hbm, 102, rfl⟩
abbrev main_call7_v0 : Ref sig .tc := ⟨.hbm, 103, rfl⟩
abbrev main_call7_v1 : Ref sig .tc := ⟨.hbm, 104, rfl⟩
abbrev main_call7_v2 : Ref sig .tc := ⟨.hbm, 105, rfl⟩
abbrev main_call7_v3 : Ref sig .tc := ⟨.hbm, 106, rfl⟩
abbrev main_call7_v4 : Ref sig .tc := ⟨.hbm, 107, rfl⟩
abbrev main_call7_v5 : Ref sig .tc := ⟨.hbm, 108, rfl⟩
abbrev main_call7_v6 : Ref sig .tc := ⟨.hbm, 109, rfl⟩
abbrev main_call7_v7 : Ref sig .tc := ⟨.hbm, 110, rfl⟩
abbrev main_call7_c : Ref sig .tc := ⟨.hbm, 111, rfl⟩
abbrev main_call7_v8 : Ref sig .tc := ⟨.hbm, 112, rfl⟩
abbrev main_call7_v9 : Ref sig .tc := ⟨.hbm, 113, rfl⟩
abbrev main_call7_v10 : Ref sig .tc := ⟨.hbm, 114, rfl⟩
abbrev main_call7_c_0 : Ref sig .tc := ⟨.hbm, 115, rfl⟩
abbrev main_call7_v11 : Ref sig .tc := ⟨.hbm, 116, rfl⟩
abbrev main_call7_v12 : Ref sig .tc := ⟨.hbm, 117, rfl⟩
abbrev main_v39 : Ref sig .tc := ⟨.hbm, 118, rfl⟩
abbrev main_c_6 : Ref sig .tc := ⟨.hbm, 119, rfl⟩
abbrev main_call8_v0 : Ref sig .tc := ⟨.hbm, 120, rfl⟩
abbrev main_call8_c : Ref sig .tc := ⟨.hbm, 121, rfl⟩
abbrev main_call8_v1 : Ref sig .tc := ⟨.hbm, 122, rfl⟩
abbrev main_call8_c_0 : Ref sig .tc := ⟨.hbm, 123, rfl⟩
abbrev main_call8_v2 : Ref sig .tc := ⟨.hbm, 124, rfl⟩
abbrev main_call8_v3 : Ref sig .tc := ⟨.hbm, 125, rfl⟩
abbrev main_call8_v4 : Ref sig .tc := ⟨.hbm, 126, rfl⟩
abbrev main_call8_c_1 : Ref sig .tc := ⟨.hbm, 127, rfl⟩
abbrev main_call8_v5 : Ref sig .tc := ⟨.hbm, 128, rfl⟩
abbrev main_call8_v6 : Ref sig .tc := ⟨.hbm, 129, rfl⟩
abbrev main_call8_c_2 : Ref sig .tc := ⟨.hbm, 130, rfl⟩
abbrev main_call8_v7 : Ref sig .tc := ⟨.hbm, 131, rfl⟩
abbrev main_call8_v8 : Ref sig .tc := ⟨.hbm, 132, rfl⟩
abbrev main_call8_c_3 : Ref sig .tc := ⟨.hbm, 133, rfl⟩
abbrev main_call8_v9 : Ref sig .tc := ⟨.hbm, 134, rfl⟩
abbrev main_call8_v10 : Ref sig .tc := ⟨.hbm, 135, rfl⟩
abbrev main_call8_v11 : Ref sig .tc := ⟨.hbm, 136, rfl⟩
abbrev main_call8_v12 : Ref sig .tc := ⟨.hbm, 137, rfl⟩
abbrev main_call8_v13 : Ref sig .tc := ⟨.hbm, 138, rfl⟩
abbrev main_call8_v14 : Ref sig .tc := ⟨.hbm, 139, rfl⟩
abbrev main_v40 : Ref sig .tc := ⟨.hbm, 140, rfl⟩
abbrev main_c_7 : Ref sig .tc := ⟨.hbm, 141, rfl⟩
abbrev main_call9_v0 : Ref sig .tc := ⟨.hbm, 142, rfl⟩
abbrev main_call9_v1 : Ref sig .tc := ⟨.hbm, 143, rfl⟩
abbrev main_call9_v2 : Ref sig .tc := ⟨.hbm, 144, rfl⟩
abbrev main_call9_v3 : Ref sig .tc := ⟨.hbm, 145, rfl⟩
abbrev main_call9_v4 : Ref sig .tc := ⟨.hbm, 146, rfl⟩
abbrev main_call9_v5 : Ref sig .tc := ⟨.hbm, 147, rfl⟩
abbrev main_call9_v6 : Ref sig .tc := ⟨.hbm, 148, rfl⟩
abbrev main_call9_v7 : Ref sig .tc := ⟨.hbm, 149, rfl⟩
abbrev main_call9_c : Ref sig .tc := ⟨.hbm, 150, rfl⟩
abbrev main_call9_v8 : Ref sig .tc := ⟨.hbm, 151, rfl⟩
abbrev main_call9_v9 : Ref sig .tc := ⟨.hbm, 152, rfl⟩
abbrev main_call9_v10 : Ref sig .tc := ⟨.hbm, 153, rfl⟩
abbrev main_call9_c_0 : Ref sig .tc := ⟨.hbm, 154, rfl⟩
abbrev main_call9_v11 : Ref sig .tc := ⟨.hbm, 155, rfl⟩
abbrev main_call9_v12 : Ref sig .tc := ⟨.hbm, 156, rfl⟩
abbrev main_v41 : Ref sig .tc := ⟨.hbm, 157, rfl⟩
abbrev main_c_8 : Ref sig .tc := ⟨.hbm, 158, rfl⟩
abbrev main_call10_v0 : Ref sig .tc := ⟨.hbm, 159, rfl⟩
abbrev main_call10_c : Ref sig .tc := ⟨.hbm, 160, rfl⟩
abbrev main_call10_v1 : Ref sig .tc := ⟨.hbm, 161, rfl⟩
abbrev main_call10_c_0 : Ref sig .tc := ⟨.hbm, 162, rfl⟩
abbrev main_call10_v2 : Ref sig .tc := ⟨.hbm, 163, rfl⟩
abbrev main_call10_v3 : Ref sig .tc := ⟨.hbm, 164, rfl⟩
abbrev main_call10_v4 : Ref sig .tc := ⟨.hbm, 165, rfl⟩
abbrev main_call10_c_1 : Ref sig .tc := ⟨.hbm, 166, rfl⟩
abbrev main_call10_v5 : Ref sig .tc := ⟨.hbm, 167, rfl⟩
abbrev main_call10_v6 : Ref sig .tc := ⟨.hbm, 168, rfl⟩
abbrev main_call10_c_2 : Ref sig .tc := ⟨.hbm, 169, rfl⟩
abbrev main_call10_v7 : Ref sig .tc := ⟨.hbm, 170, rfl⟩
abbrev main_call10_v8 : Ref sig .tc := ⟨.hbm, 171, rfl⟩
abbrev main_call10_c_3 : Ref sig .tc := ⟨.hbm, 172, rfl⟩
abbrev main_call10_v9 : Ref sig .tc := ⟨.hbm, 173, rfl⟩
abbrev main_call10_v10 : Ref sig .tc := ⟨.hbm, 174, rfl⟩
abbrev main_call10_v11 : Ref sig .tc := ⟨.hbm, 175, rfl⟩
abbrev main_call10_v12 : Ref sig .tc := ⟨.hbm, 176, rfl⟩
abbrev main_call10_v13 : Ref sig .tc := ⟨.hbm, 177, rfl⟩
abbrev main_call10_v14 : Ref sig .tc := ⟨.hbm, 178, rfl⟩
abbrev main_v42 : Ref sig .tc := ⟨.hbm, 179, rfl⟩
abbrev main_c_9 : Ref sig .tc := ⟨.hbm, 180, rfl⟩
abbrev main_v43 : Ref sig .tc := ⟨.hbm, 181, rfl⟩
abbrev main_v44 : Ref sig .tc := ⟨.hbm, 182, rfl⟩
abbrev main_c_10 : Ref sig .tc := ⟨.hbm, 183, rfl⟩
abbrev main_v45 : Ref sig .tc := ⟨.hbm, 184, rfl⟩
abbrev main_v46 : Ref sig .tc := ⟨.hbm, 185, rfl⟩
abbrev main_v47 : Ref sig .tc := ⟨.hbm, 186, rfl⟩
abbrev main_c_11 : Ref sig .tc := ⟨.hbm, 187, rfl⟩
abbrev main_v48 : Ref sig .tc := ⟨.hbm, 188, rfl⟩
abbrev main_v49 : Ref sig .tc := ⟨.hbm, 189, rfl⟩
abbrev main_c_12 : Ref sig .tc := ⟨.hbm, 190, rfl⟩
abbrev main_v50 : Ref sig .tc := ⟨.hbm, 191, rfl⟩
abbrev main_v51 : Ref sig .tc := ⟨.hbm, 192, rfl⟩
abbrev main_v52 : Ref sig .tc := ⟨.hbm, 193, rfl⟩
abbrev main_v53 : Ref sig .tc := ⟨.hbm, 194, rfl⟩
abbrev main_v54 : Ref sig .tc := ⟨.hbm, 195, rfl⟩
abbrev main_v55 : Ref sig .tc := ⟨.hbm, 196, rfl⟩
abbrev main_v56 : Ref sig .tc := ⟨.hbm, 197, rfl⟩
abbrev main_v57 : Ref sig .tc := ⟨.hbm, 198, rfl⟩
abbrev main_v58 : Ref sig .tc := ⟨.hbm, 199, rfl⟩
abbrev main_v59 : Ref sig .tc := ⟨.hbm, 200, rfl⟩
abbrev main_v60 : Ref sig .tc := ⟨.hbm, 201, rfl⟩
abbrev main_v61 : Ref sig .tc := ⟨.hbm, 202, rfl⟩
abbrev main_v62 : Ref sig .tc := ⟨.hbm, 203, rfl⟩
abbrev main_call11_cst : Ref sig .tc := ⟨.hbm, 204, rfl⟩
abbrev main_call11_v0 : Ref sig .tc := ⟨.hbm, 205, rfl⟩
abbrev main_v63 : Ref sig .tc := ⟨.hbm, 206, rfl⟩
abbrev main_v64 : Ref sig .tc := ⟨.hbm, 207, rfl⟩
abbrev main_v65 : Ref sig .tc := ⟨.hbm, 208, rfl⟩
abbrev main_v66 : Ref sig .tc := ⟨.hbm, 209, rfl⟩
abbrev main_v67 : Ref sig .tc := ⟨.hbm, 210, rfl⟩
abbrev main_v68 : Ref sig .tc := ⟨.hbm, 211, rfl⟩
abbrev main_call12_cst : Ref sig .tc := ⟨.hbm, 212, rfl⟩
abbrev main_call12_v0 : Ref sig .tc := ⟨.hbm, 213, rfl⟩
abbrev main_v69 : Ref sig .tc := ⟨.hbm, 214, rfl⟩
abbrev main_v70 : Ref sig .tc := ⟨.hbm, 215, rfl⟩
abbrev main_v71 : Ref sig .tc := ⟨.hbm, 216, rfl⟩
abbrev main_v72 : Ref sig .tc := ⟨.hbm, 217, rfl⟩
abbrev main_v73 : Ref sig .tc := ⟨.hbm, 218, rfl⟩
abbrev main_v74 : Ref sig .tc := ⟨.hbm, 219, rfl⟩

abbrev nD : Nat := 1
abbrev τ : Topo := Topo.v7x

variable {F : FTy → Type} [FloatOps F]

class Facts₀ : Prop where
  transposes_S512x13_S13x512_1_0 : S512x13.Transposes [1, 0] S13x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  transposes_S256x512_S512x256_1_0 : S256x512.Transposes [1, 0] S512x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  transposes_S64x256_S256x64_1_0 : S64x256.Transposes [1, 0] S256x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S26x4096_S26x4096x1_0_1 : S26x4096.BroadcastsInDim S26x4096x1 (![0, 1] : Fin 2 → Fin S26x4096x1.rank)
  bcast_S_S26x4096x1 : S_.BroadcastsInDim S26x4096x1 (![] : Fin 0 → Fin S26x4096x1.rank)
  bcast_S1_S1x1x1_2 : S1.BroadcastsInDim S1x1x1 (![2] : Fin 1 → Fin S1x1x1.rank)
  bcast_S1x1x1_S26x4096x1_0_1_2 : S1x1x1.BroadcastsInDim S26x4096x1 (![0, 1, 2] : Fin 3 → Fin S26x4096x1.rank)
  reducesTo_S26x4096x1_S26x4096_d2 : S26x4096x1.ReducesTo [2] S26x4096
  h_S_ : 0 < S_.numel
  bcast_S26x4096_S26x4096x64_0_1 : S26x4096.BroadcastsInDim S26x4096x64 (![0, 1] : Fin 2 → Fin S26x4096x64.rank)
  bcast_S_S26x4096x64 : S_.BroadcastsInDim S26x4096x64 (![] : Fin 0 → Fin S26x4096x64.rank)
  bcast_S4096x64_S4096x1x64_0_2 : S4096x64.BroadcastsInDim S4096x1x64 (![0, 2] : Fin 2 → Fin S4096x1x64.rank)
  transposes_S26x4096x64_S4096x26x64_1_0_2 : S26x4096x64.Transposes [1, 0, 2] S4096x26x64
  concatenates_S4096x1x64_S4096x26x64_S4096x27x64_d1 : Shape.Concatenates [S4096x1x64, S4096x26x64] S4096x27x64 1
  bcast_S_S27x27 : S_.BroadcastsInDim S27x27 (![] : Fin 0 → Fin S27x27.rank)
  shapeCasts_S27x27_S729 : S27x27.ShapeCasts S729
  natLt_1_32 : 1 < 32
  bcast_S_S_ : S_.BroadcastsInDim S_ (![] : Fin 0 → Fin S_.rank)
  reduceWindows_S729_S729_w729s1p728_0 : S729.ReduceWindows (![729] : Fin 1 → Nat) ![1] ![728] ![0] S729
  bcast_S_S351 : S_.BroadcastsInDim S351 (![] : Fin 0 → Fin S351.rank)
  bcast_S_S729 : S_.BroadcastsInDim S729 (![] : Fin 0 → Fin S729.rank)
  bcast_S729_S729x1_0 : S729.BroadcastsInDim S729x1 (![0] : Fin 1 → Fin S729x1.rank)
  reduceWindows_S351_S351_w351s1p350_0 : S351.ReduceWindows (![351] : Fin 1 → Nat) ![1] ![350] ![0] S351
  bcast_S351_S351x1_0 : S351.BroadcastsInDim S351x1 (![0] : Fin 1 → Fin S351x1.rank)
  concatenates_S351x1_S351x1_S351x2_d1 : Shape.Concatenates [S351x1, S351x1] S351x2 1
  concatenates_S4096x64_S4096x351_S4096x415_d1 : Shape.Concatenates [S4096x64, S4096x351] S4096x415 1
  transposes_S512x415_S415x512_1_0 : S512x415.Transposes [1, 0] S415x512
  transposes_S1x256_S256x1_1_0 : S1x256.Transposes [1, 0] S256x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x13_S13x512_S4096x512_1_0_0_1_n_n_wf : DotDims.WF S4096x13 S13x512 S4096x512 [1] [0] [0] [1] [] []
  dot_S4096x512_S512x256_S4096x256_1_0_0_1_n_n_wf : DotDims.WF S4096x512 S512x256 S4096x256 [1] [0] [0] [1] [] []
  dot_S4096x256_S256x64_S4096x64_1_0_0_1_n_n_wf : DotDims.WF S4096x256 S256x64 S4096x64 [1] [0] [0] [1] [] []
  gather_S26x100000x64_S26x4096x1_S26x4096x64_2_1_0_0_1_2_1164_wf : GatherDims.WF S26x100000x64 S26x4096x1 S26x4096x64 [2] [1] [0] [1] [0] 2 ![1, 1, 64]
  dot_S4096x27x64_S4096x27x64_S4096x27x27_2_2_1_1_0_0_wf : DotDims.WF S4096x27x64 S4096x27x64 S4096x27x27 [2] [2] [1] [1] [0] [0]
  scatter_S351_S729x1_S729_n_0_0_1_wf : ScatterDims.WF S351 S729x1 S729 [] [0] [0] 1
  gather_S4096x27x27_S351x2_S4096x351_0_12_n_n_12_1_409611_wf : GatherDims.WF S4096x27x27 S351x2 S4096x351 [0] [1, 2] [] [1, 2] [] 1 ![4096, 1, 1]
  dot_S4096x415_S415x512_S4096x512_1_0_0_1_n_n_wf : DotDims.WF S4096x415 S415x512 S4096x512 [1] [0] [0] [1] [] []
  dot_S4096x256_S256x1_S4096x1_1_0_0_1_n_n_wf : DotDims.WF S4096x256 S256x1 S4096x1 [1] [0] [0] [1] [] []

variable [Facts₀]

def dot_S4096x13_S13x512_S4096x512_1_0_0_1_n_n : DotDims S4096x13 S13x512 S4096x512 where
  lhsContracting := [1]
  rhsContracting := [0]
  lhsNonContracting := [0]
  rhsNonContracting := [1]
  lhsBatch := []
  rhsBatch := []
  wf := dot_S4096x13_S13x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def gather_S26x100000x64_S26x4096x1_S26x4096x64_2_1_0_0_1_2_1164 : GatherDims S26x100000x64 S26x4096x1 S26x4096x64 where
  offsetDims := [2]
  collapsedSliceDims := [1]
  operandBatchingDims := [0]
  startIndicesBatchingDims := [0]
  startIndexMap := [1]
  indexVectorDim := 2
  sliceSizes := ![1, 1, 64]
  wf := gather_S26x100000x64_S26x4096x1_S26x4096x64_2_1_0_0_1_2_1164_wf
def dot_S4096x27x64_S4096x27x64_S4096x27x27_2_2_1_1_0_0 : DotDims S4096x27x64 S4096x27x64 S4096x27x27 where
  lhsContracting := [2]
  rhsContracting := [2]
  lhsNonContracting := [1]
  rhsNonContracting := [1]
  lhsBatch := [0]
  rhsBatch := [0]
  wf := dot_S4096x27x64_S4096x27x64_S4096x27x27_2_2_1_1_0_0_wf
def scatter_S351_S729x1_S729_n_0_0_1 : ScatterDims S351 S729x1 S729 where
  updateWindowDims := []
  insertedWindowDims := [0]
  scatterDimsToOperandDims := [0]
  indexVectorDim := 1
  wf := scatter_S351_S729x1_S729_n_0_0_1_wf
def gather_S4096x27x27_S351x2_S4096x351_0_12_n_n_12_1_409611 : GatherDims S4096x27x27 S351x2 S4096x351 where
  offsetDims := [0]
  collapsedSliceDims := [1, 2]
  operandBatchingDims := []
  startIndicesBatchingDims := []
  startIndexMap := [1, 2]
  indexVectorDim := 1
  sliceSizes := ![4096, 1, 1]
  wf := gather_S4096x27x27_S351x2_S4096x351_0_12_n_n_12_1_409611_wf
def dot_S4096x415_S415x512_S4096x512_1_0_0_1_n_n : DotDims S4096x415 S415x512 S4096x512 where
  lhsContracting := [1]
  rhsContracting := [0]
  lhsNonContracting := [0]
  rhsNonContracting := [1]
  lhsBatch := []
  rhsBatch := []
  wf := dot_S4096x415_S415x512_S4096x512_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

class Facts : Prop extends Facts₀ where

variable [Facts]
-- ==== Proof.PreIdx.lean ====
/-
  From the certificate's precondition to the range of the sparse indices. The printed predicate is a conjunction of
  fifteen "all entries satisfy …" tests; its last conjunct says that every 32-bit word x of the [26, 4096] index array
  satisfies 0 ≤ x and x < 100000 as signed words. A word that is non-negative as a signed word has its top bit clear, so
  its signed and unsigned readings agree, and the second comparison then bounds the unsigned reading: x.toNat < 100000.
  Only the last conjunct is opened; the fourteen finiteness conjuncts are split off unread.
-/
import proofs.«424834_j5669356831571_3_alg».proof.Defs
import proofs.«424834_j5669356831571_3_alg».proof.Proof.Gen.Pre_finite_inputs
import Idealize.ShloMosaic.Lib.ReduceAll
import Idealize.ShloMosaic.Lib.StableHlo.Predicate

noncomputable section

namespace Cert.Proof.Pre

open Idealize.ShloMosaic Idealize.SL.Sem
open Cert.Pre_finite_inputs

/-- The rank-0 shape has exactly one index. -/
instance subsingleton_S_ : Subsingleton S_.Idx := ⟨fun a b => funext fun d => d.elim0⟩

/-- A 32-bit word in [0, n) as a signed word is below n as an unsigned one (n itself a non-negative signed word). -/
theorem word_lt (w : BitVec 32) (h0 : IntOp.cmpi .sge w 0#32 = 1#1) (h1 : IntOp.cmpi .slt w 100000#32 = 1#1) :
    w.toNat < 100000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (100000#32 : BitVec 32).toInt = 100000 := by decide
  rw [e0] at h0
  rw [e1] at h1
  rw [BitVec.toInt_eq_toNat_cond] at h0 h1
  have h32 := w.isLt
  split at h0 <;> omega

section generic

variable [hF : Facts]

/-- The last part of the predicate at its one index: if it is 1 then every index word is in range. -/
theorem part4_idx {F : FTy → Type} [FloatOps F] (a1 : IVec S26x4096 32) (v63 v67 : IVec S_ 1) (j : S_.Idx)
    (e : fn_part4 (F := F) a1 v63 v67 j = 1#1) (i : S26x4096.Idx) : (a1 i).toNat < 100000 := by
  unfold fn_part4 at e
  simp only [andi] at e
  obtain ⟨-, e⟩ := IntOp.andi_eq_one.1 e
  have hi := Host.reduce_andi_all _ _ _ _ j e i
  simp only [andi, cmpi, broadcastInDim, constantI] at hi
  obtain ⟨h0, h1⟩ := IntOp.andi_eq_one.1 hi
  exact word_lt _ h0 h1

/-- Each earlier part ends in the call of the next: the range fact passes through unopened. -/
theorem part3_idx {F : FTy → Type} [FloatOps F] (a1 : IVec S26x4096 32) (a12 : FVec F S256 .f32) (a13 : FVec F S1x256 .f32)
    (a14 : FVec F S1 .f32) (v48 : IVec S_ 1) (v49 v50 : FVec F S256x512 .f32) (j : S_.Idx)
    (e : fn_part3 (F := F) a1 a12 a13 a14 v48 v49 v50 j = 1#1) (i : S26x4096.Idx) : (a1 i).toNat < 100000 :=
  part4_idx (F := F) a1 _ _ j e i

theorem part2_idx {F : FTy → Type} [FloatOps F] (a1 : IVec S26x4096 32) (a8 : FVec F S64 .f32) (a9 : FVec F S512x415 .f32)
    (a10 : FVec F S512 .f32) (a11 : FVec F S256x512 .f32) (a12 : FVec F S256 .f32) (a13 : FVec F S1x256 .f32)
    (a14 : FVec F S1 .f32) (v33 : IVec S_ 1) (j : S_.Idx)
    (e : fn_part2 (F := F) a1 a8 a9 a10 a11 a12 a13 a14 v33 j = 1#1) (i : S26x4096.Idx) : (a1 i).toNat < 100000 :=
  part3_idx (F := F) a1 _ _ _ _ _ _ j e i

theorem part1_idx {F : FTy → Type} [FloatOps F] (a1 : IVec S26x4096 32) (a5 : FVec F S256x512 .f32) (a6 : FVec F S256 .f32)
    (a7 : FVec F S64x256 .f32) (a8 : FVec F S64 .f32) (a9 : FVec F S512x415 .f32)
    (a10 : FVec F S512 .f32) (a11 : FVec F S256x512 .f32) (a12 : FVec F S256 .f32) (a13 : FVec F S1x256 .f32)
    (a14 : FVec F S1 .f32) (v13 : IVec S_ 1) (v16 : IVec S512 1) (j : S_.Idx)
    (e : fn_part1 (F := F) a1 a5 a6 a7 a8 a9 a10 a11 a12 a13 a14 v13 v16 j = 1#1) (i : S26x4096.Idx) :
    (a1 i).toNat < 100000 :=
  part2_idx (F := F) a1 _ _ _ _ _ _ _ _ j e i

/-- The whole predicate: if it is 1 at its one index then every index word is in range. -/
theorem fn_idx {F : FTy → Type} [FloatOps F] (a0 : FVec F S4096x13 .f32) (a1 : IVec S26x4096 32)
    (a2 : FVec F S26x100000x64 .f32) (a3 : FVec F S512x13 .f32) (a4 : FVec F S512 .f32) (a5 : FVec F S256x512 .f32)
    (a6 : FVec F S256 .f32) (a7 : FVec F S64x256 .f32) (a8 : FVec F S64 .f32) (a9 : FVec F S512x415 .f32)
    (a10 : FVec F S512 .f32) (a11 : FVec F S256x512 .f32) (a12 : FVec F S256 .f32) (a13 : FVec F S1x256 .f32)
    (a14 : FVec F S1 .f32) (j : S_.Idx)
    (e : fn (F := F) a0 a1 a2 a3 a4 a5 a6 a7 a8 a9 a10 a11 a12 a13 a14 j = 1#1) (i : S26x4096.Idx) :
    (a1 i).toNat < 100000 :=
  part1_idx (F := F) a1 _ _ _ _ _ _ _ _ _ _ _ _ j e i

end generic

/-- THE INDEX RANGE: under the precondition every word of the sparse index array, on every device, is below 100000. -/
theorem idx_lt (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S26x4096.Idx) :
    (m ((c.tc : Thread Cert.KernelIdeal.nD Cert.KernelIdeal.τ).loc Cert.KernelIdeal.main_arg1) i).toNat < 100000 :=
  fn_idx (F := Ideal) (hF := Cert.Pre_finite_inputs.Gen.facts) _ _ _ _ _ _ _ _ _ _ _ _ _ _ _ (fun a => a.elim0)
    (congrFun (h c) (fun a => a.elim0)) i

end Cert.Proof.Pre

end
-- ==== Proof.Spec.lean ====
/-
  The function both programs compute, index by index, on the extended reals.

  A sample row `r` (of 4096) goes through a three-layer perceptron on its 13 dense features
  (`x·Wᵀ + b`, the positive part after the first two layers), giving a 64-vector `bot r`. Its 26 sparse
  features each select one 64-vector from that feature's table of 100000 rows. The 27 vectors
  (`bot r` first, then the 26 selected rows) are paired: for every pair `i > j`, in the order
  (1,0), (2,0), (2,1), (3,0), …, their inner product. The 64 entries of `bot r` followed by the 351 inner
  products go through a second three-layer perceptron down to one number.

  Nothing here mentions a program: the two value statements are both stated against `out`.
-/
import Idealize.ShloMosaic.PureOps.Ideal
import Idealize.ShloMosaic.Lib.ValueIdx

noncomputable section

namespace Cert.Spec

open Idealize.ShloMosaic Idealize.ShloMosaic.ValueIdx

/-- The fifteen argument arrays, as functions of their indices. -/
structure Inputs where
  dense : (⟨2, ![4096, 13]⟩ : Shape).Idx → EReal
  idx   : (⟨2, ![26, 4096]⟩ : Shape).Idx → BitVec 32
  emb   : (⟨3, ![26, 100000, 64]⟩ : Shape).Idx → EReal
  bw0   : (⟨2, ![512, 13]⟩ : Shape).Idx → EReal
  bb0   : (⟨1, ![512]⟩ : Shape).Idx → EReal
  bw1   : (⟨2, ![256, 512]⟩ : Shape).Idx → EReal
  bb1   : (⟨1, ![256]⟩ : Shape).Idx → EReal
  bw2   : (⟨2, ![64, 256]⟩ : Shape).Idx → EReal
  bb2   : (⟨1, ![64]⟩ : Shape).Idx → EReal
  tw0   : (⟨2, ![512, 415]⟩ : Shape).Idx → EReal
  tb0   : (⟨1, ![512]⟩ : Shape).Idx → EReal
  tw1   : (⟨2, ![256, 512]⟩ : Shape).Idx → EReal
  tb1   : (⟨1, ![256]⟩ : Shape).Idx → EReal
  tw2   : (⟨2, ![1, 256]⟩ : Shape).Idx → EReal
  tb2   : (⟨1, ![1]⟩ : Shape).Idx → EReal

/-! ## The order of the pairs -/

/-- Walk the rows of the strict lower triangle: row `i` holds the `i` pairs `(i, 0) … (i, i-1)`. With `p` pairs
    still to skip at row `i`, the pair is in this row when `p < i`. (`fuel` bounds the walk; 27 rows.) -/
def pairWalk : ℕ → ℕ → ℕ → ℕ × ℕ
  | 0, i, _ => (i, 0)
  | fuel + 1, i, p => if p < i then (i, p) else pairWalk fuel (i + 1) (p - i)

/-- The `p`-th pair `(i, j)`, `i > j`, counted row by row: `p = i(i-1)/2 + j`. -/
def pairOf (p : Fin 351) : ℕ × ℕ := pairWalk 27 1 p.val

theorem pairOf_lt : ∀ p : Fin 351, (pairOf p).2 < (pairOf p).1 ∧ (pairOf p).1 < 27 := by decide +kernel

/-- The larger member of the `p`-th pair. -/
def li (p : Fin 351) : Fin 27 := ⟨(pairOf p).1, (pairOf_lt p).2⟩
/-- The smaller member of the `p`-th pair. -/
def lj (p : Fin 351) : Fin 27 := ⟨(pairOf p).2, (pairOf_lt p).1.trans (pairOf_lt p).2⟩

variable (a : Inputs)

/-! ## The first perceptron -/

def h0 (r : Fin 4096) (n : Fin 512) : EReal :=
  max ((∑ k : Fin 13, a.dense (ix2 r k) * a.bw0 (ix2 n k)) + a.bb0 (ix1 n)) 0

def h1 (r : Fin 4096) (n : Fin 256) : EReal :=
  max ((∑ k : Fin 512, h0 a r k * a.bw1 (ix2 n k)) + a.bb1 (ix1 n)) 0

/-- The dense features' 64-vector. -/
def bot (r : Fin 4096) (d : Fin 64) : EReal :=
  (∑ k : Fin 256, h1 a r k * a.bw2 (ix2 d k)) + a.bb2 (ix1 d)

/-! ## The 27 vectors of a row and their pairwise inner products -/

/-- The table row sparse feature `e` selects for sample `r` (an index below 100000 is itself). -/
def sel (e : Fin 26) (r : Fin 4096) : Fin 100000 :=
  ⟨(a.idx (ix2 e r)).toNat % 100000, Nat.mod_lt _ (by norm_num)⟩

/-- Vector `f` of sample `r`: the dense one for `f = 0`, the row feature `f - 1` selects otherwise. -/
def feat (r : Fin 4096) (f : Fin 27) (d : Fin 64) : EReal :=
  if h : f.val = 0 then bot a r d
  else a.emb (ix3 (⟨f.val - 1, by omega⟩ : Fin 26) (sel a ⟨f.val - 1, by omega⟩ r) d)

/-- The `p`-th pair's inner product. -/
def inter (r : Fin 4096) (p : Fin 351) : EReal :=
  ∑ d : Fin 64, feat a r (li p) d * feat a r (lj p) d

/-- The second perceptron's input: the dense vector, then the 351 inner products. -/
def joined (r : Fin 4096) (q : Fin 415) : EReal :=
  if h : q.val < 64 then bot a r ⟨q.val, h⟩ else inter a r ⟨q.val - 64, by omega⟩

/-! ## The second perceptron -/

def t0 (r : Fin 4096) (n : Fin 512) : EReal :=
  max ((∑ k : Fin 415, joined a r k * a.tw0 (ix2 n k)) + a.tb0 (ix1 n)) 0

def t1 (r : Fin 4096) (n : Fin 256) : EReal :=
  max ((∑ k : Fin 512, t0 a r k * a.tw1 (ix2 n k)) + a.tb1 (ix1 n)) 0

def score (r : Fin 4096) : EReal :=
  (∑ k : Fin 256, t1 a r k * a.tw2 (ix2 (0 : Fin 1) k)) + a.tb2 (ix1 (0 : Fin 1))

/-- The result array: one score per sample. -/
def out : (⟨2, ![4096, 1]⟩ : Shape).Idx → EReal := fun i => score a (i 0)

end Cert.Spec

end
-- ==== Proof.KernelBlocks.lean ====
/-
  From blocks to the array. The kernel's one output is a column of 4096 scores written by 8 grid points, point `t`
  writing rows `512·t … 512·t + 511`. If the body at point `t` leaves in row `r` of its block the score of sample
  `512·t + r`, then the array after the run is the score of every sample: every row lies in exactly the block of the
  point `row / 512`.
-/
import proofs.«424834_j5669356831571_3_alg».proof.Proof.Gen.KernelIdeal.Value
import proofs.«424834_j5669356831571_3_alg».proof.Proof.Spec

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The output window's block index at grid point `t` is `(t, 0)`. -/
theorem idx_facts : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)

theorem sample_lt (t : Fin cfg0.N) (r : Fin 512) : 512 * t.val + r.val < 4096 := by
  have ht : t.val < 8 := t.isLt
  have hr : r.val < 512 := r.isLt
  omega

/-- The sample that row `r` of grid point `t`'s block is. -/
def sample (t : Fin cfg0.N) (r : Fin 512) : Fin 4096 := ⟨512 * t.val + r.val, sample_lt t r⟩

/-- What point `t` writes back is block `t` of the score column, once the body is known row by row. -/
theorem flushed_eq (a : Cert.Spec.Inputs) (c : Dev nD)
    (hbody : ∀ (t : Fin cfg0.N) (r : Fin 512),
      outsAt0 (F := Ideal) m c t (ix2 r (0 : Fin 1)) = Cert.Spec.score a (sample t r))
    (t : Fin cfg0.N) :
    (dats m 0 c).flushed 14 t = ((cfg0.win 14).blk t).view.read (Elt Ideal) (Cert.Spec.out a) := by
  rw [Cert.KernelIdeal.Value.flushed14]
  funext j
  show outsAt0 (F := Ideal) m c t j = Cert.Spec.out a (((cfg0.win 14).blk t).view.emb j)
  obtain ⟨e0, e1⟩ := idx_facts t
  have h1 : (j : S512x1.Idx) 1 = (0 : Fin 1) := Subsingleton.elim (α := Fin 1) _ _
  obtain ⟨r, rfl⟩ : ∃ r : Fin 512, j = ix2 r (0 : Fin 1) := ⟨j 0, by rw [← h1]; exact eq_ix2 j⟩
  rw [hbody t r]
  show Cert.Spec.score a (sample t r) = Cert.Spec.score a ((((cfg0.win 14).blk t).view.emb (ix2 r (0 : Fin 1))) 0)
  refine congrArg _ ?_
  apply Fin.ext
  show 512 * t.val + r.val = win0_14.index t (0 : Fin 2) * 512 + 1 * r.val
  omega

/-- A row of the column is in point `t`'s block iff it lies in the block's range on each axis. -/
theorem mem_blk (t : Fin cfg0.N) (i : S4096x1.Idx) :
    i ∈ ((cfg0.win 14).blk t).view.set ↔ ∀ a : Fin 2, win0_14.index t a * S512x1.size a ≤ (i a).val ∧ (i a).val < win0_14.index t a * S512x1.size a + S512x1.size a := by
  show i ∈ ((View.whole main_v31).slice (win0_14.rect t)).set ↔ _
  rw [View.set_slice_whole, Rect.mem_set_unit]
  exact Iff.rfl

/-- Every row is some point's: row `i` belongs to point `i / 512`. -/
theorem cover (i : S4096x1.Idx) :
    ∃ t : Fin cfg0.N, (cfg0.win 14).flush t = true ∧ i ∈ ((cfg0.win 14).blk t).view.set := by
  have hi0 : (i 0).val < 4096 := (i 0).isLt
  have hi1 : (i 1).val < 1 := (i 1).isLt
  have hq : (i 0).val / 512 < 8 := by omega
  obtain ⟨e0, e1⟩ := idx_facts ⟨(i 0).val / 512, hq⟩
  have e0' : win0_14.index ⟨(i 0).val / 512, hq⟩ (0 : Fin 2) = (i 0).val / 512 := e0
  refine ⟨⟨(i 0).val / 512, hq⟩, flush0_14 _, ?_⟩
  rw [mem_blk]
  intro a
  match a with
  | ⟨0, _⟩ =>
    show win0_14.index ⟨(i 0).val / 512, hq⟩ (0 : Fin 2) * 512 ≤ (i 0).val ∧ (i 0).val < win0_14.index ⟨(i 0).val / 512, hq⟩ (0 : Fin 2) * 512 + 512
    omega
  | ⟨1, _⟩ =>
    show win0_14.index ⟨(i 0).val / 512, hq⟩ (1 : Fin 2) * 1 ≤ (i 1).val ∧ (i 1).val < win0_14.index ⟨(i 0).val / 512, hq⟩ (1 : Fin 2) * 1 + 1
    omega

/-- The column after the run is the score of every sample. -/
theorem final (a : Cert.Spec.Inputs) (c : Dev nD)
    (hbody : ∀ (t : Fin cfg0.N) (r : Fin 512),
      outsAt0 (F := Ideal) m c t (ix2 r (0 : Fin 1)) = Cert.Spec.score a (sample t r)) :
    (dats m 0 c).arrAt 14 cfg0.N = Cert.Spec.out a :=
  (dats m 0 c).arrAt_eq_of_cover 14 (Cert.Spec.out a) (fun t _ => flushed_eq m a c hbody t) cover

end Cert.KernelIdeal.Final

end
-- ==== Proof.KernelHostGather.lean ====
/-
  The selected table rows, read at an index, on the extended reals.

  Before its one pipelined region the program builds, for every sample `s` and every sparse feature `e`, the pair
  (`e`, the sample's index into feature `e`'s table) — each member passed through the usual "add the extent to a negative
  index" normalisation —, and gathers with it one 64-vector from the tables: operand axes 0 and 1 are addressed by the pair
  (each start clamped into its axis) and collapsed, axis 2 is kept whole. When every index is in `[0, 100000)` neither the
  normalisation nor the clamp changes anything, and the result at `(s, e, d)` is the table entry `(e, index, d)`.
-/
import proofs.«424834_j5669356831571_3_alg».proof.Proof.Gen.KernelIdeal.Value
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen

variable (m : (ℓ : Loc nD τ sig) → Buf (Elt Ideal) ℓ)

/-! ## The start indices -/

/-- The feature numbers `0 … 25` as a one-row matrix. -/
def featRow : IVec S1x26 32 := broadcastInDim S1x26 ![1] bcast_S26_S1x26_1 (iotaInDim S26 32 0)

/-- … after the index normalisation (26 added to a negative one). -/
def featNo : IVec S1x26 32 :=
  select (cmpi .slt featRow (broadcastInDim S1x26 ![] bcast_S_S1x26 (constantI S_ 32 0#32)))
    (addi featRow (broadcastInDim S1x26 ![] bcast_S_S1x26 (constantI S_ 32 26#32))) featRow

/-- The index array with samples as rows. -/
def idxT (idx : IVec S26x4096 32) : IVec S4096x26 32 := transpose S4096x26 [1, 0] idx transposes_S26x4096_S4096x26_1_0

/-- … after the index normalisation (100000 added to a negative one). -/
def rowIx (idx : IVec S26x4096 32) : IVec S4096x26 32 :=
  select (cmpi .slt (idxT idx) (broadcastInDim S4096x26 ![] bcast_S_S4096x26 (constantI S_ 32 0#32)))
    (addi (idxT idx) (broadcastInDim S4096x26 ![] bcast_S_S4096x26 (constantI S_ 32 100000#32))) (idxT idx)

/-- The pairs (feature, index) the gather starts its slices at, one per sample and feature. -/
def pairs (idx : IVec S26x4096 32) : IVec S4096x26x2 32 :=
  concatenate S4096x26x2 2
    [⟨S4096x26x1, broadcastInDim S4096x26x1 ![0, 1] bcast_S4096x26_S4096x26x1_0_1 (broadcastInDim S4096x26 ![0, 1] bcast_S1x26_S4096x26_0_1 featNo)⟩,
     ⟨S4096x26x1, broadcastInDim S4096x26x1 ![0, 1] bcast_S4096x26_S4096x26x1_0_1 (rowIx idx)⟩]
    concatenates_S4096x26x1_S4096x26x1_S4096x26x2_d2

theorem featRow_apply (e : Fin 26) : featRow (ix2 (0 : Fin 1) e) = BitVec.ofNat 32 e.val := rfl

/-- A feature number is not negative: the normalisation leaves it. -/
theorem featNo_apply (e : Fin 26) : featNo (ix2 (0 : Fin 1) e) = BitVec.ofNat 32 e.val := by
  show Scalar.select (IntOp.cmpi .slt (featRow (ix2 (0 : Fin 1) e)) 0#32) (IntOp.addi (featRow (ix2 (0 : Fin 1) e)) 26#32) (featRow (ix2 (0 : Fin 1) e)) = _
  rw [featRow_apply]
  have he := e.isLt
  have hn : ¬ IntOp.cmpi .slt (BitVec.ofNat 32 e.val) 0#32 = 1#1 := by
    rw [StableHlo.Predicate.slt_iff_toNat (by simp only [BitVec.toNat_ofNat]; omega) (by decide)]
    simp
  rw [eq_zero_of_ne_one hn, select_zero]

theorem idxT_apply (idx : IVec S26x4096 32) (s : Fin 4096) (e : Fin 26) : idxT idx (ix2 s e) = idx (ix2 e s) :=
  transpose_apply _ _ _ _ (ix2 e s) (fun b => by match b with | ⟨0, _⟩ => rfl | ⟨1, _⟩ => rfl)

/-- An index below 100000 is not negative: the normalisation leaves it. -/
theorem rowIx_apply (idx : IVec S26x4096 32) (s : Fin 4096) (e : Fin 26) (h : (idx (ix2 e s)).toNat < 100000) :
    rowIx idx (ix2 s e) = idx (ix2 e s) := by
  show Scalar.select (IntOp.cmpi .slt (idxT idx (ix2 s e)) 0#32) (IntOp.addi (idxT idx (ix2 s e)) 100000#32) (idxT idx (ix2 s e)) = _
  rw [idxT_apply]
  have hn : ¬ IntOp.cmpi .slt (idx (ix2 e s)) 0#32 = 1#1 := by
    rw [StableHlo.Predicate.slt_iff_toNat (by omega) (by decide)]
    simp
  rw [eq_zero_of_ne_one hn, select_zero]

/-- The pair's first member is the feature number. -/
theorem pairs_fst (idx : IVec S26x4096 32) (s : Fin 4096) (e : Fin 26) :
    pairs idx (ix3 s e (0 : Fin 2)) = featNo (ix2 (0 : Fin 1) e) := by
  unfold pairs
  refine (concatenate_pair_apply_left (t := S4096x26x2) (s₁ := S4096x26x1) (s₂ := S4096x26x1) (2 : Fin 3) _ _ _ (ix3 s e (0 : Fin 2)) rfl (ix3 s e (0 : Fin 1))
    (fun b => by match b with | ⟨0, _⟩ => rfl | ⟨1, _⟩ => rfl | ⟨2, _⟩ => rfl)).trans ?_
  refine (broadcastInDim_apply _ _ _ (ix3 s e (0 : Fin 1)) (ix2 s e) (fun a => by match a with | ⟨0, _⟩ => rfl | ⟨1, _⟩ => rfl)).trans ?_
  exact broadcastInDim_apply _ _ _ (ix2 s e) (ix2 (0 : Fin 1) e) (fun a => by match a with | ⟨0, _⟩ => rfl | ⟨1, _⟩ => rfl)

/-- The pair's second member is the sample's (normalised) index for the feature. -/
theorem pairs_snd (idx : IVec S26x4096 32) (s : Fin 4096) (e : Fin 26) :
    pairs idx (ix3 s e (1 : Fin 2)) = rowIx idx (ix2 s e) := by
  unfold pairs
  refine (concatenate_pair_apply_right (t := S4096x26x2) (s₁ := S4096x26x1) (s₂ := S4096x26x1) (2 : Fin 3) _ _ _ (ix3 s e (1 : Fin 2)) rfl rfl (ix3 s e (0 : Fin 1)) (fun b hb => ?_) rfl).trans ?_
  · match b with
    | ⟨0, _⟩ => rfl
    | ⟨1, _⟩ => rfl
    | ⟨2, _⟩ => exact absurd rfl hb
  · exact broadcastInDim_apply _ _ _ (ix3 s e (0 : Fin 1)) (ix2 s e) (fun a => by match a with | ⟨0, _⟩ => rfl | ⟨1, _⟩ => rfl)

/-! ## The gather, axis by axis -/

/-- The gather's dimension numbers: operand axes 0 and 1 are addressed by the pair and collapsed, axis 2 is kept whole. -/
abbrev GD : GatherDims S26x100000x64 S4096x26x2 S4096x26x64 := gather_S26x100000x64_S4096x26x2_S4096x26x64_2_01_n_n_01_2_1164

/-- On the table axis: the pair's first member, clamped into `[0, 25]`. -/
theorem opIdx0 (ix : IVec S4096x26x2 32) (s : Fin 4096) (e : Fin 26) (d : Fin 64) :
    (GD.operandIdx (ix3 s e d) ix 0).val = min (ix (ix3 s e (0 : Fin 2))).toInt.toNat 25 := by
  show GD.start (ix3 s e d) ix 0 + GD.batchCoord (ix3 s e d) 0 + GD.offCoord (ix3 s e d) 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 3) ∈ GD.startIndexMap from by decide)]
  have hsi : GD.siIdx (ix3 s e d) ⟨List.idxOf (0 : Fin 3) GD.startIndexMap,
      List.idxOf_lt_length_iff.2 (by decide)⟩ = ix3 s e (0 : Fin 2) := by
    funext b; refine Fin.ext ?_
    match b with
    | ⟨0, _⟩ => rfl
    | ⟨1, _⟩ => rfl
    | ⟨2, _⟩ => rfl
  rw [hsi]
  rfl

/-- On the row axis: the pair's second member, clamped into `[0, 99999]`. -/
theorem opIdx1 (ix : IVec S4096x26x2 32) (s : Fin 4096) (e : Fin 26) (d : Fin 64) :
    (GD.operandIdx (ix3 s e d) ix 1).val = min (ix (ix3 s e (1 : Fin 2))).toInt.toNat 99999 := by
  show GD.start (ix3 s e d) ix 1 + GD.batchCoord (ix3 s e d) 1 + GD.offCoord (ix3 s e d) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 3) ∈ GD.startIndexMap from by decide)]
  have hsi : GD.siIdx (ix3 s e d) ⟨List.idxOf (1 : Fin 3) GD.startIndexMap,
      List.idxOf_lt_length_iff.2 (by decide)⟩ = ix3 s e (1 : Fin 2) := by
    funext b; refine Fin.ext ?_
    match b with
    | ⟨0, _⟩ => rfl
    | ⟨1, _⟩ => rfl
    | ⟨2, _⟩ => rfl
  rw [hsi]
  rfl

/-- On the kept axis: the result's own coordinate. -/
theorem opIdx2 (ix : IVec S4096x26x2 32) (s : Fin 4096) (e : Fin 26) (d : Fin 64) :
    (GD.operandIdx (ix3 s e d) ix 2).val = d.val := by
  show GD.start (ix3 s e d) ix 2 + GD.batchCoord (ix3 s e d) 2 + GD.offCoord (ix3 s e d) 2 = _
  rw [GatherDims.batchCoord_eq_zero _ _ _ List.not_mem_nil]
  have hs : GD.start (ix3 s e d) ix 2 = 0 := by
    unfold GatherDims.start
    rw [dif_neg (show ¬ (2 : Fin 3) ∈ GD.startIndexMap from by decide)]
  have ho : GD.offCoord (ix3 s e d) 2 = d.val := by
    unfold GatherDims.offCoord
    rw [dif_pos (show (2 : Fin 3) ∈ GD.sKept from by decide)]
    rfl
  rw [hs, ho]
  omega

/-- THE GATHER READ AT `(s, e, d)`: the operand at the index with those three coordinates. -/
theorem gather_apply (x : S26x100000x64.Idx → EReal) (ix : IVec S4096x26x2 32) (s : Fin 4096) (e : Fin 26) (d : Fin 64)
    (k : S26x100000x64.Idx)
    (h0 : (k 0).val = min (ix (ix3 s e (0 : Fin 2))).toInt.toNat 25)
    (h1 : (k 1).val = min (ix (ix3 s e (1 : Fin 2))).toInt.toNat 99999)
    (h2 : (k 2).val = d.val) :
    Host.gather GD x ix (ix3 s e d) = x k := by
  unfold Host.gather
  refine congrArg x (funext fun a => Fin.ext ?_)
  match a with
  | ⟨0, _⟩ => exact (opIdx0 ix s e d).trans h0.symm
  | ⟨1, _⟩ => exact (opIdx1 ix s e d).trans h1.symm
  | ⟨2, _⟩ => exact (opIdx2 ix s e d).trans h2.symm

/-- With the sample's index in range, the gathered (and then narrowed: the identity on the extended reals) vector of
    sample `s` and feature `e` is row `index` of table `e`. -/
theorem gathered (x : FVec Ideal S26x100000x64 .f32) (idx : IVec S26x4096 32) (s : Fin 4096) (e : Fin 26) (d : Fin 64)
    (hi : (idx (ix2 e s)).toNat < 100000) (k : Fin 100000) (hk : k.val = (idx (ix2 e s)).toNat) :
    (truncf (F := Ideal) .bf16 (Host.gather GD x (pairs idx)) bitsLt_bf16_f32 : FVec Ideal S4096x26x64 .bf16) (ix3 s e d)
      = x (ix3 e k d) := by
  show Host.gather GD x (pairs idx) (ix3 s e d) = _
  refine gather_apply x (pairs idx) s e d _ ?_ ?_ rfl
  · have he := e.isLt
    rw [pairs_fst, featNo_apply, StableHlo.Predicate.toInt_ofNat_small _ (by omega), Int.toNat_natCast]
    show e.val = min e.val 25
    omega
  · rw [pairs_snd, rowIx_apply idx s e hi, StableHlo.Predicate.toInt_eq_toNat_of_lt (by omega), Int.toNat_natCast]
    show k.val = min (idx (ix2 e s)).toNat 99999
    omega

/-! ## The array the region finds -/

set_option maxHeartbeats 1000000 in
/-- The selected vectors as the region finds them: the gather of the tables at the pairs, narrowed. -/
theorem arr1 (c : Dev nD) : (V m c main_v18 : S4096x26x64.Idx → EReal)
    = (truncf (F := Ideal) .bf16 (Host.gather GD
        (m ((c : Thread nD τ).loc main_arg2) : FVec Ideal S26x100000x64 .f32) (pairs (m ((c : Thread nD τ).loc main_arg1)))) bitsLt_bf16_f32 : FVec Ideal S4096x26x64 .bf16) := by
  dsimp only [Gen.V, Gen.hostOps0]; after_results_simp; rfl

end Cert.KernelIdeal.Host

end
-- ==== Proof.KernelHost.lean ====
/-
  What each input block of the kernel's one pipelined region holds, read at an index, on the extended reals.

  Before the region the program transposes the six weight matrices, reshapes the six bias vectors to one-row
  matrices, and selects, for every sample and every sparse feature, one 64-vector from that feature's table
  (a gather over the pairs (feature, index)). The region then takes the dense features and the selected vectors in
  blocks of 512 consecutive samples, and every other array whole.
-/
import proofs.«424834_j5669356831571_3_alg».proof.Proof.Gen.KernelIdeal.Value
import proofs.«424834_j5669356831571_3_alg».proof.Proof.KernelHostGather
import proofs.«424834_j5669356831571_3_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen

variable (m : (ℓ : Loc nD τ sig) → Buf (Elt Ideal) ℓ)

/-- The fifteen argument arrays as launched, in order. -/
def inputs (c : Dev nD) : Cert.Spec.Inputs :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10), m ((c : Thread nD τ).loc main_arg11),
   m ((c : Thread nD τ).loc main_arg12), m ((c : Thread nD τ).loc main_arg13), m ((c : Thread nD τ).loc main_arg14)⟩

/-- The sample that row `r` of block `t` is: a block is 512 consecutive samples. -/
def row (t : Fin cfg0.N) (r : Fin 512) : Fin 4096 :=
  ⟨512 * t.val + r.val, by have := t.isLt; have h : cfg0.N = 8 := N_0; have := r.isLt; omega⟩

/-! ## The arrays the region finds: each the one operation that wrote it, of an argument array -/

theorem arr2 (c : Dev nD) : (V m c main_v19 : S13x512.Idx → EReal)
    = transpose S13x512 [1, 0] (m ((c : Thread nD τ).loc main_arg3) : S512x13.Idx → EReal) transposes_S512x13_S13x512_1_0 := by
  dsimp only [Gen.V, Gen.hostOps0]; after_results

theorem arr3 (c : Dev nD) : (V m c main_v25 : S1x512.Idx → EReal)
    = shapeCast S1x512 (m ((c : Thread nD τ).loc main_arg4) : S512.Idx → EReal) shapeCasts_S512_S1x512 := by
  dsimp only [Gen.V, Gen.hostOps0]; after_results; rfl

theorem arr4 (c : Dev nD) : (V m c main_v20 : S512x256.Idx → EReal)
    = transpose S512x256 [1, 0] (m ((c : Thread nD τ).loc main_arg5) : S256x512.Idx → EReal) transposes_S256x512_S512x256_1_0 := by
  dsimp only [Gen.V, Gen.hostOps0]; after_results

theorem arr5 (c : Dev nD) : (V m c main_v26 : S1x256.Idx → EReal)
    = shapeCast S1x256 (m ((c : Thread nD τ).loc main_arg6) : S256.Idx → EReal) shapeCasts_S256_S1x256 := by
  dsimp only [Gen.V, Gen.hostOps0]; after_results; rfl

theorem arr6 (c : Dev nD) : (V m c main_v21 : S256x64.Idx → EReal)
    = transpose S256x64 [1, 0] (m ((c : Thread nD τ).loc main_arg7) : S64x256.Idx → EReal) transposes_S64x256_S256x64_1_0 := by
  dsimp only [Gen.V, Gen.hostOps0]; after_results

theorem arr7 (c : Dev nD) : (V m c main_v27 : S1x64.Idx → EReal)
    = shapeCast S1x64 (m ((c : Thread nD τ).loc main_arg8) : S64.Idx → EReal) shapeCasts_S64_S1x64 := by
  dsimp only [Gen.V, Gen.hostOps0]; after_results; rfl

theorem arr8 (c : Dev nD) : (V m c main_v22 : S415x512.Idx → EReal)
    = transpose S415x512 [1, 0] (m ((c : Thread nD τ).loc main_arg9) : S512x415.Idx → EReal) transposes_S512x415_S415x512_1_0 := by
  dsimp only [Gen.V, Gen.hostOps0]; after_results

theorem arr9 (c : Dev nD) : (V m c main_v28 : S1x512.Idx → EReal)
    = shapeCast S1x512 (m ((c : Thread nD τ).loc main_arg10) : S512.Idx → EReal) shapeCasts_S512_S1x512 := by
  dsimp only [Gen.V, Gen.hostOps0]; after_results; rfl

theorem arr10 (c : Dev nD) : (V m c main_v23 : S512x256.Idx → EReal)
    = transpose S512x256 [1, 0] (m ((c : Thread nD τ).loc main_arg11) : S256x512.Idx → EReal) transposes_S256x512_S512x256_1_0 := by
  dsimp only [Gen.V, Gen.hostOps0]; after_results

theorem arr11 (c : Dev nD) : (V m c main_v29 : S1x256.Idx → EReal)
    = shapeCast S1x256 (m ((c : Thread nD τ).loc main_arg12) : S256.Idx → EReal) shapeCasts_S256_S1x256 := by
  dsimp only [Gen.V, Gen.hostOps0]; after_results; rfl

theorem arr12 (c : Dev nD) : (V m c main_v24 : S256x1.Idx → EReal)
    = transpose S256x1 [1, 0] (m ((c : Thread nD τ).loc main_arg13) : S1x256.Idx → EReal) transposes_S1x256_S256x1_1_0 := by
  dsimp only [Gen.V, Gen.hostOps0]; after_results

theorem arr13 (c : Dev nD) : (V m c main_v30 : S1x1.Idx → EReal)
    = shapeCast S1x1 (m ((c : Thread nD τ).loc main_arg14) : S1.Idx → EReal) shapeCasts_S1_S1x1 := by
  dsimp only [Gen.V, Gen.hostOps0]; after_results; rfl

/-! ## The windows' index maps over the eight grid points: windows 0 and 1 move one block of rows per point, every other
    window stays at block (0, 0) -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)

/-! ## The blocks -/

/-- Block `t` of the dense features is samples `512 t … 512 t + 511`. -/
theorem blk0 (c : Dev nD) (t : Fin cfg0.N) (r : Fin 512) (k : Fin 13) :
    (iblk m c 0 t : Vec Ideal S512x13 .f32) (ix2 r k) = (inputs m c).dense (ix2 (row t r) k) := by
  unfold iblk
  rw [View.read_apply]
  show V m c main_arg0 (((cfg0.win 0).blk t).view.emb (ix2 r k)) = _
  have h : ((cfg0.win 0).blk t).view.emb (ix2 r k) = (ix2 (row t r) k : S4096x13.Idx) := by
    funext a; apply Fin.ext
    match a with
    | ⟨0, _⟩ => show win0_0.index t (0 : Fin 2) * 512 + 1 * r.val = 512 * t.val + r.val; rw [(idx0 t).1]; omega
    | ⟨1, _⟩ => show win0_0.index t (1 : Fin 2) * 13 + 1 * k.val = k.val; rw [(idx0 t).2]; omega
  rw [h, V_main_arg0]
  rfl

/-- Block `t` of the selected vectors: with every index in range, row `r`'s vector for feature `e` is the table row the
    sample's index names. -/
theorem blk1 (c : Dev nD) (hidx : ∀ i, ((inputs m c).idx i).toNat < 100000) (t : Fin cfg0.N) (r : Fin 512) (e : Fin 26) (d : Fin 64) :
    (iblk m c 1 t : Vec Ideal S512x26x64 .bf16) (ix3 r e d)
      = (inputs m c).emb (ix3 e (Cert.Spec.sel (inputs m c) e (row t r)) d) := by
  unfold iblk
  rw [View.read_apply]
  show V m c main_v18 (((cfg0.win 1).blk t).view.emb (ix3 r e d)) = _
  have h : ((cfg0.win 1).blk t).view.emb (ix3 r e d) = (ix3 (row t r) e d : S4096x26x64.Idx) := by
    funext a; apply Fin.ext
    match a with
    | ⟨0, _⟩ => show win0_1.index t (0 : Fin 3) * 512 + 1 * r.val = 512 * t.val + r.val; rw [(idx1 t).1]; omega
    | ⟨1, _⟩ => show win0_1.index t (1 : Fin 3) * 26 + 1 * e.val = e.val; rw [(idx1 t).2.1]; omega
    | ⟨2, _⟩ => show win0_1.index t (2 : Fin 3) * 64 + 1 * d.val = d.val; rw [(idx1 t).2.2]; omega
  rw [h, arr1]
  exact gathered _ _ (row t r) e d (hidx _) _ (Nat.mod_eq_of_lt (hidx _))

/-- The first layer's weights, transposed: entry `(k, n)` is the weight of input `k` for unit `n`. -/
theorem blk2 (c : Dev nD) (t : Fin cfg0.N) (k : Fin 13) (n : Fin 512) :
    (iblk m c 2 t : Vec Ideal S13x512 .f32) (ix2 k n) = (inputs m c).bw0 (ix2 n k) := by
  unfold iblk
  rw [View.read_apply]
  show V m c main_v19 (((cfg0.win 2).blk t).view.emb (ix2 k n)) = _
  have h : ((cfg0.win 2).blk t).view.emb (ix2 k n) = (ix2 k n : S13x512.Idx) := by
    funext a; apply Fin.ext
    match a with
    | ⟨0, _⟩ => show win0_2.index t (0 : Fin 2) * 13 + 1 * k.val = k.val; rw [(idx2 t).1]; omega
    | ⟨1, _⟩ => show win0_2.index t (1 : Fin 2) * 512 + 1 * n.val = n.val; rw [(idx2 t).2]; omega
  rw [h, arr2]
  exact transpose_apply _ _ _ _ (ix2 n k) (fun b => by match b with | ⟨0, _⟩ => rfl | ⟨1, _⟩ => rfl)

/-- The first layer's bias as a one-row matrix. -/
theorem blk3 (c : Dev nD) (t : Fin cfg0.N) (n : Fin 512) :
    (iblk m c 3 t : Vec Ideal S1x512 .f32) (ix2 (0 : Fin 1) n) = (inputs m c).bb0 (ix1 n) := by
  unfold iblk
  rw [View.read_apply]
  show V m c main_v25 (((cfg0.win 3).blk t).view.emb (ix2 (0 : Fin 1) n)) = _
  have h : ((cfg0.win 3).blk t).view.emb (ix2 (0 : Fin 1) n) = (ix2 (0 : Fin 1) n : S1x512.Idx) := by
    funext a; apply Fin.ext
    match a with
    | ⟨0, _⟩ => show win0_3.index t (0 : Fin 2) * 1 + 1 * 0 = 0; rw [(idx3 t).1]
    | ⟨1, _⟩ => show win0_3.index t (1 : Fin 2) * 512 + 1 * n.val = n.val; rw [(idx3 t).2]; omega
  rw [h, arr3]
  exact shapeCast_apply _ _ _ (ix1 n) (by rw [Shape.rowMajor_val_two, Shape.rowMajor_val_one]; show n.val = 0 * 512 + n.val; omega)

theorem blk4 (c : Dev nD) (t : Fin cfg0.N) (k : Fin 512) (n : Fin 256) :
    (iblk m c 4 t : Vec Ideal S512x256 .f32) (ix2 k n) = (inputs m c).bw1 (ix2 n k) := by
  unfold iblk
  rw [View.read_apply]
  show V m c main_v20 (((cfg0.win 4).blk t).view.emb (ix2 k n)) = _
  have h : ((cfg0.win 4).blk t).view.emb (ix2 k n) = (ix2 k n : S512x256.Idx) := by
    funext a; apply Fin.ext
    match a with
    | ⟨0, _⟩ => show win0_4.index t (0 : Fin 2) * 512 + 1 * k.val = k.val; rw [(idx4 t).1]; omega
    | ⟨1, _⟩ => show win0_4.index t (1 : Fin 2) * 256 + 1 * n.val = n.val; rw [(idx4 t).2]; omega
  rw [h, arr4]
  exact transpose_apply _ _ _ _ (ix2 n k) (fun b => by match b with | ⟨0, _⟩ => rfl | ⟨1, _⟩ => rfl)

theorem blk5 (c : Dev nD) (t : Fin cfg0.N) (n : Fin 256) :
    (iblk m c 5 t : Vec Ideal S1x256 .f32) (ix2 (0 : Fin 1) n) = (inputs m c).bb1 (ix1 n) := by
  unfold iblk
  rw [View.read_apply]
  show V m c main_v26 (((cfg0.win 5).blk t).view.emb (ix2 (0 : Fin 1) n)) = _
  have h : ((cfg0.win 5).blk t).view.emb (ix2 (0 : Fin 1) n) = (ix2 (0 : Fin 1) n : S1x256.Idx) := by
    funext a; apply Fin.ext
    match a with
    | ⟨0, _⟩ => show win0_5.index t (0 : Fin 2) * 1 + 1 * 0 = 0; rw [(idx5 t).1]
    | ⟨1, _⟩ => show win0_5.index t (1 : Fin 2) * 256 + 1 * n.val = n.val; rw [(idx5 t).2]; omega
  rw [h, arr5]
  exact shapeCast_apply _ _ _ (ix1 n) (by rw [Shape.rowMajor_val_two, Shape.rowMajor_val_one]; show n.val = 0 * 256 + n.val; omega)

theorem blk6 (c : Dev nD) (t : Fin cfg0.N) (k : Fin 256) (n : Fin 64) :
    (iblk m c 6 t : Vec Ideal S256x64 .f32) (ix2 k n) = (inputs m c).bw2 (ix2 n k) := by
  unfold iblk
  rw [View.read_apply]
  show V m c main_v21 (((cfg0.win 6).blk t).view.emb (ix2 k n)) = _
  have h : ((cfg0.win 6).blk t).view.emb (ix2 k n) = (ix2 k n : S256x64.Idx) := by
    funext a; apply Fin.ext
    match a with
    | ⟨0, _⟩ => show win0_6.index t (0 : Fin 2) * 256 + 1 * k.val = k.val; rw [(idx6 t).1]; omega
    | ⟨1, _⟩ => show win0_6.index t (1 : Fin 2) * 64 + 1 * n.val = n.val; rw [(idx6 t).2]; omega
  rw [h, arr6]
  exact transpose_apply _ _ _ _ (ix2 n k) (fun b => by match b with | ⟨0, _⟩ => rfl | ⟨1, _⟩ => rfl)

theorem blk7 (c : Dev nD) (t : Fin cfg0.N) (n : Fin 64) :
    (iblk m c 7 t : Vec Ideal S1x64 .f32) (ix2 (0 : Fin 1) n) = (inputs m c).bb2 (ix1 n) := by
  unfold iblk
  rw [View.read_apply]
  show V m c main_v27 (((cfg0.win 7).blk t).view.emb (ix2 (0 : Fin 1) n)) = _
  have h : ((cfg0.win 7).blk t).view.emb (ix2 (0 : Fin 1) n) = (ix2 (0 : Fin 1) n : S1x64.Idx) := by
    funext a; apply Fin.ext
    match a with
    | ⟨0, _⟩ => show win0_7.index t (0 : Fin 2) * 1 + 1 * 0 = 0; rw [(idx7 t).1]
    | ⟨1, _⟩ => show win0_7.index t (1 : Fin 2) * 64 + 1 * n.val = n.val; rw [(idx7 t).2]; omega
  rw [h, arr7]
  exact shapeCast_apply _ _ _ (ix1 n) (by rw [Shape.rowMajor_val_two, Shape.rowMajor_val_one]; show n.val = 0 * 64 + n.val; omega)

theorem blk8 (c : Dev nD) (t : Fin cfg0.N) (k : Fin 415) (n : Fin 512) :
    (iblk m c 8 t : Vec Ideal S415x512 .f32) (ix2 k n) = (inputs m c).tw0 (ix2 n k) := by
  unfold iblk
  rw [View.read_apply]
  show V m c main_v22 (((cfg0.win 8).blk t).view.emb (ix2 k n)) = _
  have h : ((cfg0.win 8).blk t).view.emb (ix2 k n) = (ix2 k n : S415x512.Idx) := by
    funext a; apply Fin.ext
    match a with
    | ⟨0, _⟩ => show win0_8.index t (0 : Fin 2) * 415 + 1 * k.val = k.val; rw [(idx8 t).1]; omega
    | ⟨1, _⟩ => show win0_8.index t (1 : Fin 2) * 512 + 1 * n.val = n.val; rw [(idx8 t).2]; omega
  rw [h, arr8]
  exact transpose_apply _ _ _ _ (ix2 n k) (fun b => by match b with | ⟨0, _⟩ => rfl | ⟨1, _⟩ => rfl)

theorem blk9 (c : Dev nD) (t : Fin cfg0.N) (n : Fin 512) :
    (iblk m c 9 t : Vec Ideal S1x512 .f32) (ix2 (0 : Fin 1) n) = (inputs m c).tb0 (ix1 n) := by
  unfold iblk
  rw [View.read_apply]
  show V m c main_v28 (((cfg0.win 9).blk t).view.emb (ix2 (0 : Fin 1) n)) = _
  have h : ((cfg0.win 9).blk t).view.emb (ix2 (0 : Fin 1) n) = (ix2 (0 : Fin 1) n : S1x512.Idx) := by
    funext a; apply Fin.ext
    match a with
    | ⟨0, _⟩ => show win0_9.index t (0 : Fin 2) * 1 + 1 * 0 = 0; rw [(idx9 t).1]
    | ⟨1, _⟩ => show win0_9.index t (1 : Fin 2) * 512 + 1 * n.val = n.val; rw [(idx9 t).2]; omega
  rw [h, arr9]
  exact shapeCast_apply _ _ _ (ix1 n) (by rw [Shape.rowMajor_val_two, Shape.rowMajor_val_one]; show n.val = 0 * 512 + n.val; omega)

theorem blk10 (c : Dev nD) (t : Fin cfg0.N) (k : Fin 512) (n : Fin 256) :
    (iblk m c 10 t : Vec Ideal S512x256 .f32) (ix2 k n) = (inputs m c).tw1 (ix2 n k) := by
  unfold iblk
  rw [View.read_apply]
  show V m c main_v23 (((cfg0.win 10).blk t).view.emb (ix2 k n)) = _
  have h : ((cfg0.win 10).blk t).view.emb (ix2 k n) = (ix2 k n : S512x256.Idx) := by
    funext a; apply Fin.ext
    match a with
    | ⟨0, _⟩ => show win0_10.index t (0 : Fin 2) * 512 + 1 * k.val = k.val; rw [(idx10 t).1]; omega
    | ⟨1, _⟩ => show win0_10.index t (1 : Fin 2) * 256 + 1 * n.val = n.val; rw [(idx10 t).2]; omega
  rw [h, arr10]
  exact transpose_apply _ _ _ _ (ix2 n k) (fun b => by match b with | ⟨0, _⟩ => rfl | ⟨1, _⟩ => rfl)

theorem blk11 (c : Dev nD) (t : Fin cfg0.N) (n : Fin 256) :
    (iblk m c 11 t : Vec Ideal S1x256 .f32) (ix2 (0 : Fin 1) n) = (inputs m c).tb1 (ix1 n) := by
  unfold iblk
  rw [View.read_apply]
  show V m c main_v29 (((cfg0.win 11).blk t).view.emb (ix2 (0 : Fin 1) n)) = _
  have h : ((cfg0.win 11).blk t).view.emb (ix2 (0 : Fin 1) n) = (ix2 (0 : Fin 1) n : S1x256.Idx) := by
    funext a; apply Fin.ext
    match a with
    | ⟨0, _⟩ => show win0_11.index t (0 : Fin 2) * 1 + 1 * 0 = 0; rw [(idx11 t).1]
    | ⟨1, _⟩ => show win0_11.index t (1 : Fin 2) * 256 + 1 * n.val = n.val; rw [(idx11 t).2]; omega
  rw [h, arr11]
  exact shapeCast_apply _ _ _ (ix1 n) (by rw [Shape.rowMajor_val_two, Shape.rowMajor_val_one]; show n.val = 0 * 256 + n.val; omega)

/-- The last layer's one row of weights as a column. -/
theorem blk12 (c : Dev nD) (t : Fin cfg0.N) (k : Fin 256) :
    (iblk m c 12 t : Vec Ideal S256x1 .f32) (ix2 k (0 : Fin 1)) = (inputs m c).tw2 (ix2 (0 : Fin 1) k) := by
  unfold iblk
  rw [View.read_apply]
  show V m c main_v24 (((cfg0.win 12).blk t).view.emb (ix2 k (0 : Fin 1))) = _
  have h : ((cfg0.win 12).blk t).view.emb (ix2 k (0 : Fin 1)) = (ix2 k (0 : Fin 1) : S256x1.Idx) := by
    funext a; apply Fin.ext
    match a with
    | ⟨0, _⟩ => show win0_12.index t (0 : Fin 2) * 256 + 1 * k.val = k.val; rw [(idx12 t).1]; omega
    | ⟨1, _⟩ => show win0_12.index t (1 : Fin 2) * 1 + 1 * 0 = 0; rw [(idx12 t).2]
  rw [h, arr12]
  exact transpose_apply _ _ _ _ (ix2 (0 : Fin 1) k) (fun b => by match b with | ⟨0, _⟩ => rfl | ⟨1, _⟩ => rfl)

theorem blk13 (c : Dev nD) (t : Fin cfg0.N) :
    (iblk m c 13 t : Vec Ideal S1x1 .f32) (ix2 (0 : Fin 1) (0 : Fin 1)) = (inputs m c).tb2 (ix1 (0 : Fin 1)) := by
  unfold iblk
  rw [View.read_apply]
  show V m c main_v30 (((cfg0.win 13).blk t).view.emb (ix2 (0 : Fin 1) (0 : Fin 1))) = _
  have h : ((cfg0.win 13).blk t).view.emb (ix2 (0 : Fin 1) (0 : Fin 1)) = (ix2 (0 : Fin 1) (0 : Fin 1) : S1x1.Idx) := by
    funext a; apply Fin.ext
    match a with
    | ⟨0, _⟩ => show win0_13.index t (0 : Fin 2) * 1 + 1 * 0 = 0; rw [(idx13 t).1]
    | ⟨1, _⟩ => show win0_13.index t (1 : Fin 2) * 1 + 1 * 0 = 0; rw [(idx13 t).2]
  rw [h, arr13]
  exact shapeCast_apply _ _ _ (ix1 (0 : Fin 1)) (by rw [Shape.rowMajor_val_two, Shape.rowMajor_val_one]; rfl)

end Cert.KernelIdeal.Host

end
-- ==== Proof.KernelMlp.lean ====
/-
  The kernel body's perceptron payloads read at an index, on the extended reals.

  Each payload is a chain of matrix products into a zero accumulator, a bias row added to every row, and the
  positive part (the maximum with zero). Read at one index, a matrix product is the sum over the contracted
  coordinate of the operands' products, the broadcast bias is the bias row's entry at the column, and the format
  changes are the identity; the concatenation along the column axis reads the first piece on the columns below
  its width and the second piece, shifted, above.
-/
import proofs.«424834_j5669356831571_3_alg».proof.Proof.Gen.KernelIdeal.Skeleton
import proofs.«424834_j5669356831571_3_alg».proof.Proof.Spec
import Idealize.ShloMosaic.PureOps.Ideal.Laws
import Idealize.ShloMosaic.Lib.ValueIdx
import Idealize.ShloMosaic.Lib.Pipeline.Value

noncomputable section

namespace Cert.KernelIdeal.Pay

open Idealize.ShloMosaic Idealize.ShloMosaic.ValueIdx
open Cert.KernelIdeal Cert.KernelIdeal.Gen

/-! ## The matrix product [512,13] × [13,512] at an index -/

theorem lhs_13x512_0 (i : S512x512.Idx) (q : dot_S512x13_S13x512_S512x512_1_0_0_1_n_n.contr.Idx) :
    (dot_S512x13_S13x512_S512x512_1_0_0_1_n_n.lhsIdx i q 0).val = (i 0).val := by
  unfold DotDims.lhsIdx
  rw [dif_neg (show ¬(0 : Fin S512x13.rank) ∈ dot_S512x13_S13x512_S512x512_1_0_0_1_n_n.lhsBatch by decide),
    dif_pos (show (0 : Fin S512x13.rank) ∈ dot_S512x13_S13x512_S512x512_1_0_0_1_n_n.lhsNonContracting by decide)]
  rfl

theorem lhs_13x512_1 (i : S512x512.Idx) (q : dot_S512x13_S13x512_S512x512_1_0_0_1_n_n.contr.Idx) :
    (dot_S512x13_S13x512_S512x512_1_0_0_1_n_n.lhsIdx i q 1).val = (q ⟨0, by decide⟩).val :=
  dot_S512x13_S13x512_S512x512_1_0_0_1_n_n.lhsIdx_val_of_single rfl i q

theorem rhs_13x512_0 (i : S512x512.Idx) (q : dot_S512x13_S13x512_S512x512_1_0_0_1_n_n.contr.Idx) :
    (dot_S512x13_S13x512_S512x512_1_0_0_1_n_n.rhsIdx i q 0).val = (q ⟨0, by decide⟩).val :=
  dot_S512x13_S13x512_S512x512_1_0_0_1_n_n.rhsIdx_val_of_single rfl i q

theorem rhs_13x512_1 (i : S512x512.Idx) (q : dot_S512x13_S13x512_S512x512_1_0_0_1_n_n.contr.Idx) :
    (dot_S512x13_S13x512_S512x512_1_0_0_1_n_n.rhsIdx i q 1).val = (i 1).val := by
  unfold DotDims.rhsIdx
  rw [dif_neg (show ¬(1 : Fin S13x512.rank) ∈ dot_S512x13_S13x512_S512x512_1_0_0_1_n_n.rhsBatch by decide),
    dif_pos (show (1 : Fin S13x512.rank) ∈ dot_S512x13_S13x512_S512x512_1_0_0_1_n_n.rhsNonContracting by decide)]
  rfl

/-- Row `r`, column `c` of the product into a zero accumulator: the sum over the 13 contracted coordinates. -/
theorem matmul_13x512_apply {φ₁ φ₂ : FTy} (a : FVec Ideal S512x13 φ₁) (b : FVec Ideal S13x512 φ₂) (r : Fin 512) (c : Fin 512) :
    matmul dot_S512x13_S13x512_S512x512_1_0_0_1_n_n none a b (constant (F := Ideal) S512x512 .f32 0x00000000#32) (ix2 r c)
      = ∑ k : Fin 13, a (ix2 r k) * b (ix2 k c) := by
  simp only [matmul]
  rw [Ideal.matmul_constant_zero_apply,
    ← Equiv.sum_comp (contrEquiv1 dot_S512x13_S13x512_S512x512_1_0_0_1_n_n 13 rfl rfl).symm]
  refine Finset.sum_congr rfl fun k _ => ?_
  have hk := contrEquiv1_symm_val dot_S512x13_S13x512_S512x512_1_0_0_1_n_n 13 rfl rfl k
  have el : dot_S512x13_S13x512_S512x512_1_0_0_1_n_n.lhsIdx (ix2 r c)
      ((contrEquiv1 dot_S512x13_S13x512_S512x512_1_0_0_1_n_n 13 rfl rfl).symm k) = ix2 r k :=
    funext fun x => Fin.ext (by
      match x with
      | ⟨0, _⟩ => exact lhs_13x512_0 _ _
      | ⟨1, _⟩ => exact (lhs_13x512_1 _ _).trans hk)
  have er : dot_S512x13_S13x512_S512x512_1_0_0_1_n_n.rhsIdx (ix2 r c)
      ((contrEquiv1 dot_S512x13_S13x512_S512x512_1_0_0_1_n_n 13 rfl rfl).symm k) = ix2 k c :=
    funext fun x => Fin.ext (by
      match x with
      | ⟨0, _⟩ => exact (rhs_13x512_0 _ _).trans hk
      | ⟨1, _⟩ => exact rhs_13x512_1 _ _)
  rw [el, er]

/-! ## The matrix product [512,512] × [512,256] at an index -/

theorem lhs_512x256_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide),
    dif_pos (show (0 : Fin S512x512.rank) ∈ dot_S512x512_S512x256_S512x256_1_0_0_1_n_n.lhsNonContracting by decide)]
  rfl

theorem lhs_512x256_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q

theorem rhs_512x256_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q

theorem rhs_512x256_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide),
    dif_pos (show (1 : Fin S512x256.rank) ∈ dot_S512x512_S512x256_S512x256_1_0_0_1_n_n.rhsNonContracting by decide)]
  rfl

/-- Row `r`, column `c` of the product into a zero accumulator: the sum over the 512 contracted coordinates. -/
theorem matmul_512x256_apply {φ₁ φ₂ : FTy} (a : FVec Ideal S512x512 φ₁) (b : FVec Ideal S512x256 φ₂) (r : Fin 512) (c : Fin 256) :
    matmul dot_S512x512_S512x256_S512x256_1_0_0_1_n_n none a b (constant (F := Ideal) S512x256 .f32 0x00000000#32) (ix2 r c)
      = ∑ k : Fin 512, a (ix2 r k) * b (ix2 k c) := by
  simp only [matmul]
  rw [Ideal.matmul_constant_zero_apply,
    ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 r c)
      ((contrEquiv1 dot_S512x512_S512x256_S512x256_1_0_0_1_n_n 512 rfl rfl).symm k) = ix2 r k :=
    funext fun x => Fin.ext (by
      match x with
      | ⟨0, _⟩ => exact lhs_512x256_0 _ _
      | ⟨1, _⟩ => exact (lhs_512x256_1 _ _).trans hk)
  have er : dot_S512x512_S512x256_S512x256_1_0_0_1_n_n.rhsIdx (ix2 r c)
      ((contrEquiv1 dot_S512x512_S512x256_S512x256_1_0_0_1_n_n 512 rfl rfl).symm k) = ix2 k c :=
    funext fun x => Fin.ext (by
      match x with
      | ⟨0, _⟩ => exact (rhs_512x256_0 _ _).trans hk
      | ⟨1, _⟩ => exact rhs_512x256_1 _ _)
  rw [el, er]

/-! ## The matrix product [512,256] × [256,64] at an index -/

theorem lhs_256x64_0 (i : S512x64.Idx) (q : dot_S512x256_S256x64_S512x64_1_0_0_1_n_n.contr.Idx) :
    (dot_S512x256_S256x64_S512x64_1_0_0_1_n_n.lhsIdx i q 0).val = (i 0).val := by
  unfold DotDims.lhsIdx
  rw [dif_neg (show ¬(0 : Fin S512x256.rank) ∈ dot_S512x256_S256x64_S512x64_1_0_0_1_n_n.lhsBatch by decide),
    dif_pos (show (0 : Fin S512x256.rank) ∈ dot_S512x256_S256x64_S512x64_1_0_0_1_n_n.lhsNonContracting by decide)]
  rfl

theorem lhs_256x64_1 (i : S512x64.Idx) (q : dot_S512x256_S256x64_S512x64_1_0_0_1_n_n.contr.Idx) :
    (dot_S512x256_S256x64_S512x64_1_0_0_1_n_n.lhsIdx i q 1).val = (q ⟨0, by decide⟩).val :=
  dot_S512x256_S256x64_S512x64_1_0_0_1_n_n.lhsIdx_val_of_single rfl i q

theorem rhs_256x64_0 (i : S512x64.Idx) (q : dot_S512x256_S256x64_S512x64_1_0_0_1_n_n.contr.Idx) :
    (dot_S512x256_S256x64_S512x64_1_0_0_1_n_n.rhsIdx i q 0).val = (q ⟨0, by decide⟩).val :=
  dot_S512x256_S256x64_S512x64_1_0_0_1_n_n.rhsIdx_val_of_single rfl i q

theorem rhs_256x64_1 (i : S512x64.Idx) (q : dot_S512x256_S256x64_S512x64_1_0_0_1_n_n.contr.Idx) :
    (dot_S512x256_S256x64_S512x64_1_0_0_1_n_n.rhsIdx i q 1).val = (i 1).val := by
  unfold DotDims.rhsIdx
  rw [dif_neg (show ¬(1 : Fin S256x64.rank) ∈ dot_S512x256_S256x64_S512x64_1_0_0_1_n_n.rhsBatch by decide),
    dif_pos (show (1 : Fin S256x64.rank) ∈ dot_S512x256_S256x64_S512x64_1_0_0_1_n_n.rhsNonContracting by decide)]
  rfl

/-- Row `r`, column `c` of the product into a zero accumulator: the sum over the 256 contracted coordinates. -/
theorem matmul_256x64_apply {φ₁ φ₂ : FTy} (a : FVec Ideal S512x256 φ₁) (b : FVec Ideal S256x64 φ₂) (r : Fin 512) (c : Fin 64) :
    matmul dot_S512x256_S256x64_S512x64_1_0_0_1_n_n none a b (constant (F := Ideal) S512x64 .f32 0x00000000#32) (ix2 r c)
      = ∑ k : Fin 256, a (ix2 r k) * b (ix2 k c) := by
  simp only [matmul]
  rw [Ideal.matmul_constant_zero_apply,
    ← Equiv.sum_comp (contrEquiv1 dot_S512x256_S256x64_S512x64_1_0_0_1_n_n 256 rfl rfl).symm]
  refine Finset.sum_congr rfl fun k _ => ?_
  have hk := contrEquiv1_symm_val dot_S512x256_S256x64_S512x64_1_0_0_1_n_n 256 rfl rfl k
  have el : dot_S512x256_S256x64_S512x64_1_0_0_1_n_n.lhsIdx (ix2 r c)
      ((contrEquiv1 dot_S512x256_S256x64_S512x64_1_0_0_1_n_n 256 rfl rfl).symm k) = ix2 r k :=
    funext fun x => Fin.ext (by
      match x with
      | ⟨0, _⟩ => exact lhs_256x64_0 _ _
      | ⟨1, _⟩ => exact (lhs_256x64_1 _ _).trans hk)
  have er : dot_S512x256_S256x64_S512x64_1_0_0_1_n_n.rhsIdx (ix2 r c)
      ((contrEquiv1 dot_S512x256_S256x64_S512x64_1_0_0_1_n_n 256 rfl rfl).symm k) = ix2 k c :=
    funext fun x => Fin.ext (by
      match x with
      | ⟨0, _⟩ => exact (rhs_256x64_0 _ _).trans hk
      | ⟨1, _⟩ => exact rhs_256x64_1 _ _)
  rw [el, er]

/-! ## The matrix product [512,415] × [415,512] at an index -/

theorem lhs_415x512_0 (i : S512x512.Idx) (q : dot_S512x415_S415x512_S512x512_1_0_0_1_n_n.contr.Idx) :
    (dot_S512x415_S415x512_S512x512_1_0_0_1_n_n.lhsIdx i q 0).val = (i 0).val := by
  unfold DotDims.lhsIdx
  rw [dif_neg (show ¬(0 : Fin S512x415.rank) ∈ dot_S512x415_S415x512_S512x512_1_0_0_1_n_n.lhsBatch by decide),
    dif_pos (show (0 : Fin S512x415.rank) ∈ dot_S512x415_S415x512_S512x512_1_0_0_1_n_n.lhsNonContracting by decide)]
  rfl

theorem lhs_415x512_1 (i : S512x512.Idx) (q : dot_S512x415_S415x512_S512x512_1_0_0_1_n_n.contr.Idx) :
    (dot_S512x415_S415x512_S512x512_1_0_0_1_n_n.lhsIdx i q 1).val = (q ⟨0, by decide⟩).val :=
  dot_S512x415_S415x512_S512x512_1_0_0_1_n_n.lhsIdx_val_of_single rfl i q

theorem rhs_415x512_0 (i : S512x512.Idx) (q : dot_S512x415_S415x512_S512x512_1_0_0_1_n_n.contr.Idx) :
    (dot_S512x415_S415x512_S512x512_1_0_0_1_n_n.rhsIdx i q 0).val = (q ⟨0, by decide⟩).val :=
  dot_S512x415_S415x512_S512x512_1_0_0_1_n_n.rhsIdx_val_of_single rfl i q

theorem rhs_415x512_1 (i : S512x512.Idx) (q : dot_S512x415_S415x512_S512x512_1_0_0_1_n_n.contr.Idx) :
    (dot_S512x415_S415x512_S512x512_1_0_0_1_n_n.rhsIdx i q 1).val = (i 1).val := by
  unfold DotDims.rhsIdx
  rw [dif_neg (show ¬(1 : Fin S415x512.rank) ∈ dot_S512x415_S415x512_S512x512_1_0_0_1_n_n.rhsBatch by decide),
    dif_pos (show (1 : Fin S415x512.rank) ∈ dot_S512x415_S415x512_S512x512_1_0_0_1_n_n.rhsNonContracting by decide)]
  rfl

/-- Row `r`, column `c` of the product into a zero accumulator: the sum over the 415 contracted coordinates. -/
theorem matmul_415x512_apply {φ₁ φ₂ : FTy} (a : FVec Ideal S512x415 φ₁) (b : FVec Ideal S415x512 φ₂) (r : Fin 512) (c : Fin 512) :
    matmul dot_S512x415_S415x512_S512x512_1_0_0_1_n_n none a b (constant (F := Ideal) S512x512 .f32 0x00000000#32) (ix2 r c)
      = ∑ k : Fin 415, a (ix2 r k) * b (ix2 k c) := by
  simp only [matmul]
  rw [Ideal.matmul_constant_zero_apply,
    ← Equiv.sum_comp (contrEquiv1 dot_S512x415_S415x512_S512x512_1_0_0_1_n_n 415 rfl rfl).symm]
  refine Finset.sum_congr rfl fun k _ => ?_
  have hk := contrEquiv1_symm_val dot_S512x415_S415x512_S512x512_1_0_0_1_n_n 415 rfl rfl k
  have el : dot_S512x415_S415x512_S512x512_1_0_0_1_n_n.lhsIdx (ix2 r c)
      ((contrEquiv1 dot_S512x415_S415x512_S512x512_1_0_0_1_n_n 415 rfl rfl).symm k) = ix2 r k :=
    funext fun x => Fin.ext (by
      match x with
      | ⟨0, _⟩ => exact lhs_415x512_0 _ _
      | ⟨1, _⟩ => exact (lhs_415x512_1 _ _).trans hk)
  have er : dot_S512x415_S415x512_S512x512_1_0_0_1_n_n.rhsIdx (ix2 r c)
      ((contrEquiv1 dot_S512x415_S415x512_S512x512_1_0_0_1_n_n 415 rfl rfl).symm k) = ix2 k c :=
    funext fun x => Fin.ext (by
      match x with
      | ⟨0, _⟩ => exact (rhs_415x512_0 _ _).trans hk
      | ⟨1, _⟩ => exact rhs_415x512_1 _ _)
  rw [el, er]

/-! ## The matrix product [512,256] × [256,1] at an index -/

theorem lhs_256x1_0 (i : S512x1.Idx) (q : dot_S512x256_S256x1_S512x1_1_0_0_1_n_n.contr.Idx) :
    (dot_S512x256_S256x1_S512x1_1_0_0_1_n_n.lhsIdx i q 0).val = (i 0).val := by
  unfold DotDims.lhsIdx
  rw [dif_neg (show ¬(0 : Fin S512x256.rank) ∈ dot_S512x256_S256x1_S512x1_1_0_0_1_n_n.lhsBatch by decide),
    dif_pos (show (0 : Fin S512x256.rank) ∈ dot_S512x256_S256x1_S512x1_1_0_0_1_n_n.lhsNonContracting by decide)]
  rfl

theorem lhs_256x1_1 (i : S512x1.Idx) (q : dot_S512x256_S256x1_S512x1_1_0_0_1_n_n.contr.Idx) :
    (dot_S512x256_S256x1_S512x1_1_0_0_1_n_n.lhsIdx i q 1).val = (q ⟨0, by decide⟩).val :=
  dot_S512x256_S256x1_S512x1_1_0_0_1_n_n.lhsIdx_val_of_single rfl i q

theorem rhs_256x1_0 (i : S512x1.Idx) (q : dot_S512x256_S256x1_S512x1_1_0_0_1_n_n.contr.Idx) :
    (dot_S512x256_S256x1_S512x1_1_0_0_1_n_n.rhsIdx i q 0).val = (q ⟨0, by decide⟩).val :=
  dot_S512x256_S256x1_S512x1_1_0_0_1_n_n.rhsIdx_val_of_single rfl i q

theorem rhs_256x1_1 (i : S512x1.Idx) (q : dot_S512x256_S256x1_S512x1_1_0_0_1_n_n.contr.Idx) :
    (dot_S512x256_S256x1_S512x1_1_0_0_1_n_n.rhsIdx i q 1).val = (i 1).val := by
  unfold DotDims.rhsIdx
  rw [dif_neg (show ¬(1 : Fin S256x1.rank) ∈ dot_S512x256_S256x1_S512x1_1_0_0_1_n_n.rhsBatch by decide),
    dif_pos (show (1 : Fin S256x1.rank) ∈ dot_S512x256_S256x1_S512x1_1_0_0_1_n_n.rhsNonContracting by decide)]
  rfl

/-- Row `r`, column `c` of the product into a zero accumulator: the sum over the 256 contracted coordinates. -/
theorem matmul_256x1_apply {φ₁ φ₂ : FTy} (a : FVec Ideal S512x256 φ₁) (b : FVec Ideal S256x1 φ₂) (r : Fin 512) (c : Fin 1) :
    matmul dot_S512x256_S256x1_S512x1_1_0_0_1_n_n none a b (constant (F := Ideal) S512x1 .f32 0x00000000#32) (ix2 r c)
      = ∑ k : Fin 256, a (ix2 r k) * b (ix2 k c) := by
  simp only [matmul]
  rw [Ideal.matmul_constant_zero_apply,
    ← Equiv.sum_comp (contrEquiv1 dot_S512x256_S256x1_S512x1_1_0_0_1_n_n 256 rfl rfl).symm]
  refine Finset.sum_congr rfl fun k _ => ?_
  have hk := contrEquiv1_symm_val dot_S512x256_S256x1_S512x1_1_0_0_1_n_n 256 rfl rfl k
  have el : dot_S512x256_S256x1_S512x1_1_0_0_1_n_n.lhsIdx (ix2 r c)
      ((contrEquiv1 dot_S512x256_S256x1_S512x1_1_0_0_1_n_n 256 rfl rfl).symm k) = ix2 r k :=
    funext fun x => Fin.ext (by
      match x with
      | ⟨0, _⟩ => exact lhs_256x1_0 _ _
      | ⟨1, _⟩ => exact (lhs_256x1_1 _ _).trans hk)
  have er : dot_S512x256_S256x1_S512x1_1_0_0_1_n_n.rhsIdx (ix2 r c)
      ((contrEquiv1 dot_S512x256_S256x1_S512x1_1_0_0_1_n_n 256 rfl rfl).symm k) = ix2 k c :=
    funext fun x => Fin.ext (by
      match x with
      | ⟨0, _⟩ => exact (rhs_256x1_0 _ _).trans hk
      | ⟨1, _⟩ => exact rhs_256x1_1 _ _)
  rw [el, er]

/-! ## Bias rows broadcast down the rows -/

/-- The bias row [1,256] broadcast to [512,256] reads the row's entry at the column. -/
theorem bias_256_apply (x : Vec Ideal S1x256 .f32) (r : Fin 512) (k : Fin 256) :
    broadcastTo S512x256 x broadcasts_S1x256_S512x256 (ix2 r k) = x (ix2 (0 : Fin 1) k) := by
  refine broadcastTo_apply x _ (ix2 r k) (ix2 (0 : Fin 1) k) fun a => ?_
  match a with
  | ⟨0, _⟩ => rfl
  | ⟨1, _⟩ => rfl

/-- The bias [1,1] broadcast to [512,1] reads its one entry. -/
theorem bias_1_apply (x : Vec Ideal S1x1 .f32) (r : Fin 512) (c : Fin 1) :
    broadcastTo S512x1 x broadcasts_S1x1_S512x1 (ix2 r c) = x (ix2 (0 : Fin 1) (0 : Fin 1)) := by
  refine broadcastTo_apply x _ (ix2 r c) (ix2 (0 : Fin 1) (0 : Fin 1)) fun a => ?_
  match a with
  | ⟨0, _⟩ => rfl
  | ⟨1, _⟩ => rfl

/-- The bias row [1,512] broadcast to [512,512] reads the row's entry at the column. -/
theorem bias_512_apply (x : Vec Ideal S1x512 .f32) (r : Fin 512) (k : Fin 512) :
    broadcastTo S512x512 x broadcasts_S1x512_S512x512 (ix2 r k) = x (ix2 (0 : Fin 1) k) := by
  refine broadcastTo_apply x _ (ix2 r k) (ix2 (0 : Fin 1) k) fun a => ?_
  match a with
  | ⟨0, _⟩ => rfl
  | ⟨1, _⟩ => rfl

/-- The bias row [1,64] broadcast to [512,64] reads the row's entry at the column. -/
theorem bias_64_apply (x : Vec Ideal S1x64 .f32) (r : Fin 512) (k : Fin 64) :
    broadcastTo S512x64 x broadcasts_S1x64_S512x64 (ix2 r k) = x (ix2 (0 : Fin 1) k) := by
  refine broadcastTo_apply x _ (ix2 r k) (ix2 (0 : Fin 1) k) fun a => ?_
  match a with
  | ⟨0, _⟩ => rfl
  | ⟨1, _⟩ => rfl

/-! ## The two concatenations along axis 1 -/

/-- The 64 columns of the first piece, then the 351 of the second. -/
theorem joined_apply (v31 : FVec Ideal S512x64 .f32) (v322 : Vec Ideal S512x351 .f32) (r : Fin 512) (q : Fin 415) :
    concatenate S512x415 1 [⟨S512x64, v31⟩, ⟨S512x351, v322⟩] concatenates_S512x64_S512x351_S512x415_d1 (ix2 r q)
      = if h : q.val < 64 then v31 (ix2 r ⟨q.val, h⟩) else v322 (ix2 r (⟨q.val - 64, by omega⟩ : Fin 351)) := by
  by_cases h : q.val < 64
  · rw [dif_pos h]
    exact concatenate_pair_apply_left (1 : Fin S512x415.rank) v31 v322 _ (ix2 r q) rfl (ix2 r ⟨q.val, h⟩) (fun b => by
      match b with
      | ⟨0, _⟩ => rfl
      | ⟨1, _⟩ => rfl)
  · rw [dif_neg h]
    exact concatenate_pair_apply_right (1 : Fin S512x415.rank) v31 v322 _ (ix2 r q) rfl rfl
      (ix2 r (⟨q.val - 64, by omega⟩ : Fin 351)) (fun b hb => by
        match b, hb with
        | ⟨0, _⟩, _ => rfl
        | ⟨1, _⟩, hb => exact absurd rfl hb)
      (by show (q.val - 64) + 64 = q.val; omega)

/-- The [512,64] array as the one row 0 of a [512,1,64] array. -/
theorem row0_apply (v : FVec Ideal S512x64 .bf16) (r : Fin 512) (u : Fin 1) (d : Fin 64) :
    shapeCast S512x1x64 v shapeCasts_S512x64_S512x1x64 (ix3 r u d) = v (ix2 r d) :=
  shapeCast_apply v _ _ _ (by
    have hu : u.val = 0 := by omega
    rw [Shape.rowMajor_val_three, Shape.rowMajor_val_two]
    show r.val * 64 + d.val = (r.val * 1 + u.val) * 64 + d.val
    rw [hu, Nat.mul_one, Nat.add_zero])

/-- Row 0 from the first piece, rows 1 to 26 the second piece's rows 0 to 25. -/
theorem stacked_apply (v : FVec Ideal S512x64 .bf16) (x1 : Vec Ideal S512x26x64 .bf16) (r : Fin 512) (f : Fin 27) (d : Fin 64) :
    concatenate S512x27x64 1 [⟨S512x1x64, shapeCast S512x1x64 v shapeCasts_S512x64_S512x1x64⟩,
        ⟨S512x26x64, x1⟩]
      concatenates_S512x1x64_S512x26x64_S512x27x64_d1 (ix3 r f d)
      = if h : f.val = 0 then v (ix2 r d) else x1 (ix3 r (⟨f.val - 1, by omega⟩ : Fin 26) d) := by
  by_cases h : f.val = 0
  · rw [dif_pos h, ← row0_apply v r (0 : Fin 1) d]
    exact concatenate_pair_apply_left (1 : Fin S512x27x64.rank)
      (shapeCast S512x1x64 v shapeCasts_S512x64_S512x1x64) x1 _ (ix3 r f d) rfl (ix3 r (0 : Fin 1) d) (fun b => by
      match b with
      | ⟨0, _⟩ => rfl
      | ⟨1, _⟩ => exact h.symm
      | ⟨2, _⟩ => rfl)
  · rw [dif_neg h]
    exact concatenate_pair_apply_right (1 : Fin S512x27x64.rank)
      (shapeCast S512x1x64 v shapeCasts_S512x64_S512x1x64) x1 _ (ix3 r f d) rfl rfl
      (ix3 r (⟨f.val - 1, by omega⟩ : Fin 26) d) (fun b hb => by
        match b, hb with
        | ⟨0, _⟩, _ => rfl
        | ⟨1, _⟩, hb => exact absurd rfl hb
        | ⟨2, _⟩, _ => rfl)
      (by show (f.val - 1) + 1 = f.val; omega)

/-! ## The payloads -/

theorem pay1_apply (v339 : FVec Ideal S512x256 .f32) (x11 : Vec Ideal S1x256 .f32) (x12 : Vec Ideal S256x1 .f32)
    (x13 : Vec Ideal S1x1 .f32) (r : Fin 512) :
    k0_pay1 (F := Ideal) v339 x11 x12 x13 (ix2 r (0 : Fin 1))
      = (∑ k : Fin 256, max (v339 (ix2 r k) + x11 (ix2 (0 : Fin 1) k)) 0 * x12 (ix2 k (0 : Fin 1)))
        + x13 (ix2 (0 : Fin 1) (0 : Fin 1)) := by
  unfold k0_pay1
  simp only [shapeCast_self]
  rw [addf_apply, matmul_256x1_apply, bias_1_apply]
  refine congrArg (· + x13 (ix2 (0 : Fin 1) (0 : Fin 1))) (Finset.sum_congr rfl fun k _ => ?_)
  rw [truncf_apply, truncf_apply, maximumf_apply, addf_apply, bias_256_apply, broadcast_apply,
    Ideal.ofBits_def, Ideal.ofBits_zero_f32]

theorem pay36_apply (v31 : FVec Ideal S512x64 .f32) (v322 : Vec Ideal S512x351 .f32) (x8 : Vec Ideal S415x512 .f32)
    (x9 : Vec Ideal S1x512 .f32) (x10 : Vec Ideal S512x256 .f32) (r : Fin 512) (n : Fin 256) :
    k0_pay36 (F := Ideal) v31 v322 x8 x9 x10 (ix2 r n)
      = ∑ k : Fin 512, max ((∑ q : Fin 415,
            (if h : q.val < 64 then v31 (ix2 r ⟨q.val, h⟩) else v322 (ix2 r (⟨q.val - 64, by omega⟩ : Fin 351)))
              * x8 (ix2 q k)) + x9 (ix2 (0 : Fin 1) k)) 0 * x10 (ix2 k n) := by
  unfold k0_pay36
  simp only [shapeCast_self]
  rw [matmul_512x256_apply]
  refine Finset.sum_congr rfl fun k _ => ?_
  rw [truncf_apply, truncf_apply, maximumf_apply, addf_apply, bias_512_apply, broadcast_apply,
    Ideal.ofBits_def, Ideal.ofBits_zero_f32, matmul_415x512_apply]
  refine congrArg (fun t => max (t + x9 (ix2 (0 : Fin 1) k)) 0 * x10 (ix2 k n)) (Finset.sum_congr rfl fun q _ => ?_)
  rw [truncf_apply, truncf_apply, joined_apply]

theorem pay2_apply (x0 : Vec Ideal S512x13 .f32) (x2 : Vec Ideal S13x512 .f32) (x3 : Vec Ideal S1x512 .f32)
    (x4 : Vec Ideal S512x256 .f32) (x5 : Vec Ideal S1x256 .f32) (x6 : Vec Ideal S256x64 .f32) (x7 : Vec Ideal S1x64 .f32)
    (r : Fin 512) (d : Fin 64) :
    k0_pay2 (F := Ideal) x0 x2 x3 x4 x5 x6 x7 (ix2 r d)
      = (∑ k : Fin 256, max ((∑ k1 : Fin 512, max ((∑ k0 : Fin 13, x0 (ix2 r k0) * x2 (ix2 k0 k1))
            + x3 (ix2 (0 : Fin 1) k1)) 0 * x4 (ix2 k1 k)) + x5 (ix2 (0 : Fin 1) k)) 0 * x6 (ix2 k d))
        + x7 (ix2 (0 : Fin 1) d) := by
  unfold k0_pay2
  simp only [shapeCast_self]
  rw [addf_apply, matmul_256x64_apply, bias_64_apply]
  refine congrArg (· + x7 (ix2 (0 : Fin 1) d)) (Finset.sum_congr rfl fun k _ => ?_)
  rw [truncf_apply, truncf_apply, maximumf_apply, addf_apply, bias_256_apply, broadcast_apply,
    Ideal.ofBits_def, Ideal.ofBits_zero_f32, matmul_512x256_apply]
  refine congrArg (fun t => max (t + x5 (ix2 (0 : Fin 1) k)) 0 * x6 (ix2 k d)) (Finset.sum_congr rfl fun k1 _ => ?_)
  rw [truncf_apply, truncf_apply, maximumf_apply, addf_apply, bias_512_apply, broadcast_apply, matmul_13x512_apply]
  refine congrArg (fun t => max (t + x3 (ix2 (0 : Fin 1) k1)) 0 * x4 (ix2 k1 k)) (Finset.sum_congr rfl fun k0 _ => ?_)
  rw [truncf_apply, truncf_apply]

theorem pay3_apply (x0 : Vec Ideal S512x13 .f32) (x2 : Vec Ideal S13x512 .f32) (x3 : Vec Ideal S1x512 .f32)
    (x4 : Vec Ideal S512x256 .f32) (x5 : Vec Ideal S1x256 .f32) (x6 : Vec Ideal S256x64 .f32) (x7 : Vec Ideal S1x64 .f32)
    (x1 : Vec Ideal S512x26x64 .bf16) (r : Fin 512) (f : Fin 27) (d : Fin 64) :
    k0_pay3 (F := Ideal) x0 x2 x3 x4 x5 x6 x7 x1 (ix3 r f d)
      = if h : f.val = 0 then k0_pay2 (F := Ideal) x0 x2 x3 x4 x5 x6 x7 (ix2 r d)
        else x1 (ix3 r (⟨f.val - 1, by omega⟩ : Fin 26) d) := by
  unfold k0_pay3
  simp only [shapeCast_self]
  rw [stacked_apply]
  rfl

end Cert.KernelIdeal.Pay

end
-- ==== Proof.KernelInterSteps.lean ====
/-
  The kernel body's interaction payloads, read at an index, on the extended reals: the steps every one of them is
  made of, and the three that are worked by hand (the first, which needs no repetition of the row; the second, the plain
  case; the fifth, whose row reaches it as a second argument).

  The body holds `T : [512, 27, 64]`: 27 vectors of 64 entries for each of 512 rows. For `i = 1 … 26` the payload
  takes the vectors `0 … i-1` of every row, multiplies each entrywise with vector `i` of the same row and sums
  the 64 products: entry `(r, j)` of the `i`-th payload is the inner product of vectors `j` and `i` of row `r`.
-/
import proofs.«424834_j5669356831571_3_alg».proof.Proof.Gen.KernelIdeal.Skeleton
import proofs.«424834_j5669356831571_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx
open Cert.KernelIdeal Cert.KernelIdeal.Gen

/-! ## The three steps every payload is made of -/

/-- The sum over the last axis of a `[512, m, 64]` array, read at row `r`, column `j`: the sum of the 64 entries there. -/
theorem laneSum_apply {m : Nat} (src : FVec Ideal ⟨3, ![512, m, 64]⟩ .f32)
    (h : (⟨3, ![512, m, 64]⟩ : Shape).Reduces [2] ⟨2, ![512, m]⟩) (hφ : FKind.Formats .f32)
    (hacc : (0x00000000#32 : BitVec 32) = FKind.add.neutral .f32 hφ) (r : Fin 512) (j : Fin m) :
    multiReduction .add [2] ⟨2, ![512, m]⟩ src 0x00000000#32 h hφ hacc (ix2 r j)
      = ∑ d : Fin 64, src (ix3 r j d) := by
  refine (Ideal.multiReduction_add_single src _ h hφ hacc (ix2 r j)).trans ?_
  refine Finset.sum_congr rfl fun d _ => congrArg src ?_
  funext c
  match c with
  | ⟨0, _⟩ => rfl
  | ⟨1, _⟩ => rfl
  | ⟨2, _⟩ => rfl

/-- One vector per row, `[512, 1, 64]`, viewed as `[512, 64]` and back, then repeated `m` times along the middle axis:
    at `(r, j, d)` it is the vector's entry `(r, 0, d)`, whatever `j`. -/
theorem rowSpread_apply {m : Nat} (V : FVec Ideal ⟨3, ![512, 1, 64]⟩ .bf16)
    (h1 : (⟨3, ![512, 1, 64]⟩ : Shape).ShapeCasts ⟨2, ![512, 64]⟩)
    (h2 : (⟨2, ![512, 64]⟩ : Shape).ShapeCasts ⟨3, ![512, 1, 64]⟩)
    (hb : (⟨3, ![512, 1, 64]⟩ : Shape).Broadcasts ⟨3, ![512, m, 64]⟩) (r : Fin 512) (j : Fin m) (d : Fin 64) :
    broadcastTo ⟨3, ![512, m, 64]⟩ (shapeCast ⟨3, ![512, 1, 64]⟩ (shapeCast ⟨2, ![512, 64]⟩ V h1) h2) hb (ix3 r j d)
      = V (ix3 r 0 d) := by
  rw [shapeCast_shapeCast]
  exact broadcastTo_apply V hb (ix3 r j d) (ix3 r 0 d) (fun a =>
    match a with
    | ⟨0, _⟩ => rfl
    | ⟨1, _⟩ => rfl
    | ⟨2, _⟩ => rfl)

/-! ## The three payloads worked by hand

Each proof reads the payload from its last operation inwards: the closing cast to the same shape is the identity; the sum
over the last axis is the sum of the 64 entries; widening is the identity on the extended reals; the product is entrywise;
its first factor is the cut of `T` from vector 0, read at vector `j`; its second factor is vector `i` of the row. -/

/-- `i = 1`: one earlier vector, so vector 1 is not repeated: it is cut out, viewed `[512, 64]` and back, and multiplied. -/
theorem inter1_apply (T : FVec Ideal S512x27x64 .bf16) (r : Fin 512) (j : Fin 1) :
    k0_pay4 (F := Ideal) T (ix2 r j)
      = ∑ d : Fin 64, T (ix3 r ⟨j.val, by omega⟩ d) * T (ix3 r ⟨1, by omega⟩ d) := by
  unfold k0_pay4
  dsimp only
  rw [shapeCast_self]
  refine (laneSum_apply _ _ _ _ r j).trans (Finset.sum_congr rfl fun d _ => ?_)
  rw [extf_apply, mulf_apply, shapeCast_shapeCast]
  refine congrArg₂ (· * ·) ?_ ?_
  · exact slice3_axis1_apply 0 T _ r j d ⟨j.val, by omega⟩ (Nat.zero_add _).symm
  · exact slice3_axis1_apply 1 T _ r j d ⟨1, by omega⟩ (by show 1 = 1 + j.val; have := j.isLt; omega)

/-- `i = 2`: the plain case. -/
theorem inter2_apply (T : FVec Ideal S512x27x64 .bf16) (r : Fin 512) (j : Fin 2) :
    k0_pay5 (F := Ideal) T (ix2 r j)
      = ∑ d : Fin 64, T (ix3 r ⟨j.val, by omega⟩ d) * T (ix3 r ⟨2, by omega⟩ d) := by
  unfold k0_pay5
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 2 T _ r 0 d ⟨2, by omega⟩ rfl

/-- `i = 5`: vector 5 was cut out of `T` before and reaches the payload as its second argument. -/
theorem inter5_apply (T : FVec Ideal S512x27x64 .bf16) (r : Fin 512) (j : Fin 5) :
    k0_pay9 (F := Ideal) T (k0_pay8 T) (ix2 r j)
      = ∑ d : Fin 64, T (ix3 r ⟨j.val, by omega⟩ d) * T (ix3 r ⟨5, by omega⟩ d) := by
  unfold k0_pay9 k0_pay8
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 5 T _ r 0 d ⟨5, by omega⟩ rfl

end Cert.KernelIdeal.Pay

end
-- ==== Proof.KernelInter.lean ====
/-
  The kernel body's 26 interaction payloads, read at an index, on the extended reals.

  The body holds `T : [512, 27, 64]`: 27 vectors of 64 entries for each of 512 rows. For `i = 1 … 26` the payload
  takes the vectors `0 … i-1` of every row, multiplies each entrywise with vector `i` of the same row and sums
  the 64 products: entry `(r, j)` of the `i`-th payload is the inner product of vectors `j` and `i` of row `r`.

  The steps, and the payloads 1, 2 and 5, are in the imported module; here are the other 23. Each is read as the second
  is (as the fifth, where vector `i` reaches the payload as a second argument): the closing cast to the same shape is the
  identity; the sum over the last axis is the sum of the 64 entries; widening is the identity on the extended reals; the
  product is entrywise; its first factor is the cut of `T` from vector 0, read at vector `j`; its second factor is
  vector `i` of the row, repeated `i` times.
-/
import proofs.«424834_j5669356831571_3_alg».proof.Proof.KernelInterSteps

noncomputable section

namespace Cert.KernelIdeal.Pay

open Idealize.ShloMosaic Idealize.ShloMosaic.ValueIdx
open Cert.KernelIdeal Cert.KernelIdeal.Gen

/-- `i = 3`. -/
theorem inter3_apply (T : FVec Ideal S512x27x64 .bf16) (r : Fin 512) (j : Fin 3) :
    k0_pay6 (F := Ideal) T (ix2 r j)
      = ∑ d : Fin 64, T (ix3 r ⟨j.val, by omega⟩ d) * T (ix3 r ⟨3, by omega⟩ d) := by
  unfold k0_pay6
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 3 T _ r 0 d ⟨3, by omega⟩ rfl

/-- `i = 4`. -/
theorem inter4_apply (T : FVec Ideal S512x27x64 .bf16) (r : Fin 512) (j : Fin 4) :
    k0_pay7 (F := Ideal) T (ix2 r j)
      = ∑ d : Fin 64, T (ix3 r ⟨j.val, by omega⟩ d) * T (ix3 r ⟨4, by omega⟩ d) := by
  unfold k0_pay7
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 4 T _ r 0 d ⟨4, by omega⟩ rfl

/-- `i = 6`. -/
theorem inter6_apply (T : FVec Ideal S512x27x64 .bf16) (r : Fin 512) (j : Fin 6) :
    k0_pay10 (F := Ideal) T (ix2 r j)
      = ∑ d : Fin 64, T (ix3 r ⟨j.val, by omega⟩ d) * T (ix3 r ⟨6, by omega⟩ d) := by
  unfold k0_pay10
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 6 T _ r 0 d ⟨6, by omega⟩ rfl

/-- `i = 7`. -/
theorem inter7_apply (T : FVec Ideal S512x27x64 .bf16) (r : Fin 512) (j : Fin 7) :
    k0_pay11 (F := Ideal) T (ix2 r j)
      = ∑ d : Fin 64, T (ix3 r ⟨j.val, by omega⟩ d) * T (ix3 r ⟨7, by omega⟩ d) := by
  unfold k0_pay11
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 7 T _ r 0 d ⟨7, by omega⟩ rfl

/-- `i = 8`. -/
theorem inter8_apply (T : FVec Ideal S512x27x64 .bf16) (r : Fin 512) (j : Fin 8) :
    k0_pay12 (F := Ideal) T (ix2 r j)
      = ∑ d : Fin 64, T (ix3 r ⟨j.val, by omega⟩ d) * T (ix3 r ⟨8, by omega⟩ d) := by
  unfold k0_pay12
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 8 T _ r 0 d ⟨8, by omega⟩ rfl

/-- `i = 9`: vector 9 was cut out of `T` before and reaches the payload as its second argument. -/
theorem inter9_apply (T : FVec Ideal S512x27x64 .bf16) (r : Fin 512) (j : Fin 9) :
    k0_pay14 (F := Ideal) T (k0_pay13 T) (ix2 r j)
      = ∑ d : Fin 64, T (ix3 r ⟨j.val, by omega⟩ d) * T (ix3 r ⟨9, by omega⟩ d) := by
  unfold k0_pay14 k0_pay13
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 9 T _ r 0 d ⟨9, by omega⟩ rfl

/-- `i = 10`. -/
theorem inter10_apply (T : FVec Ideal S512x27x64 .bf16) (r : Fin 512) (j : Fin 10) :
    k0_pay15 (F := Ideal) T (ix2 r j)
      = ∑ d : Fin 64, T (ix3 r ⟨j.val, by omega⟩ d) * T (ix3 r ⟨10, by omega⟩ d) := by
  unfold k0_pay15
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 10 T _ r 0 d ⟨10, by omega⟩ rfl

/-- `i = 11`. -/
theorem inter11_apply (T : FVec Ideal S512x27x64 .bf16) (r : Fin 512) (j : Fin 11) :
    k0_pay16 (F := Ideal) T (ix2 r j)
      = ∑ d : Fin 64, T (ix3 r ⟨j.val, by omega⟩ d) * T (ix3 r ⟨11, by omega⟩ d) := by
  unfold k0_pay16
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 11 T _ r 0 d ⟨11, by omega⟩ rfl

/-- `i = 12`. -/
theorem inter12_apply (T : FVec Ideal S512x27x64 .bf16) (r : Fin 512) (j : Fin 12) :
    k0_pay17 (F := Ideal) T (ix2 r j)
      = ∑ d : Fin 64, T (ix3 r ⟨j.val, by omega⟩ d) * T (ix3 r ⟨12, by omega⟩ d) := by
  unfold k0_pay17
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 12 T _ r 0 d ⟨12, by omega⟩ rfl

/-- `i = 13`: vector 13 was cut out of `T` before and reaches the payload as its second argument. -/
theorem inter13_apply (T : FVec Ideal S512x27x64 .bf16) (r : Fin 512) (j : Fin 13) :
    k0_pay19 (F := Ideal) T (k0_pay18 T) (ix2 r j)
      = ∑ d : Fin 64, T (ix3 r ⟨j.val, by omega⟩ d) * T (ix3 r ⟨13, by omega⟩ d) := by
  unfold k0_pay19 k0_pay18
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 13 T _ r 0 d ⟨13, by omega⟩ rfl

/-- `i = 14`. -/
theorem inter14_apply (T : FVec Ideal S512x27x64 .bf16) (r : Fin 512) (j : Fin 14) :
    k0_pay20 (F := Ideal) T (ix2 r j)
      = ∑ d : Fin 64, T (ix3 r ⟨j.val, by omega⟩ d) * T (ix3 r ⟨14, by omega⟩ d) := by
  unfold k0_pay20
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 14 T _ r 0 d ⟨14, by omega⟩ rfl

/-- `i = 15`. -/
theorem inter15_apply (T : FVec Ideal S512x27x64 .bf16) (r : Fin 512) (j : Fin 15) :
    k0_pay21 (F := Ideal) T (ix2 r j)
      = ∑ d : Fin 64, T (ix3 r ⟨j.val, by omega⟩ d) * T (ix3 r ⟨15, by omega⟩ d) := by
  unfold k0_pay21
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 15 T _ r 0 d ⟨15, by omega⟩ rfl

/-- `i = 16`. -/
theorem inter16_apply (T : FVec Ideal S512x27x64 .bf16) (r : Fin 512) (j : Fin 16) :
    k0_pay22 (F := Ideal) T (ix2 r j)
      = ∑ d : Fin 64, T (ix3 r ⟨j.val, by omega⟩ d) * T (ix3 r ⟨16, by omega⟩ d) := by
  unfold k0_pay22
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 16 T _ r 0 d ⟨16, by omega⟩ rfl

/-- `i = 17`: vector 17 was cut out of `T` before and reaches the payload as its second argument. -/
theorem inter17_apply (T : FVec Ideal S512x27x64 .bf16) (r : Fin 512) (j : Fin 17) :
    k0_pay24 (F := Ideal) T (k0_pay23 T) (ix2 r j)
      = ∑ d : Fin 64, T (ix3 r ⟨j.val, by omega⟩ d) * T (ix3 r ⟨17, by omega⟩ d) := by
  unfold k0_pay24 k0_pay23
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 17 T _ r 0 d ⟨17, by omega⟩ rfl

/-- `i = 18`. -/
theorem inter18_apply (T : FVec Ideal S512x27x64 .bf16) (r : Fin 512) (j : Fin 18) :
    k0_pay25 (F := Ideal) T (ix2 r j)
      = ∑ d : Fin 64, T (ix3 r ⟨j.val, by omega⟩ d) * T (ix3 r ⟨18, by omega⟩ d) := by
  unfold k0_pay25
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 18 T _ r 0 d ⟨18, by omega⟩ rfl

/-- `i = 19`. -/
theorem inter19_apply (T : FVec Ideal S512x27x64 .bf16) (r : Fin 512) (j : Fin 19) :
    k0_pay26 (F := Ideal) T (ix2 r j)
      = ∑ d : Fin 64, T (ix3 r ⟨j.val, by omega⟩ d) * T (ix3 r ⟨19, by omega⟩ d) := by
  unfold k0_pay26
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 19 T _ r 0 d ⟨19, by omega⟩ rfl

/-- `i = 20`. -/
theorem inter20_apply (T : FVec Ideal S512x27x64 .bf16) (r : Fin 512) (j : Fin 20) :
    k0_pay27 (F := Ideal) T (ix2 r j)
      = ∑ d : Fin 64, T (ix3 r ⟨j.val, by omega⟩ d) * T (ix3 r ⟨20, by omega⟩ d) := by
  unfold k0_pay27
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 20 T _ r 0 d ⟨20, by omega⟩ rfl

/-- `i = 21`: vector 21 was cut out of `T` before and reaches the payload as its second argument. -/
theorem inter21_apply (T : FVec Ideal S512x27x64 .bf16) (r : Fin 512) (j : Fin 21) :
    k0_pay29 (F := Ideal) T (k0_pay28 T) (ix2 r j)
      = ∑ d : Fin 64, T (ix3 r ⟨j.val, by omega⟩ d) * T (ix3 r ⟨21, by omega⟩ d) := by
  unfold k0_pay29 k0_pay28
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 21 T _ r 0 d ⟨21, by omega⟩ rfl

/-- `i = 22`. -/
theorem inter22_apply (T : FVec Ideal S512x27x64 .bf16) (r : Fin 512) (j : Fin 22) :
    k0_pay30 (F := Ideal) T (ix2 r j)
      = ∑ d : Fin 64, T (ix3 r ⟨j.val, by omega⟩ d) * T (ix3 r ⟨22, by omega⟩ d) := by
  unfold k0_pay30
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 22 T _ r 0 d ⟨22, by omega⟩ rfl

/-- `i = 23`. -/
theorem inter23_apply (T : FVec Ideal S512x27x64 .bf16) (r : Fin 512) (j : Fin 23) :
    k0_pay31 (F := Ideal) T (ix2 r j)
      = ∑ d : Fin 64, T (ix3 r ⟨j.val, by omega⟩ d) * T (ix3 r ⟨23, by omega⟩ d) := by
  unfold k0_pay31
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 23 T _ r 0 d ⟨23, by omega⟩ rfl

/-- `i = 24`. -/
theorem inter24_apply (T : FVec Ideal S512x27x64 .bf16) (r : Fin 512) (j : Fin 24) :
    k0_pay32 (F := Ideal) T (ix2 r j)
      = ∑ d : Fin 64, T (ix3 r ⟨j.val, by omega⟩ d) * T (ix3 r ⟨24, by omega⟩ d) := by
  unfold k0_pay32
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 24 T _ r 0 d ⟨24, by omega⟩ rfl

/-- `i = 25`: vector 25 was cut out of `T` before and reaches the payload as its second argument. -/
theorem inter25_apply (T : FVec Ideal S512x27x64 .bf16) (r : Fin 512) (j : Fin 25) :
    k0_pay34 (F := Ideal) T (k0_pay33 T) (ix2 r j)
      = ∑ d : Fin 64, T (ix3 r ⟨j.val, by omega⟩ d) * T (ix3 r ⟨25, by omega⟩ d) := by
  unfold k0_pay34 k0_pay33
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 25 T _ r 0 d ⟨25, by omega⟩ rfl

/-- `i = 26`. -/
theorem inter26_apply (T : FVec Ideal S512x27x64 .bf16) (r : Fin 512) (j : Fin 26) :
    k0_pay35 (F := Ideal) T (ix2 r j)
      = ∑ d : Fin 64, T (ix3 r ⟨j.val, by omega⟩ d) * T (ix3 r ⟨26, by omega⟩ d) := by
  unfold k0_pay35
  dsimp only
  rw [shapeCast_self]
  refine (laneSum_apply _ _ _ _ r j).trans (Finset.sum_congr rfl fun d _ => ?_)
  rw [extf_apply, mulf_apply]
  refine congrArg₂ (· * ·) ?_ ?_
  · exact slice3_axis1_apply 0 T _ r j d ⟨j.val, by omega⟩ (Nat.zero_add _).symm
  · refine (rowSpread_apply _ _ _ _ r j d).trans ?_
    exact slice3_axis1_apply 26 T _ r 0 d ⟨26, by omega⟩ rfl

end Cert.KernelIdeal.Pay

end
-- ==== Proof.KernelPiece.lean ====
/-
  What the kernel body leaves in its output block at a grid point, as one term over the generated payloads, at the
  extended reals.

  The body computes the dense vector (`k0_pay2`) and the 27 stacked vectors of each row (`k0_pay3`), stores the 26
  blocks of pairwise inner products into column ranges of a [512, 351] scratch — block `i` (`i = 1 … 26`: vector `i`
  against the vectors before it) into columns `i(i-1)/2 … i(i-1)/2 + i - 1` —, loads the whole scratch back, and
  stores the second perceptron's result (`k0_pay36`, then `k0_pay1`) over the whole output block.

    scrOf        the scratch as that load reads it: the 26 stored blocks read back;
    scrOf_apply  at row `r`, column `p` it is the inner product of the `p`-th pair `(li p, lj p)` of row `r`'s vectors:
                 column `p` lies in block `li p` at offset `lj p` (decided block by block), each block is the products
                 of its vector with the earlier ones, and the product commutes;
    outsAt0_eq   the output block after the body at any point is `k0_pay1 (k0_pay36 (k0_pay2 …) (scrOf (k0_pay3 …)) …) …` of
                 the point's input blocks.
-/
import proofs.«424834_j5669356831571_3_alg».proof.Proof.Gen.KernelIdeal.Value
import proofs.«424834_j5669356831571_3_alg».proof.Proof.Spec
import proofs.«424834_j5669356831571_3_alg».proof.Proof.KernelInter
import Idealize.ShloMosaic.Lib.Tactic

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

variable {F : FTy → Type} [FloatOps F]

/-! ## The stored blocks -/

/-- The 26 stored pieces of the pair scratch, the last stored first: piece `i` (`i = 1 … 26`) holds the `i` inner
    products of vector `i` with the vectors before it, in columns `i(i-1)/2 … i(i-1)/2 + i - 1`. -/
def scrL (T : FVec F S512x27x64 .bf16) : List (View.Piece (Elt F) S512x351 .f32) :=
  [
    ⟨Rect.unit ![0, 325] S512x26.size inb_S512x351_S512x26_0_325, k0_pay35 T⟩,
    ⟨Rect.unit ![0, 300] S512x25.size inb_S512x351_S512x25_0_300, k0_pay34 T (k0_pay33 T)⟩,
    ⟨Rect.unit ![0, 276] S512x24.size inb_S512x351_S512x24_0_276, k0_pay32 T⟩,
    ⟨Rect.unit ![0, 253] S512x23.size inb_S512x351_S512x23_0_253, k0_pay31 T⟩,
    ⟨Rect.unit ![0, 231] S512x22.size inb_S512x351_S512x22_0_231, k0_pay30 T⟩,
    ⟨Rect.unit ![0, 210] S512x21.size inb_S512x351_S512x21_0_210, k0_pay29 T (k0_pay28 T)⟩,
    ⟨Rect.unit ![0, 190] S512x20.size inb_S512x351_S512x20_0_190, k0_pay27 T⟩,
    ⟨Rect.unit ![0, 171] S512x19.size inb_S512x351_S512x19_0_171, k0_pay26 T⟩,
    ⟨Rect.unit ![0, 153] S512x18.size inb_S512x351_S512x18_0_153, k0_pay25 T⟩,
    ⟨Rect.unit ![0, 136] S512x17.size inb_S512x351_S512x17_0_136, k0_pay24 T (k0_pay23 T)⟩,
    ⟨Rect.unit ![0, 120] S512x16.size inb_S512x351_S512x16_0_120, k0_pay22 T⟩,
    ⟨Rect.unit ![0, 105] S512x15.size inb_S512x351_S512x15_0_105, k0_pay21 T⟩,
    ⟨Rect.unit ![0, 91] S512x14.size inb_S512x351_S512x14_0_91, k0_pay20 T⟩,
    ⟨Rect.unit ![0, 78] S512x13.size inb_S512x351_S512x13_0_78, k0_pay19 T (k0_pay18 T)⟩,
    ⟨Rect.unit ![0, 66] S512x12.size inb_S512x351_S512x12_0_66, k0_pay17 T⟩,
    ⟨Rect.unit ![0, 55] S512x11.size inb_S512x351_S512x11_0_55, k0_pay16 T⟩,
    ⟨Rect.unit ![0, 45] S512x10.size inb_S512x351_S512x10_0_45, k0_pay15 T⟩,
    ⟨Rect.unit ![0, 36] S512x9.size inb_S512x351_S512x9_0_36, k0_pay14 T (k0_pay13 T)⟩,
    ⟨Rect.unit ![0, 28] S512x8.size inb_S512x351_S512x8_0_28, k0_pay12 T⟩,
    ⟨Rect.unit ![0, 21] S512x7.size inb_S512x351_S512x7_0_21, k0_pay11 T⟩,
    ⟨Rect.unit ![0, 15] S512x6.size inb_S512x351_S512x6_0_15, k0_pay10 T⟩,
    ⟨Rect.unit ![0, 10] S512x5.size inb_S512x351_S512x5_0_10, k0_pay9 T (k0_pay8 T)⟩,
    ⟨Rect.unit ![0, 6] S512x4.size inb_S512x351_S512x4_0_6, k0_pay7 T⟩,
    ⟨Rect.unit ![0, 3] S512x3.size inb_S512x351_S512x3_0_3, k0_pay6 T⟩,
    ⟨Rect.unit ![0, 1] S512x2.size inb_S512x351_S512x2_0_1, k0_pay5 T⟩,
    ⟨Rect.unit ![0, 0] S512x1.size inb_S512x351_S512x1_0_0, k0_pay4 T⟩]

private theorem hz2 : (![0, 0] : Fin 2 → Nat) = fun _ => 0 := funext fun a => by fin_cases a <;> rfl
private theorem hz3 : (![0, 0, 0] : Fin 3 → Nat) = fun _ => 0 := funext fun a => by fin_cases a <;> rfl

/-- A load of the whole scratch after a list of stores reads what the stores leave, whatever the scratch held. -/
theorem readCov_whole {sig : RefSig} {κ : Kind} {sp : Space} (v : View sig κ sp S512x351 .f32) (L : List (View.Piece (Elt F) S512x351 .f32))
    (inb : ∀ a, (![0, 0] : Fin 2 → Nat) a + S512x351.size a ≤ S512x351.size a) :
    v.readCov L (Rect.unit ![0, 0] S512x351.size inb).toLoadRect = View.canon L := by
  rw [View.readCov_eq_canon']
  exact View.ld_unit_zero (S := S512x351) hz2 inb (View.canon L)

/-! ## The output block, for any whole staging buffers and any contents -/

/-- The output block after the body: its one covering store's payload, in which every load of an input buffer reads
    the buffer's contents and the load of the scratch reads the 26 stored blocks back. -/
theorem out_A (c : Dev nD) (i : grid0.Coords) (arg1 : Memref sig .tc .vmem S512x13 .f32) (harg1 : arg1.IsWhole) (arg2 : Memref sig .tc .vmem S512x26x64 .bf16) (harg2 : arg2.IsWhole) (arg3 : Memref sig .tc .vmem S13x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x64 .f32) (harg7 : arg7.IsWhole) (arg8 : Memref sig .tc .vmem S1x64 .f32) (harg8 : arg8.IsWhole) (arg9 : Memref sig .tc .vmem S415x512 .f32) (harg9 : arg9.IsWhole) (arg10 : Memref sig .tc .vmem S1x512 .f32) (harg10 : arg10.IsWhole) (arg11 : Memref sig .tc .vmem S512x256 .f32) (harg11 : arg11.IsWhole) (arg12 : Memref sig .tc .vmem S1x256 .f32) (harg12 : arg12.IsWhole) (arg13 : Memref sig .tc .vmem S256x1 .f32) (harg13 : arg13.IsWhole) (arg14 : Memref sig .tc .vmem S1x1 .f32) (harg14 : arg14.IsWhole) (arg15 : Memref sig .tc .vmem S512x1 .f32) (harg15 : arg15.IsWhole) (arg16 : Memref sig .tc .vmem S512x351 .f32) (harg16 : arg16.IsWhole)
    (x0 : Vec F S512x13 .f32) (x1 : Vec F S512x26x64 .bf16) (x2 : Vec F S13x512 .f32) (x3 : Vec F S1x512 .f32) (x4 : Vec F S512x256 .f32) (x5 : Vec F S1x256 .f32) (x6 : Vec F S256x64 .f32) (x7 : Vec F S1x64 .f32) (x8 : Vec F S415x512 .f32) (x9 : Vec F S1x512 .f32) (x10 : Vec F S512x256 .f32) (x11 : Vec F S1x256 .f32) (x12 : Vec F S256x1 .f32) (x13 : Vec F S1x1 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 = k0_pay1 (k0_pay36 (k0_pay2 x0 x2 x3 x4 x5 x6 x7) (View.canon (scrL (k0_pay3 x0 x2 x3 x4 x5 x6 x7 x1))) x8 x9 x10) x11 x12 x13 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x13) hz2, View.ld_unit_zero (S := S512x26x64) hz3, View.ld_unit_zero (S := S13x512) hz2, View.ld_unit_zero (S := S1x512) hz2, View.ld_unit_zero (S := S512x256) hz2, View.ld_unit_zero (S := S1x256) hz2, View.ld_unit_zero (S := S256x64) hz2, View.ld_unit_zero (S := S1x64) hz2, View.ld_unit_zero (S := S415x512) hz2, View.ld_unit_zero (S := S256x1) hz2, View.ld_unit_zero (S := S1x1) hz2]
  refine congrArg (fun s => k0_pay1 (k0_pay36 (k0_pay2 x0 x2 x3 x4 x5 x6 x7) s x8 x9 x10) x11 x12 x13) ?_
  exact readCov_whole arg16.view (scrL (k0_pay3 x0 x2 x3 x4 x5 x6 x7 x1)) inb_S512x351_S512x351_0_0

/-! ## The scratch read back, index by index -/

/-- The `p`-th pair's inner product of the 27 vectors `T r 0 …, T r 26` of row `r`. -/
def pairDot (T : FVec Ideal S512x27x64 .bf16) (r : Fin 512) (p : Fin 351) : EReal :=
  ∑ d : Fin 64, T (ix3 r (Cert.Spec.li p) d) * T (ix3 r (Cert.Spec.lj p) d)

/-- The scratch's contents as one function of the index. -/
def pairTab (T : FVec Ideal S512x27x64 .bf16) : S512x351.Idx → EReal :=
  fun y => pairDot T ⟨(y 0).val, (y 0).isLt⟩ ⟨(y 1).val, (y 1).isLt⟩

theorem pairTab_eq (T : FVec Ideal S512x27x64 .bf16) (y : S512x351.Idx) (r : Fin 512) (p : Fin 351)
    (h0 : (y 0).val = r.val) (h1 : (y 1).val = p.val) : pairTab T y = pairDot T r p := by
  have e0 : (⟨(y 0).val, (y 0).isLt⟩ : Fin 512) = r := Fin.ext h0
  have e1 : (⟨(y 1).val, (y 1).isLt⟩ : Fin 351) = p := Fin.ext h1
  unfold pairTab
  rw [e0, e1]

/-- A stored piece agrees with the table: piece `i` at columns `o …` holds the products of vector `i` with the
    vectors `j < i`, and column `o + j` is the pair `(i, j)`. -/
theorem piece_eq (T : FVec Ideal S512x27x64 .bf16) (i o : ℕ) (hi : i < 27)
    (inb : ∀ a, (![0, o] : Fin 2 → ℕ) a + (![512, i] : Fin 2 → ℕ) a ≤ S512x351.size a)
    (w : (⟨2, ![512, i]⟩ : Shape).Idx → EReal)
    (hw : ∀ (r : Fin 512) (j : Fin i), w (ix2 r j) = ∑ d : Fin 64, T (ix3 r ⟨j.val, by omega⟩ d) * T (ix3 r ⟨i, hi⟩ d))
    (hcol : ∀ j : Fin i, ∃ h : o + j.val < 351, Cert.Spec.li ⟨o + j.val, h⟩ = ⟨i, hi⟩ ∧ Cert.Spec.lj ⟨o + j.val, h⟩ = ⟨j.val, by omega⟩) :
    ∀ x : (Rect.unit (s := S512x351) ![0, o] ![512, i] inb).shape.Idx, w x = pairTab T ((Rect.unit (s := S512x351) ![0, o] ![512, i] inb).emb x) := by
  intro x
  obtain ⟨r, j, rfl⟩ : ∃ (r : Fin 512) (j : Fin i), x = ix2 r j := ⟨x 0, x 1, eq_ix2 x⟩
  obtain ⟨h, hli, hlj⟩ := hcol j
  rw [hw r j, pairTab_eq T _ r ⟨o + j.val, h⟩ (show 0 + 1 * r.val = r.val by omega) (show o + 1 * j.val = o + j.val by omega)]
  unfold pairDot
  rw [hli, hlj]
  exact Finset.sum_congr rfl fun d _ => mul_comm _ _

theorem pieces_eq (T : FVec Ideal S512x27x64 .bf16) :
    ∀ q ∈ scrL (F := Ideal) T, ∀ x : q.1.shape.Idx, q.2 x = pairTab T (q.1.emb x) := by
  intro q hq
  simp only [scrL, List.mem_cons, List.not_mem_nil, or_false] at hq
  rcases hq with rfl | rfl | rfl | rfl | rfl | rfl | rfl | rfl | rfl | rfl | rfl | rfl | rfl | rfl | rfl | rfl | rfl | rfl | rfl | rfl | rfl | rfl | rfl | rfl | rfl | rfl
  · exact piece_eq T 26 325 (by omega) inb_S512x351_S512x26_0_325 (k0_pay35 T) (Cert.KernelIdeal.Pay.inter26_apply T) (by decide +kernel)
  · exact piece_eq T 25 300 (by omega) inb_S512x351_S512x25_0_300 (k0_pay34 T (k0_pay33 T)) (Cert.KernelIdeal.Pay.inter25_apply T) (by decide +kernel)
  · exact piece_eq T 24 276 (by omega) inb_S512x351_S512x24_0_276 (k0_pay32 T) (Cert.KernelIdeal.Pay.inter24_apply T) (by decide +kernel)
  · exact piece_eq T 23 253 (by omega) inb_S512x351_S512x23_0_253 (k0_pay31 T) (Cert.KernelIdeal.Pay.inter23_apply T) (by decide +kernel)
  · exact piece_eq T 22 231 (by omega) inb_S512x351_S512x22_0_231 (k0_pay30 T) (Cert.KernelIdeal.Pay.inter22_apply T) (by decide +kernel)
  · exact piece_eq T 21 210 (by omega) inb_S512x351_S512x21_0_210 (k0_pay29 T (k0_pay28 T)) (Cert.KernelIdeal.Pay.inter21_apply T) (by decide +kernel)
  · exact piece_eq T 20 190 (by omega) inb_S512x351_S512x20_0_190 (k0_pay27 T) (Cert.KernelIdeal.Pay.inter20_apply T) (by decide +kernel)
  · exact piece_eq T 19 171 (by omega) inb_S512x351_S512x19_0_171 (k0_pay26 T) (Cert.KernelIdeal.Pay.inter19_apply T) (by decide +kernel)
  · exact piece_eq T 18 153 (by omega) inb_S512x351_S512x18_0_153 (k0_pay25 T) (Cert.KernelIdeal.Pay.inter18_apply T) (by decide +kernel)
  · exact piece_eq T 17 136 (by omega) inb_S512x351_S512x17_0_136 (k0_pay24 T (k0_pay23 T)) (Cert.KernelIdeal.Pay.inter17_apply T) (by decide +kernel)
  · exact piece_eq T 16 120 (by omega) inb_S512x351_S512x16_0_120 (k0_pay22 T) (Cert.KernelIdeal.Pay.inter16_apply T) (by decide +kernel)
  · exact piece_eq T 15 105 (by omega) inb_S512x351_S512x15_0_105 (k0_pay21 T) (Cert.KernelIdeal.Pay.inter15_apply T) (by decide +kernel)
  · exact piece_eq T 14 91 (by omega) inb_S512x351_S512x14_0_91 (k0_pay20 T) (Cert.KernelIdeal.Pay.inter14_apply T) (by decide +kernel)
  · exact piece_eq T 13 78 (by omega) inb_S512x351_S512x13_0_78 (k0_pay19 T (k0_pay18 T)) (Cert.KernelIdeal.Pay.inter13_apply T) (by decide +kernel)
  · exact piece_eq T 12 66 (by omega) inb_S512x351_S512x12_0_66 (k0_pay17 T) (Cert.KernelIdeal.Pay.inter12_apply T) (by decide +kernel)
  · exact piece_eq T 11 55 (by omega) inb_S512x351_S512x11_0_55 (k0_pay16 T) (Cert.KernelIdeal.Pay.inter11_apply T) (by decide +kernel)
  · exact piece_eq T 10 45 (by omega) inb_S512x351_S512x10_0_45 (k0_pay15 T) (Cert.KernelIdeal.Pay.inter10_apply T) (by decide +kernel)
  · exact piece_eq T 9 36 (by omega) inb_S512x351_S512x9_0_36 (k0_pay14 T (k0_pay13 T)) (Cert.KernelIdeal.Pay.inter9_apply T) (by decide +kernel)
  · exact piece_eq T 8 28 (by omega) inb_S512x351_S512x8_0_28 (k0_pay12 T) (Cert.KernelIdeal.Pay.inter8_apply T) (by decide +kernel)
  · exact piece_eq T 7 21 (by omega) inb_S512x351_S512x7_0_21 (k0_pay11 T) (Cert.KernelIdeal.Pay.inter7_apply T) (by decide +kernel)
  · exact piece_eq T 6 15 (by omega) inb_S512x351_S512x6_0_15 (k0_pay10 T) (Cert.KernelIdeal.Pay.inter6_apply T) (by decide +kernel)
  · exact piece_eq T 5 10 (by omega) inb_S512x351_S512x5_0_10 (k0_pay9 T (k0_pay8 T)) (Cert.KernelIdeal.Pay.inter5_apply T) (by decide +kernel)
  · exact piece_eq T 4 6 (by omega) inb_S512x351_S512x4_0_6 (k0_pay7 T) (Cert.KernelIdeal.Pay.inter4_apply T) (by decide +kernel)
  · exact piece_eq T 3 3 (by omega) inb_S512x351_S512x3_0_3 (k0_pay6 T) (Cert.KernelIdeal.Pay.inter3_apply T) (by decide +kernel)
  · exact piece_eq T 2 1 (by omega) inb_S512x351_S512x2_0_1 (k0_pay5 T) (Cert.KernelIdeal.Pay.inter2_apply T) (by decide +kernel)
  · exact piece_eq T 1 0 (by omega) inb_S512x351_S512x1_0_0 (k0_pay4 T) (Cert.KernelIdeal.Pay.inter1_apply T) (by decide +kernel)

theorem scr_cover (T : FVec Ideal S512x27x64 .bf16) : ∀ y : S512x351.Idx, ∃ q ∈ scrL (F := Ideal) T, y ∈ q.1.set :=
  View.cover_of_tiledBy (scrL (F := Ideal) T) ![512, 1] (by sl_kernel_rfl)

/-- The scratch as the body's last part loads it: the 26 stored pieces read back. -/
def scrOf (T : FVec Ideal S512x27x64 .bf16) : Vec Ideal S512x351 .f32 := View.canon (scrL (F := Ideal) T)

theorem scrOf_apply (T : FVec Ideal S512x27x64 .bf16) (r : Fin 512) (p : Fin 351) :
    scrOf T (ix2 r p) = ∑ d : Fin 64, T (ix3 r (Cert.Spec.li p) d) * T (ix3 r (Cert.Spec.lj p) d) :=
  (View.canon_apply_of_pieces (Val := Elt Ideal) (S := S512x351) (e := .f32) (pairTab T) (scrL (F := Ideal) T) (pieces_eq T) (ix2 r p) (scr_cover T (ix2 r p))).trans
    (pairTab_eq T (ix2 r p) r p rfl rfl)

/-! ## The output block at a grid point -/

theorem outsAt0_eq (m : (ℓ : Loc nD τ sig) → Buf (Elt Ideal) ℓ) (c : Dev nD) (t : Fin cfg0.N) :
    outsAt0 (F := Ideal) m c t = k0_pay1 (k0_pay36 (k0_pay2 (iblk m c 0 t) (iblk m c 2 t) (iblk m c 3 t) (iblk m c 4 t) (iblk m c 5 t) (iblk m c 6 t) (iblk m c 7 t)) (scrOf (k0_pay3 (iblk m c 0 t) (iblk m c 2 t) (iblk m c 3 t) (iblk m c 4 t) (iblk m c 5 t) (iblk m c 6 t) (iblk m c 7 t) (iblk m c 1 t))) (iblk m c 8 t) (iblk m c 9 t) (iblk m c 10 t)) (iblk m c 11 t) (iblk m c 12 t) (iblk m c 13 t) := by
  unfold outsAt0 scrOf
  exact out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

end Cert.KernelIdeal.Body
end
-- ==== Proof.KernelFinal.lean ====
/-
  The kernel's value. The body at a grid point is four perceptron payloads around the pairwise inner products; each,
  read at an index, is a nested sum (the neighbouring modules), and each input block, read at an index, is an entry of
  an argument array. Substituting the second into the first gives, layer by layer, exactly the terms of the
  specification: the first perceptron's 64-vector, the 27 vectors of a row, their 351 inner products, the joined
  415-vector, and the second perceptron's score. The composition is stated first over arbitrary blocks satisfying the
  fourteen block facts, then read at the blocks of the run.
-/
import proofs.«424834_j5669356831571_3_alg».proof.Proof.KernelBlocks
import proofs.«424834_j5669356831571_3_alg».proof.Proof.KernelHost
import proofs.«424834_j5669356831571_3_alg».proof.Proof.KernelMlp
import proofs.«424834_j5669356831571_3_alg».proof.Proof.KernelPiece

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

section layers

variable (a : Cert.Spec.Inputs) (s : Fin 4096) (r : Fin 512)
  (x0 : Vec Ideal S512x13 .f32) (x1 : Vec Ideal S512x26x64 .bf16) (x2 : Vec Ideal S13x512 .f32)
  (x3 : Vec Ideal S1x512 .f32) (x4 : Vec Ideal S512x256 .f32) (x5 : Vec Ideal S1x256 .f32)
  (x6 : Vec Ideal S256x64 .f32) (x7 : Vec Ideal S1x64 .f32) (x8 : Vec Ideal S415x512 .f32)
  (x9 : Vec Ideal S1x512 .f32) (x10 : Vec Ideal S512x256 .f32) (x11 : Vec Ideal S1x256 .f32)
  (x12 : Vec Ideal S256x1 .f32) (x13 : Vec Ideal S1x1 .f32)
  (scr : FVec Ideal S512x27x64 .bf16 → Vec Ideal S512x351 .f32)

/-- The first perceptron: row `r` of its block is the dense 64-vector of sample `s`. -/
theorem bot_eq (e0 : ∀ k, x0 (ix2 r k) = a.dense (ix2 s k))
    (e2 : ∀ k n, x2 (ix2 k n) = a.bw0 (ix2 n k)) (e3 : ∀ n, x3 (ix2 (0 : Fin 1) n) = a.bb0 (ix1 n))
    (e4 : ∀ k n, x4 (ix2 k n) = a.bw1 (ix2 n k)) (e5 : ∀ n, x5 (ix2 (0 : Fin 1) n) = a.bb1 (ix1 n))
    (e6 : ∀ k n, x6 (ix2 k n) = a.bw2 (ix2 n k)) (e7 : ∀ n, x7 (ix2 (0 : Fin 1) n) = a.bb2 (ix1 n)) (d : Fin 64) :
    k0_pay2 (F := Ideal) x0 x2 x3 x4 x5 x6 x7 (ix2 r d) = Cert.Spec.bot a s d := by
  rw [Pay.pay2_apply]
  simp only [e0, e2, e3, e4, e5, e6, e7]
  rfl

/-- The 27 vectors of row `r`: the dense one first, then the selected table rows. -/
theorem feat_eq (e0 : ∀ k, x0 (ix2 r k) = a.dense (ix2 s k))
    (e1 : ∀ e d, x1 (ix3 r e d) = a.emb (ix3 e (Cert.Spec.sel a e s) d))
    (e2 : ∀ k n, x2 (ix2 k n) = a.bw0 (ix2 n k)) (e3 : ∀ n, x3 (ix2 (0 : Fin 1) n) = a.bb0 (ix1 n))
    (e4 : ∀ k n, x4 (ix2 k n) = a.bw1 (ix2 n k)) (e5 : ∀ n, x5 (ix2 (0 : Fin 1) n) = a.bb1 (ix1 n))
    (e6 : ∀ k n, x6 (ix2 k n) = a.bw2 (ix2 n k)) (e7 : ∀ n, x7 (ix2 (0 : Fin 1) n) = a.bb2 (ix1 n))
    (f : Fin 27) (d : Fin 64) :
    k0_pay3 (F := Ideal) x0 x2 x3 x4 x5 x6 x7 x1 (ix3 r f d) = Cert.Spec.feat a s f d := by
  rw [Pay.pay3_apply]
  unfold Cert.Spec.feat
  by_cases h : f.val = 0
  · rw [dif_pos h, dif_pos h]
    exact bot_eq a s r x0 x2 x3 x4 x5 x6 x7 e0 e2 e3 e4 e5 e6 e7 d
  · rw [dif_neg h, dif_neg h]
    exact e1 _ d

/-- The pairwise inner products of row `r`. -/
theorem inter_eq (hscr : ∀ (T : FVec Ideal S512x27x64 .bf16) (r : Fin 512) (p : Fin 351),
      scr T (ix2 r p) = ∑ d : Fin 64, T (ix3 r (Cert.Spec.li p) d) * T (ix3 r (Cert.Spec.lj p) d))
    (e0 : ∀ k, x0 (ix2 r k) = a.dense (ix2 s k))
    (e1 : ∀ e d, x1 (ix3 r e d) = a.emb (ix3 e (Cert.Spec.sel a e s) d))
    (e2 : ∀ k n, x2 (ix2 k n) = a.bw0 (ix2 n k)) (e3 : ∀ n, x3 (ix2 (0 : Fin 1) n) = a.bb0 (ix1 n))
    (e4 : ∀ k n, x4 (ix2 k n) = a.bw1 (ix2 n k)) (e5 : ∀ n, x5 (ix2 (0 : Fin 1) n) = a.bb1 (ix1 n))
    (e6 : ∀ k n, x6 (ix2 k n) = a.bw2 (ix2 n k)) (e7 : ∀ n, x7 (ix2 (0 : Fin 1) n) = a.bb2 (ix1 n))
    (p : Fin 351) :
    scr (k0_pay3 (F := Ideal) x0 x2 x3 x4 x5 x6 x7 x1) (ix2 r p) = Cert.Spec.inter a s p := by
  rw [hscr]
  unfold Cert.Spec.inter
  refine Finset.sum_congr rfl (fun d _ => ?_)
  rw [feat_eq a s r x0 x1 x2 x3 x4 x5 x6 x7 e0 e1 e2 e3 e4 e5 e6 e7,
    feat_eq a s r x0 x1 x2 x3 x4 x5 x6 x7 e0 e1 e2 e3 e4 e5 e6 e7]

/-- THE COMPOSITION: over blocks that hold the argument arrays' entries, row `r` of the body's result is the score of
    sample `s`. -/
theorem compose (hscr : ∀ (T : FVec Ideal S512x27x64 .bf16) (r : Fin 512) (p : Fin 351),
      scr T (ix2 r p) = ∑ d : Fin 64, T (ix3 r (Cert.Spec.li p) d) * T (ix3 r (Cert.Spec.lj p) d))
    (e0 : ∀ k, x0 (ix2 r k) = a.dense (ix2 s k))
    (e1 : ∀ e d, x1 (ix3 r e d) = a.emb (ix3 e (Cert.Spec.sel a e s) d))
    (e2 : ∀ k n, x2 (ix2 k n) = a.bw0 (ix2 n k)) (e3 : ∀ n, x3 (ix2 (0 : Fin 1) n) = a.bb0 (ix1 n))
    (e4 : ∀ k n, x4 (ix2 k n) = a.bw1 (ix2 n k)) (e5 : ∀ n, x5 (ix2 (0 : Fin 1) n) = a.bb1 (ix1 n))
    (e6 : ∀ k n, x6 (ix2 k n) = a.bw2 (ix2 n k)) (e7 : ∀ n, x7 (ix2 (0 : Fin 1) n) = a.bb2 (ix1 n))
    (e8 : ∀ k n, x8 (ix2 k n) = a.tw0 (ix2 n k)) (e9 : ∀ n, x9 (ix2 (0 : Fin 1) n) = a.tb0 (ix1 n))
    (e10 : ∀ k n, x10 (ix2 k n) = a.tw1 (ix2 n k)) (e11 : ∀ n, x11 (ix2 (0 : Fin 1) n) = a.tb1 (ix1 n))
    (e12 : ∀ k, x12 (ix2 k (0 : Fin 1)) = a.tw2 (ix2 (0 : Fin 1) k))
    (e13 : x13 (ix2 (0 : Fin 1) (0 : Fin 1)) = a.tb2 (ix1 (0 : Fin 1))) :
    k0_pay1 (F := Ideal)
        (k0_pay36 (F := Ideal) (k0_pay2 (F := Ideal) x0 x2 x3 x4 x5 x6 x7)
          (scr (k0_pay3 (F := Ideal) x0 x2 x3 x4 x5 x6 x7 x1)) x8 x9 x10)
        x11 x12 x13 (ix2 r (0 : Fin 1))
      = Cert.Spec.score a s := by
  have hj : ∀ q : Fin 415,
      (if h : q.val < 64 then k0_pay2 (F := Ideal) x0 x2 x3 x4 x5 x6 x7 (ix2 r ⟨q.val, h⟩)
        else scr (k0_pay3 (F := Ideal) x0 x2 x3 x4 x5 x6 x7 x1) (ix2 r (⟨q.val - 64, by omega⟩ : Fin 351)))
      = Cert.Spec.joined a s q := by
    intro q
    unfold Cert.Spec.joined
    by_cases h : q.val < 64
    · rw [dif_pos h, dif_pos h]
      exact bot_eq a s r x0 x2 x3 x4 x5 x6 x7 e0 e2 e3 e4 e5 e6 e7 _
    · rw [dif_neg h, dif_neg h]
      exact inter_eq a s r x0 x1 x2 x3 x4 x5 x6 x7 scr hscr e0 e1 e2 e3 e4 e5 e6 e7 _
  rw [Pay.pay1_apply]
  simp only [Pay.pay36_apply, hj, e8, e9, e10, e11, e12, e13]
  rfl

end layers

section run

variable (m : (ℓ : Loc nD τ sig) → Buf (Elt Ideal) ℓ) (ρ : Dev nD → PrngReg)

/-- Row `r` of the body's result at grid point `t`, given the body as the four payloads around the inner products. -/
theorem body_row_of (scr : FVec Ideal S512x27x64 .bf16 → Vec Ideal S512x351 .f32)
    (hscr : ∀ (T : FVec Ideal S512x27x64 .bf16) (r : Fin 512) (p : Fin 351),
      scr T (ix2 r p) = ∑ d : Fin 64, T (ix3 r (Cert.Spec.li p) d) * T (ix3 r (Cert.Spec.lj p) d))
    (c : Dev nD) (hidx : ∀ i, ((Cert.KernelIdeal.Host.inputs m c).idx i).toNat < 100000) (t : Fin cfg0.N)
    (hout : outsAt0 (F := Ideal) m c t
      = k0_pay1 (F := Ideal) (k0_pay36 (F := Ideal) (k0_pay2 (F := Ideal) (iblk m c 0 t) (iblk m c 2 t) (iblk m c 3 t) (iblk m c 4 t) (iblk m c 5 t) (iblk m c 6 t) (iblk m c 7 t))
          (scr (k0_pay3 (F := Ideal) (iblk m c 0 t) (iblk m c 2 t) (iblk m c 3 t) (iblk m c 4 t) (iblk m c 5 t) (iblk m c 6 t) (iblk m c 7 t) (iblk m c 1 t))) (iblk m c 8 t) (iblk m c 9 t) (iblk m c 10 t)) (iblk m c 11 t) (iblk m c 12 t) (iblk m c 13 t))
    (r : Fin 512) :
    outsAt0 (F := Ideal) m c t (ix2 r (0 : Fin 1))
      = Cert.Spec.score (Cert.KernelIdeal.Host.inputs m c) (sample t r) := by
  rw [hout]
  exact compose (Cert.KernelIdeal.Host.inputs m c) (sample t r) r
    (x0 := iblk m c 0 t) (x1 := iblk m c 1 t) (x2 := iblk m c 2 t) (x3 := iblk m c 3 t) (x4 := iblk m c 4 t)
    (x5 := iblk m c 5 t) (x6 := iblk m c 6 t) (x7 := iblk m c 7 t) (x8 := iblk m c 8 t) (x9 := iblk m c 9 t)
    (x10 := iblk m c 10 t) (x11 := iblk m c 11 t) (x12 := iblk m c 12 t) (x13 := iblk m c 13 t) (scr := scr) hscr
    (fun k => Cert.KernelIdeal.Host.blk0 m c t r k) (fun e d => Cert.KernelIdeal.Host.blk1 m c hidx t r e d)
    (fun k n => Cert.KernelIdeal.Host.blk2 m c t k n) (fun n => Cert.KernelIdeal.Host.blk3 m c t n)
    (fun k n => Cert.KernelIdeal.Host.blk4 m c t k n) (fun n => Cert.KernelIdeal.Host.blk5 m c t n)
    (fun k n => Cert.KernelIdeal.Host.blk6 m c t k n) (fun n => Cert.KernelIdeal.Host.blk7 m c t n)
    (fun k n => Cert.KernelIdeal.Host.blk8 m c t k n) (fun n => Cert.KernelIdeal.Host.blk9 m c t n)
    (fun k n => Cert.KernelIdeal.Host.blk10 m c t k n) (fun n => Cert.KernelIdeal.Host.blk11 m c t n)
    (fun k => Cert.KernelIdeal.Host.blk12 m c t k) (Cert.KernelIdeal.Host.blk13 m c t)

/-- Row `r` of the body's result at grid point `t` is the score of sample `512·t + r`. -/
theorem body_row (c : Dev nD) (hidx : ∀ i, ((Cert.KernelIdeal.Host.inputs m c).idx i).toNat < 100000) (t : Fin cfg0.N)
    (r : Fin 512) :
    outsAt0 (F := Ideal) m c t (ix2 r (0 : Fin 1))
      = Cert.Spec.score (Cert.KernelIdeal.Host.inputs m c) (sample t r) :=
  body_row_of m Cert.KernelIdeal.Body.scrOf Cert.KernelIdeal.Body.scrOf_apply c hidx t
    (Cert.KernelIdeal.Body.outsAt0_eq m c t) r

/-- THE KERNEL'S VALUE: the run ends with the score column in the result and every argument array unchanged. -/
theorem kernel_run (hidx : ∀ (c : Dev nD) i, ((Cert.KernelIdeal.Host.inputs m c).idx i).toNat < 100000) :
    θ_run defs (onTc (τ := τ) (main (F := Ideal))) ⟨m, fun _ => 0, ρ⟩ fun r => ∀ c : Dev nD,
      r.2.mem ((c : Thread nD τ).loc main_v31) = Cert.Spec.out (Cert.KernelIdeal.Host.inputs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono
    (fun r h c => ⟨(h c).1.trans (final m _ c (body_row m c (hidx c))), (h c).2⟩)
    (Cert.KernelIdeal.Value.run_blocks m ρ)

end run

end Cert.KernelIdeal.Final

end
-- ==== Proof.RefRun.lean ====
import proofs.«424834_j5669356831571_3_alg».proof.Proof.Gen.ReferenceIdeal
import Idealize.ShloMosaic.Lib.StableHlo.Run

/-!
The reference program's run. @main is a straight line of tensor operations once each call is replaced by
the callee's body over the call's own buffers: the affine layers with their rectifiers, the table lookup
(the index wrapped and range-checked, the rows gathered), the pairwise inner products, the strict lower
triangle's positions (a mask, its running count, a scatter of ones and a second running count, then the
quotient and remainder by 27 with their sign corrections), the gather of those positions, and the top
layers. The list below is that line; `main_eq` says the program is the list run in order, and `run_main`
that every fair execution ends with each buffer at the fold of the operations over the launch contents.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 205 operations in program order, each call's body written out over that call's buffers:
    the 77 operations of @main itself and the 128 of its thirteen calls (the rectifier four times, the table
    lookup, the triangle mask, the two running counts, the clamp, the floor division and the remainder
    twice each, the last two with their inner selection). -/
abbrev ops : List (HloOp τ sig (Elt F)) :=
  [ unary main_arg3 main_v0 ((transpose S13x512 [1, 0] · transposes_S512x13_S13x512_1_0) : (⟨S512x13, .f32⟩ : BufTy).Contents (Elt F) → (⟨S13x512, .f32⟩ : BufTy).Contents (Elt F)),
    binary main_arg0 main_v0 main_v1 ((fun l r => Host.dotGeneral dot_S4096x13_S13x512_S4096x512_1_0_0_1_n_n none l r) : (⟨S4096x13, .f32⟩ : BufTy).Contents (Elt F) → (⟨S13x512, .f32⟩ : BufTy).Contents (Elt F) → (⟨S4096x512, .f32⟩ : BufTy).Contents (Elt F)),
    unary main_arg4 main_v2 (broadcastInDim S1x512 ![1] bcast_S512_S1x512_1 : (⟨S512, .f32⟩ : BufTy).Contents (Elt F) → (⟨S1x512, .f32⟩ : BufTy).Contents (Elt F)),
    unary main_v2 main_v3 (broadcastInDim S4096x512 ![0, 1] bcast_S1x512_S4096x512_0_1 : (⟨S1x512, .f32⟩ : BufTy).Contents (Elt F) → (⟨S4096x512, .f32⟩ : BufTy).Contents (Elt F)),
    binary main_v1 main_v3 main_v4 (addf : (⟨S4096x512, .f32⟩ : BufTy).Contents (Elt F) → (⟨S4096x512, .f32⟩ : BufTy).Contents (Elt F) → (⟨S4096x512, .f32⟩ : BufTy).Contents (Elt F)),
    TRef.nullary main_call0.cst (constant S_ .f32 0x00000000#32),
    TRef.unary main_call0.cst main_call0.v0 (broadcastInDim S4096x512 ![] bcast_S_S4096x512),
    TRef.binary (.of main_v4 : TRef sig ⟨S4096x512, .f32⟩) main_call0.v0 main_call0.v1 maximumf,
    unary main_arg5 main_v6 ((transpose S512x256 [1, 0] · transposes_S256x512_S512x256_1_0) : (⟨S256x512, .f32⟩ : BufTy).Contents (Elt F) → (⟨S512x256, .f32⟩ : BufTy).Contents (Elt F)),
    binary main_v5 main_v6 main_v7 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    unary main_arg6 main_v8 (broadcastInDim S1x256 ![1] bcast_S256_S1x256_1 : (⟨S256, .f32⟩ : BufTy).Contents (Elt F) → (⟨S1x256, .f32⟩ : BufTy).Contents (Elt F)),
    unary main_v8 main_v9 (broadcastInDim S4096x256 ![0, 1] bcast_S1x256_S4096x256_0_1 : (⟨S1x256, .f32⟩ : BufTy).Contents (Elt F) → (⟨S4096x256, .f32⟩ : BufTy).Contents (Elt F)),
    binary main_v7 main_v9 main_v10 (addf : (⟨S4096x256, .f32⟩ : BufTy).Contents (Elt F) → (⟨S4096x256, .f32⟩ : BufTy).Contents (Elt F) → (⟨S4096x256, .f32⟩ : BufTy).Contents (Elt F)),
    TRef.nullary main_call1.cst (constant S_ .f32 0x00000000#32),
    TRef.unary main_call1.cst main_call1.v0 (broadcastInDim S4096x256 ![] bcast_S_S4096x256),
    TRef.binary (.of main_v10 : TRef sig ⟨S4096x256, .f32⟩) main_call1.v0 main_call1.v1 maximumf,
    unary main_arg7 main_v12 ((transpose S256x64 [1, 0] · transposes_S64x256_S256x64_1_0) : (⟨S64x256, .f32⟩ : BufTy).Contents (Elt F) → (⟨S256x64, .f32⟩ : BufTy).Contents (Elt F)),
    binary main_v11 main_v12 main_v13 ((fun l r => Host.dotGeneral dot_S4096x256_S256x64_S4096x64_1_0_0_1_n_n none l r) : (⟨S4096x256, .f32⟩ : BufTy).Contents (Elt F) → (⟨S256x64, .f32⟩ : BufTy).Contents (Elt F) → (⟨S4096x64, .f32⟩ : BufTy).Contents (Elt F)),
    unary main_arg8 main_v14 (broadcastInDim S1x64 ![1] bcast_S64_S1x64_1 : (⟨S64, .f32⟩ : BufTy).Contents (Elt F) → (⟨S1x64, .f32⟩ : BufTy).Contents (Elt F)),
    unary main_v14 main_v15 (broadcastInDim S4096x64 ![0, 1] bcast_S1x64_S4096x64_0_1 : (⟨S1x64, .f32⟩ : BufTy).Contents (Elt F) → (⟨S4096x64, .f32⟩ : BufTy).Contents (Elt F)),
    binary main_v13 main_v15 main_v16 (addf : (⟨S4096x64, .f32⟩ : BufTy).Contents (Elt F) → (⟨S4096x64, .f32⟩ : BufTy).Contents (Elt F) → (⟨S4096x64, .f32⟩ : BufTy).Contents (Elt F)),
    unary main_arg1 main_v17 (broadcastInDim S26x4096x1 ![0, 1] bcast_S26x4096_S26x4096x1_0_1 : (⟨S26x4096, .i32⟩ : BufTy).Contents (Elt F) → (⟨S26x4096x1, .i32⟩ : BufTy).Contents (Elt F)),
    TRef.nullary main_call2.c (constantI S_ 32 0#32),
    TRef.unary main_call2.c main_call2.v0 (broadcastInDim S26x4096x1 ![] bcast_S_S26x4096x1),
    TRef.binary (.of main_v17 : TRef sig ⟨S26x4096x1, .i32⟩) main_call2.v0 main_call2.v1 (cmpi .slt),
    TRef.nullary main_call2.c_0 (constantI S_ 32 100000#32),
    TRef.unary main_call2.c_0 main_call2.v2 (broadcastInDim S26x4096x1 ![] bcast_S_S26x4096x1),
    TRef.binary (.of main_v17 : TRef sig ⟨S26x4096x1, .i32⟩) main_call2.v2 main_call2.v3 addi,
    TRef.ternary main_call2.v1 main_call2.v3 (.of main_v17 : TRef sig ⟨S26x4096x1, .i32⟩) main_call2.v4 select,
    TRef.nullary main_call2.c_1 (constantI S1 32 99999#32),
    TRef.nullary main_call2.c_2 (constantI S_ 32 0#32),
    TRef.unary main_call2.c_2 main_call2.v5 (broadcastInDim S26x4096x1 ![] bcast_S_S26x4096x1),
    TRef.binary main_call2.v4 main_call2.v5 main_call2.v6 (cmpi .sge),
    TRef.unary main_call2.c_1 main_call2.v7 (broadcastInDim S1x1x1 ![2] bcast_S1_S1x1x1_2),
    TRef.unary main_call2.v7 main_call2.v8 (broadcastInDim S26x4096x1 ![0, 1, 2] bcast_S1x1x1_S26x4096x1_0_1_2),
    TRef.binary main_call2.v4 main_call2.v8 main_call2.v9 (cmpi .sle),
    TRef.binary main_call2.v6 main_call2.v9 main_call2.v10 andi,
    TRef.nullary main_call2.c_3 (constantI S_ 1 1#1),
    TRef.binary main_call2.v10 main_call2.c_3 main_call2.v11 (fun x v => Host.reduce IntOp.andi x v reducesTo_S26x4096x1_S26x4096_d2 h_S_),
    TRef.binary (.of main_arg2 : TRef sig ⟨S26x100000x64, .f32⟩) main_call2.v4 main_call2.v12 (fun x i => Host.gather gather_S26x100000x64_S26x4096x1_S26x4096x64_2_1_0_0_1_2_1164 x i),
    TRef.unary main_call2.v11 main_call2.v13 (broadcastInDim S26x4096x64 ![0, 1] bcast_S26x4096_S26x4096x64_0_1),
    TRef.nullary main_call2.cst (constant S_ .f32 0x7FC00000#32),
    TRef.unary main_call2.cst main_call2.v14 (broadcastInDim S26x4096x64 ![] bcast_S_S26x4096x64),
    TRef.ternary main_call2.v13 main_call2.v12 main_call2.v14 main_call2.v15 select,
    unary main_v16 main_v19 (broadcastInDim S4096x1x64 ![0, 2] bcast_S4096x64_S4096x1x64_0_2 : (⟨S4096x64, .f32⟩ : BufTy).Contents (Elt F) → (⟨S4096x1x64, .f32⟩ : BufTy).Contents (Elt F)),
    unary main_v18 main_v20 ((transpose S4096x26x64 [1, 0, 2] · transposes_S26x4096x64_S4096x26x64_1_0_2) : (⟨S26x4096x64, .f32⟩ : BufTy).Contents (Elt F) → (⟨S4096x26x64, .f32⟩ : BufTy).Contents (Elt F)),
    binary main_v19 main_v20 main_v21 ((fun a b => concatenate S4096x27x64 1 [⟨S4096x1x64, a⟩, ⟨S4096x26x64, b⟩] concatenates_S4096x1x64_S4096x26x64_S4096x27x64_d1) : (⟨S4096x1x64, .f32⟩ : BufTy).Contents (Elt F) → (⟨S4096x26x64, .f32⟩ : BufTy).Contents (Elt F) → (⟨S4096x27x64, .f32⟩ : BufTy).Contents (Elt F)),
    binary main_v21 main_v21 main_v22 ((fun l r => Host.dotGeneral dot_S4096x27x64_S4096x27x64_S4096x27x27_2_2_1_1_0_0 none l r) : (⟨S4096x27x64, .f32⟩ : BufTy).Contents (Elt F) → (⟨S4096x27x64, .f32⟩ : BufTy).Contents (Elt F) → (⟨S4096x27x27, .f32⟩ : BufTy).Contents (Elt F)),
    nullary main_cst (constant S_ .f32 0x3F800000#32),
    unary main_cst main_v23 (broadcastInDim S27x27 ![] bcast_S_S27x27 : (⟨S_, .f32⟩ : BufTy).Contents (Elt F) → (⟨S27x27, .f32⟩ : BufTy).Contents (Elt F)),
    TRef.nullary main_call3.v0 (iotaInDim S27x27 32 0),
    TRef.nullary main_call3.c (constantI S_ 32 4294967295#32),
    TRef.unary main_call3.c main_call3.v1 (broadcastInDim S27x27 ![] bcast_S_S27x27),
    TRef.binary main_call3.v0 main_call3.v1 main_call3.v2 addi,
    TRef.nullary main_call3.v3 (iotaInDim S27x27 32 1),
    TRef.binary main_call3.v2 main_call3.v3 main_call3.v4 (cmpi .sge),
    TRef.nullary main_call3.cst (constant S_ .f32 0x00000000#32),
    TRef.unary main_call3.cst main_call3.v5 (broadcastInDim S27x27 ![] bcast_S_S27x27),
    TRef.ternary main_call3.v4 (.of main_v23 : TRef sig ⟨S27x27, .f32⟩) main_call3.v5 main_call3.v6 select,
    nullary main_cst_0 (constant S_ .f32 0x00000000#32),
    unary main_cst_0 main_v25 (broadcastInDim S27x27 ![] bcast_S_S27x27 : (⟨S_, .f32⟩ : BufTy).Contents (Elt F) → (⟨S27x27, .f32⟩ : BufTy).Contents (Elt F)),
    binary main_v24 main_v25 main_v26 (cmpf .une : (⟨S27x27, .f32⟩ : BufTy).Contents (Elt F) → (⟨S27x27, .f32⟩ : BufTy).Contents (Elt F) → (⟨S27x27, .i1⟩ : BufTy).Contents (Elt F)),
    TRef.reshape (.of main_v26 : TRef sig ⟨S27x27, .i1⟩) main_call4.v0 rfl shapeCasts_S27x27_S729,
    TRef.unary main_call4.v0 main_call4.v1 (extui 32 · natLt_1_32),
    TRef.nullary main_call4.call0.c (constantI S_ 32 0#32),
    TRef.unary main_call4.call0.c main_call4.call0.v0 (broadcastInDim S_ ![] bcast_S_S_),
    TRef.binary main_call4.v1 main_call4.call0.v0 main_call4.call0.v1 (fun x v => Host.reduceWindow IntOp.addi ![729] ![1] ![728] ![0] x v reduceWindows_S729_S729_w729s1p728_0 h_S_),
    nullary main_c (constantI S_ 32 0#32),
    unary main_c main_v28 (broadcastInDim S351 ![] bcast_S_S351 : (⟨S_, .i32⟩ : BufTy).Contents (Elt F) → (⟨S351, .i32⟩ : BufTy).Contents (Elt F)),
    nullary main_c_1 (constantI S_ 32 0#32),
    TRef.unary (.of main_c_1 : TRef sig ⟨S_, .i32⟩) main_call5.v0 id,
    TRef.unary main_call5.v0 main_call5.v1 (broadcastInDim S729 ![] bcast_S_S729),
    TRef.binary main_call5.v1 (.of main_v27 : TRef sig ⟨S729, .i32⟩) main_call5.v2 maxsi,
    nullary main_c_2 (constantI S_ 32 0#32),
    unary main_c_2 main_v30 (broadcastInDim S729 ![] bcast_S_S729 : (⟨S_, .i32⟩ : BufTy).Contents (Elt F) → (⟨S729, .i32⟩ : BufTy).Contents (Elt F)),
    binary main_v29 main_v30 main_v31 (cmpi .slt : (⟨S729, .i32⟩ : BufTy).Contents (Elt F) → (⟨S729, .i32⟩ : BufTy).Contents (Elt F) → (⟨S729, .i1⟩ : BufTy).Contents (Elt F)),
    nullary main_c_3 (constantI S_ 32 351#32),
    unary main_c_3 main_v32 (broadcastInDim S729 ![] bcast_S_S729 : (⟨S_, .i32⟩ : BufTy).Contents (Elt F) → (⟨S729, .i32⟩ : BufTy).Contents (Elt F)),
    binary main_v29 main_v32 main_v33 (addi : (⟨S729, .i32⟩ : BufTy).Contents (Elt F) → (⟨S729, .i32⟩ : BufTy).Contents (Elt F) → (⟨S729, .i32⟩ : BufTy).Contents (Elt F)),
    ternary main_v31 main_v33 main_v29 main_v34 (select : (⟨S729, .i1⟩ : BufTy).Contents (Elt F) → (⟨S729, .i32⟩ : BufTy).Contents (Elt F) → (⟨S729, .i32⟩ : BufTy).Contents (Elt F) → (⟨S729, .i32⟩ : BufTy).Contents (Elt F)),
    unary main_v34 main_v35 (broadcastInDim S729x1 ![0] bcast_S729_S729x1_0 : (⟨S729, .i32⟩ : BufTy).Contents (Elt F) → (⟨S729x1, .i32⟩ : BufTy).Contents (Elt F)),
    nullary main_c_4 (constantI S_ 32 1#32),
    unary main_c_4 main_v36 (broadcastInDim S729 ![] bcast_S_S729 : (⟨S_, .i32⟩ : BufTy).Contents (Elt F) → (⟨S729, .i32⟩ : BufTy).Contents (Elt F)),
    ternary main_v28 main_v35 main_v36 main_v37 ((fun x i u => Host.scatter scatter_S351_S729x1_S729_n_0_0_1 IntOp.addi x i u) : (⟨S351, .i32⟩ : BufTy).Contents (Elt F) → (⟨S729x1, .i32⟩ : BufTy).Contents (Elt F) → (⟨S729, .i32⟩ : BufTy).Contents (Elt F) → (⟨S351, .i32⟩ : BufTy).Contents (Elt F)),
    TRef.nullary main_call6.call0.c (constantI S_ 32 0#32),
    TRef.unary main_call6.call0.c main_call6.call0.v0 (broadcastInDim S_ ![] bcast_S_S_),
    TRef.binary (.of main_v37 : TRef sig ⟨S351, .i32⟩) main_call6.call0.v0 main_call6.call0.v1 (fun x v => Host.reduceWindow IntOp.addi ![351] ![1] ![350] ![0] x v reduceWindows_S351_S351_w351s1p350_0 h_S_),
    nullary main_c_5 (constantI S_ 32 27#32),
    TRef.unary (.of main_c_5 : TRef sig ⟨S_, .i32⟩) main_call7.v0 (broadcastInDim S351 ![] bcast_S_S351),
    TRef.binary (.of main_v38 : TRef sig ⟨S351, .i32⟩) main_call7.v0 main_call7.v1 Host.divsi,
    TRef.unary (.of main_v38 : TRef sig ⟨S351, .i32⟩) main_call7.v2 signi,
    TRef.unary (.of main_c_5 : TRef sig ⟨S_, .i32⟩) main_call7.v3 signi,
    TRef.unary main_call7.v3 main_call7.v4 (broadcastInDim S351 ![] bcast_S_S351),
    TRef.binary main_call7.v2 main_call7.v4 main_call7.v5 (cmpi .ne),
    TRef.unary (.of main_c_5 : TRef sig ⟨S_, .i32⟩) main_call7.v6 (broadcastInDim S351 ![] bcast_S_S351),
    TRef.binary (.of main_v38 : TRef sig ⟨S351, .i32⟩) main_call7.v6 main_call7.v7 Host.remsi,
    TRef.nullary main_call7.c (constantI S_ 32 0#32),
    TRef.unary main_call7.c main_call7.v8 (broadcastInDim S351 ![] bcast_S_S351),
    TRef.binary main_call7.v7 main_call7.v8 main_call7.v9 (cmpi .ne),
    TRef.binary main_call7.v5 main_call7.v9 main_call7.v10 andi,
    TRef.nullary main_call7.c_0 (constantI S_ 32 1#32),
    TRef.unary main_call7.c_0 main_call7.v11 (broadcastInDim S351 ![] bcast_S_S351),
    TRef.binary main_call7.v1 main_call7.v11 main_call7.v12 subi,
    TRef.ternary main_call7.v10 main_call7.v12 main_call7.v1 main_call7.call0.v0 select,
    nullary main_c_6 (constantI S_ 32 27#32),
    TRef.unary (.of main_c_6 : TRef sig ⟨S_, .i32⟩) main_call8.v0 id,
    TRef.nullary main_call8.c (constantI S_ 32 0#32),
    TRef.binary main_call8.v0 main_call8.c main_call8.v1 (cmpi .eq),
    TRef.nullary main_call8.c_0 (constantI S_ 32 1#32),
    TRef.ternary main_call8.v1 main_call8.c_0 main_call8.v0 main_call8.call0.v0 select,
    TRef.unary main_call8.call0.v0 main_call8.v3 (broadcastInDim S351 ![] bcast_S_S351),
    TRef.binary (.of main_v39 : TRef sig ⟨S351, .i32⟩) main_call8.v3 main_call8.v4 Host.remsi,
    TRef.nullary main_call8.c_1 (constantI S_ 32 0#32),
    TRef.unary main_call8.c_1 main_call8.v5 (broadcastInDim S351 ![] bcast_S_S351),
    TRef.binary main_call8.v4 main_call8.v5 main_call8.v6 (cmpi .ne),
    TRef.nullary main_call8.c_2 (constantI S_ 32 0#32),
    TRef.unary main_call8.c_2 main_call8.v7 (broadcastInDim S351 ![] bcast_S_S351),
    TRef.binary main_call8.v4 main_call8.v7 main_call8.v8 (cmpi .slt),
    TRef.nullary main_call8.c_3 (constantI S_ 32 0#32),
    TRef.binary main_call8.call0.v0 main_call8.c_3 main_call8.v9 (cmpi .slt),
    TRef.unary main_call8.v9 main_call8.v10 (broadcastInDim S351 ![] bcast_S_S351),
    TRef.binary main_call8.v8 main_call8.v10 main_call8.v11 (cmpi .ne),
    TRef.binary main_call8.v11 main_call8.v6 main_call8.v12 andi,
    TRef.unary main_call8.call0.v0 main_call8.v13 (broadcastInDim S351 ![] bcast_S_S351),
    TRef.binary main_call8.v4 main_call8.v13 main_call8.v14 addi,
    TRef.ternary main_call8.v12 main_call8.v14 main_call8.v4 main_call8.v15 select,
    nullary main_c_7 (constantI S_ 32 1#32),
    TRef.unary (.of main_c_7 : TRef sig ⟨S_, .i32⟩) main_call9.v0 (broadcastInDim S351 ![] bcast_S_S351),
    TRef.binary (.of main_v38 : TRef sig ⟨S351, .i32⟩) main_call9.v0 main_call9.v1 Host.divsi,
    TRef.unary (.of main_v38 : TRef sig ⟨S351, .i32⟩) main_call9.v2 signi,
    TRef.unary (.of main_c_7 : TRef sig ⟨S_, .i32⟩) main_call9.v3 signi,
    TRef.unary main_call9.v3 main_call9.v4 (broadcastInDim S351 ![] bcast_S_S351),
    TRef.binary main_call9.v2 main_call9.v4 main_call9.v5 (cmpi .ne),
    TRef.unary (.of main_c_7 : TRef sig ⟨S_, .i32⟩) main_call9.v6 (broadcastInDim S351 ![] bcast_S_S351),
    TRef.binary (.of main_v38 : TRef sig ⟨S351, .i32⟩) main_call9.v6 main_call9.v7 Host.remsi,
    TRef.nullary main_call9.c (constantI S_ 32 0#32),
    TRef.unary main_call9.c main_call9.v8 (broadcastInDim S351 ![] bcast_S_S351),
    TRef.binary main_call9.v7 main_call9.v8 main_call9.v9 (cmpi .ne),
    TRef.binary main_call9.v5 main_call9.v9 main_call9.v10 andi,
    TRef.nullary main_call9.c_0 (constantI S_ 32 1#32),
    TRef.unary main_call9.c_0 main_call9.v11 (broadcastInDim S351 ![] bcast_S_S351),
    TRef.binary main_call9.v1 main_call9.v11 main_call9.v12 subi,
    TRef.ternary main_call9.v10 main_call9.v12 main_call9.v1 main_call9.call0.v0 select,
    nullary main_c_8 (constantI S_ 32 27#32),
    TRef.unary (.of main_c_8 : TRef sig ⟨S_, .i32⟩) main_call10.v0 id,
    TRef.nullary main_call10.c (constantI S_ 32 0#32),
    TRef.binary main_call10.v0 main_call10.c main_call10.v1 (cmpi .eq),
    TRef.nullary main_call10.c_0 (constantI S_ 32 1#32),
    TRef.ternary main_call10.v1 main_call10.c_0 main_call10.v0 main_call10.call0.v0 select,
    TRef.unary main_call10.call0.v0 main_call10.v3 (broadcastInDim S351 ![] bcast_S_S351),
    TRef.binary (.of main_v41 : TRef sig ⟨S351, .i32⟩) main_call10.v3 main_call10.v4 Host.remsi,
    TRef.nullary main_call10.c_1 (constantI S_ 32 0#32),
    TRef.unary main_call10.c_1 main_call10.v5 (broadcastInDim S351 ![] bcast_S_S351),
    TRef.binary main_call10.v4 main_call10.v5 main_call10.v6 (cmpi .ne),
    TRef.nullary main_call10.c_2 (constantI S_ 32 0#32),
    TRef.unary main_call10.c_2 main_call10.v7 (broadcastInDim S351 ![] bcast_S_S351),
    TRef.binary main_call10.v4 main_call10.v7 main_call10.v8 (cmpi .slt),
    TRef.nullary main_call10.c_3 (constantI S_ 32 0#32),
    TRef.binary main_call10.call0.v0 main_call10.c_3 main_call10.v9 (cmpi .slt),
    TRef.unary main_call10.v9 main_call10.v10 (broadcastInDim S351 ![] bcast_S_S351),
    TRef.binary main_call10.v8 main_call10.v10 main_call10.v11 (cmpi .ne),
    TRef.binary main_call10.v11 main_call10.v6 main_call10.v12 andi,
    TRef.unary main_call10.call0.v0 main_call10.v13 (broadcastInDim S351 ![] bcast_S_S351),
    TRef.binary main_call10.v4 main_call10.v13 main_call10.v14 addi,
    TRef.ternary main_call10.v12 main_call10.v14 main_call10.v4 main_call10.v15 select,
    nullary main_c_9 (constantI S_ 32 0#32),
    unary main_c_9 main_v43 (broadcastInDim S351 ![] bcast_S_S351 : (⟨S_, .i32⟩ : BufTy).Contents (Elt F) → (⟨S351, .i32⟩ : BufTy).Contents (Elt F)),
    binary main_v40 main_v43 main_v44 (cmpi .slt : (⟨S351, .i32⟩ : BufTy).Contents (Elt F) → (⟨S351, .i32⟩ : BufTy).Contents (Elt F) → (⟨S351, .i1⟩ : BufTy).Contents (Elt F)),
    nullary main_c_10 (constantI S_ 32 27#32),
    unary main_c_10 main_v45 (broadcastInDim S351 ![] bcast_S_S351 : (⟨S_, .i32⟩ : BufTy).Contents (Elt F) → (⟨S351, .i32⟩ : BufTy).Contents (Elt F)),
    binary main_v40 main_v45 main_v46 (addi : (⟨S351, .i32⟩ : BufTy).Contents (Elt F) → (⟨S351, .i32⟩ : BufTy).Contents (Elt F) → (⟨S351, .i32⟩ : BufTy).Contents (Elt F)),
    ternary main_v44 main_v46 main_v40 main_v47 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    nullary main_c_11 (constantI S_ 32 0#32),
    unary main_c_11 main_v48 (broadcastInDim S351 ![] bcast_S_S351 : (⟨S_, .i32⟩ : BufTy).Contents (Elt F) → (⟨S351, .i32⟩ : BufTy).Contents (Elt F)),
    binary main_v42 main_v48 main_v49 (cmpi .slt : (⟨S351, .i32⟩ : BufTy).Contents (Elt F) → (⟨S351, .i32⟩ : BufTy).Contents (Elt F) → (⟨S351, .i1⟩ : BufTy).Contents (Elt F)),
    nullary main_c_12 (constantI S_ 32 27#32),
    unary main_c_12 main_v50 (broadcastInDim S351 ![] bcast_S_S351 : (⟨S_, .i32⟩ : BufTy).Contents (Elt F) → (⟨S351, .i32⟩ : BufTy).Contents (Elt F)),
    binary main_v42 main_v50 main_v51 (addi : (⟨S351, .i32⟩ : BufTy).Contents (Elt F) → (⟨S351, .i32⟩ : BufTy).Contents (Elt F) → (⟨S351, .i32⟩ : BufTy).Contents (Elt F)),
    ternary main_v49 main_v51 main_v42 main_v52 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    unary main_v47 main_v53 (broadcastInDim S351x1 ![0] bcast_S351_S351x1_0 : (⟨S351, .i32⟩ : BufTy).Contents (Elt F) → (⟨S351x1, .i32⟩ : BufTy).Contents (Elt F)),
    unary main_v52 main_v54 (broadcastInDim S351x1 ![0] bcast_S351_S351x1_0 : (⟨S351, .i32⟩ : BufTy).Contents (Elt F) → (⟨S351x1, .i32⟩ : BufTy).Contents (Elt F)),
    binary main_v53 main_v54 main_v55 ((fun a b => concatenate S351x2 1 [⟨S351x1, a⟩, ⟨S351x1, b⟩] concatenates_S351x1_S351x1_S351x2_d1) : (⟨S351x1, .i32⟩ : BufTy).Contents (Elt F) → (⟨S351x1, .i32⟩ : BufTy).Contents (Elt F) → (⟨S351x2, .i32⟩ : BufTy).Contents (Elt F)),
    binary main_v22 main_v55 main_v56 ((fun x i => Host.gather gather_S4096x27x27_S351x2_S4096x351_0_12_n_n_12_1_409611 x i) : (⟨S4096x27x27, .f32⟩ : BufTy).Contents (Elt F) → (⟨S351x2, .i32⟩ : BufTy).Contents (Elt F) → (⟨S4096x351, .f32⟩ : BufTy).Contents (Elt F)),
    binary main_v16 main_v56 main_v57 ((fun a b => concatenate S4096x415 1 [⟨S4096x64, a⟩, ⟨S4096x351, b⟩] concatenates_S4096x64_S4096x351_S4096x415_d1) : (⟨S4096x64, .f32⟩ : BufTy).Contents (Elt F) → (⟨S4096x351, .f32⟩ : BufTy).Contents (Elt F) → (⟨S4096x415, .f32⟩ : BufTy).Contents (Elt F)),
    unary main_arg9 main_v58 ((transpose S415x512 [1, 0] · transposes_S512x415_S415x512_1_0) : (⟨S512x415, .f32⟩ : BufTy).Contents (Elt F) → (⟨S415x512, .f32⟩ : BufTy).Contents (Elt F)),
    binary main_v57 main_v58 main_v59 ((fun l r => Host.dotGeneral dot_S4096x415_S415x512_S4096x512_1_0_0_1_n_n none l r) : (⟨S4096x415, .f32⟩ : BufTy).Contents (Elt F) → (⟨S415x512, .f32⟩ : BufTy).Contents (Elt F) → (⟨S4096x512, .f32⟩ : BufTy).Contents (Elt F)),
    unary main_arg10 main_v60 (broadcastInDim S1x512 ![1] bcast_S512_S1x512_1 : (⟨S512, .f32⟩ : BufTy).Contents (Elt F) → (⟨S1x512, .f32⟩ : BufTy).Contents (Elt F)),
    unary main_v60 main_v61 (broadcastInDim S4096x512 ![0, 1] bcast_S1x512_S4096x512_0_1 : (⟨S1x512, .f32⟩ : BufTy).Contents (Elt F) → (⟨S4096x512, .f32⟩ : BufTy).Contents (Elt F)),
    binary main_v59 main_v61 main_v62 (addf : (⟨S4096x512, .f32⟩ : BufTy).Contents (Elt F) → (⟨S4096x512, .f32⟩ : BufTy).Contents (Elt F) → (⟨S4096x512, .f32⟩ : BufTy).Contents (Elt F)),
    TRef.nullary main_call11.cst (constant S_ .f32 0x00000000#32),
    TRef.unary main_call11.cst main_call11.v0 (broadcastInDim S4096x512 ![] bcast_S_S4096x512),
    TRef.binary (.of main_v62 : TRef sig ⟨S4096x512, .f32⟩) main_call11.v0 main_call11.v1 maximumf,
    unary main_arg11 main_v64 ((transpose S512x256 [1, 0] · transposes_S256x512_S512x256_1_0) : (⟨S256x512, .f32⟩ : BufTy).Contents (Elt F) → (⟨S512x256, .f32⟩ : BufTy).Contents (Elt F)),
    binary main_v63 main_v64 main_v65 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    unary main_arg12 main_v66 (broadcastInDim S1x256 ![1] bcast_S256_S1x256_1 : (⟨S256, .f32⟩ : BufTy).Contents (Elt F) → (⟨S1x256, .f32⟩ : BufTy).Contents (Elt F)),
    unary main_v66 main_v67 (broadcastInDim S4096x256 ![0, 1] bcast_S1x256_S4096x256_0_1 : (⟨S1x256, .f32⟩ : BufTy).Contents (Elt F) → (⟨S4096x256, .f32⟩ : BufTy).Contents (Elt F)),
    binary main_v65 main_v67 main_v68 (addf : (⟨S4096x256, .f32⟩ : BufTy).Contents (Elt F) → (⟨S4096x256, .f32⟩ : BufTy).Contents (Elt F) → (⟨S4096x256, .f32⟩ : BufTy).Contents (Elt F)),
    TRef.nullary main_call12.cst (constant S_ .f32 0x00000000#32),
    TRef.unary main_call12.cst main_call12.v0 (broadcastInDim S4096x256 ![] bcast_S_S4096x256),
    TRef.binary (.of main_v68 : TRef sig ⟨S4096x256, .f32⟩) main_call12.v0 main_call12.v1 maximumf,
    unary main_arg13 main_v70 ((transpose S256x1 [1, 0] · transposes_S1x256_S256x1_1_0) : (⟨S1x256, .f32⟩ : BufTy).Contents (Elt F) → (⟨S256x1, .f32⟩ : BufTy).Contents (Elt F)),
    binary main_v69 main_v70 main_v71 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    unary main_arg14 main_v72 (broadcastInDim S1x1 ![1] bcast_S1_S1x1_1 : (⟨S1, .f32⟩ : BufTy).Contents (Elt F) → (⟨S1x1, .f32⟩ : BufTy).Contents (Elt F)),
    unary main_v72 main_v73 (broadcastInDim S4096x1 ![0, 1] bcast_S1x1_S4096x1_0_1 : (⟨S1x1, .f32⟩ : BufTy).Contents (Elt F) → (⟨S4096x1, .f32⟩ : BufTy).Contents (Elt F)),
    binary main_v71 main_v73 main_v74 (addf : (⟨S4096x1, .f32⟩ : BufTy).Contents (Elt F) → (⟨S4096x1, .f32⟩ : BufTy).Contents (Elt F) → (⟨S4096x1, .f32⟩ : BufTy).Contents (Elt F)) ]

set_option maxRecDepth 16384 in
set_option maxHeartbeats 4000000 in
/-- @main is that straight line: its two windows run one after the other, each call replaced by the callee's
    body at the call's buffers (a nested call likewise), and the sequencing re-associated so that both sides
    are one chain of steps ending in the return. -/
theorem main_eq (c : Dev nD) : main (F := F) c = seq ops := by
  simp only [main, main_part0, main_part1, fn_relu.body, fn_relu_0.body, fn_take_along_axis.body, fn_tril.body,
    fn_cumsum.body, fn_cumsum_1.body, fn_clip.body, fn_cumsum_2.body, fn_cumsum_3.body, fn_where.body,
    fn_floor_divide.body, fn_where_4.body, fn_remainder.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only: each is one of the builders, whose operands and
    result are references of the TensorCore. -/
theorem ops_sub : (ops : List (HloOp τ sig (Elt F))).Forall fun op => op.bufs ⊆ tcRefs τ sig := by
  simp only [ops, List.Forall, nullary_bufs_sub, unary_bufs_sub, binary_bufs_sub, ternary_bufs_sub, reshape_bufs_sub,
    and_self]

/-- On every device, for any float values, from any memory with zero counters: every weakly fair execution of
    @main terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The arguments are never written

The fifteen arguments are the first fifteen buffers; every operation writes one buffer, and that buffer's
index is at least fifteen. So the fold leaves each argument's contents as they were. -/

/-- An operation that writes the single buffer `y`, of index at least fifteen, writes no buffer of a smaller index. -/
private theorem idx_of_writes {op : HloOp τ sig (Elt F)} {y : Ref sig .tc}
    (hw : op.writes = {(y : DevRef τ sig)}) (hy : 15 ≤ y.idx.val) (r : Ref sig .tc)
    (hr : (r : DevRef τ sig) ∈ op.writes) : 15 ≤ r.idx.val := by
  rw [hw, Finset.mem_singleton] at hr
  obtain rfl := Proc.devRef_injective _ hr
  exact hy

/-- Every buffer the line writes has index at least fifteen. -/
theorem ops_idx : (ops : List (HloOp τ sig (Elt F))).Forall fun op =>
    ∀ r : Ref sig .tc, (r : DevRef τ sig) ∈ op.writes → 15 ≤ r.idx.val := by
  repeat' (first
    | refine And.intro ?_ ?_
    | exact idx_of_writes rfl (by decide))

/-- A buffer of index below fifteen keeps its contents through the line. -/
theorem keep_of_idx_lt (V : Valuation τ sig (Elt F)) (r : Ref sig .tc) (hr : r.idx.val < 15) :
    after ops V (r : DevRef τ sig) = V (r : DevRef τ sig) :=
  after_of_forall_not_mem ops V fun op hop hb =>
    absurd (List.forall_iff_forall_mem.mp ops_idx op hop r hb) (Nat.not_le.mpr hr)

theorem arg0_eq (V : Valuation τ sig (Elt F)) :
    after ops V (main_arg0 : DevRef τ sig) = V (main_arg0 : DevRef τ sig) :=
  keep_of_idx_lt V main_arg0 (by decide)

theorem arg1_eq (V : Valuation τ sig (Elt F)) :
    after ops V (main_arg1 : DevRef τ sig) = V (main_arg1 : DevRef τ sig) :=
  keep_of_idx_lt V main_arg1 (by decide)

theorem arg2_eq (V : Valuation τ sig (Elt F)) :
    after ops V (main_arg2 : DevRef τ sig) = V (main_arg2 : DevRef τ sig) :=
  keep_of_idx_lt V main_arg2 (by decide)

theorem arg3_eq (V : Valuation τ sig (Elt F)) :
    after ops V (main_arg3 : DevRef τ sig) = V (main_arg3 : DevRef τ sig) :=
  keep_of_idx_lt V main_arg3 (by decide)

theorem arg4_eq (V : Valuation τ sig (Elt F)) :
    after ops V (main_arg4 : DevRef τ sig) = V (main_arg4 : DevRef τ sig) :=
  keep_of_idx_lt V main_arg4 (by decide)

theorem arg5_eq (V : Valuation τ sig (Elt F)) :
    after ops V (main_arg5 : DevRef τ sig) = V (main_arg5 : DevRef τ sig) :=
  keep_of_idx_lt V main_arg5 (by decide)

theorem arg6_eq (V : Valuation τ sig (Elt F)) :
    after ops V (main_arg6 : DevRef τ sig) = V (main_arg6 : DevRef τ sig) :=
  keep_of_idx_lt V main_arg6 (by decide)

theorem arg7_eq (V : Valuation τ sig (Elt F)) :
    after ops V (main_arg7 : DevRef τ sig) = V (main_arg7 : DevRef τ sig) :=
  keep_of_idx_lt V main_arg7 (by decide)

theorem arg8_eq (V : Valuation τ sig (Elt F)) :
    after ops V (main_arg8 : DevRef τ sig) = V (main_arg8 : DevRef τ sig) :=
  keep_of_idx_lt V main_arg8 (by decide)

theorem arg9_eq (V : Valuation τ sig (Elt F)) :
    after ops V (main_arg9 : DevRef τ sig) = V (main_arg9 : DevRef τ sig) :=
  keep_of_idx_lt V main_arg9 (by decide)

theorem arg10_eq (V : Valuation τ sig (Elt F)) :
    after ops V (main_arg10 : DevRef τ sig) = V (main_arg10 : DevRef τ sig) :=
  keep_of_idx_lt V main_arg10 (by decide)

theorem arg11_eq (V : Valuation τ sig (Elt F)) :
    after ops V (main_arg11 : DevRef τ sig) = V (main_arg11 : DevRef τ sig) :=
  keep_of_idx_lt V main_arg11 (by decide)

theorem arg12_eq (V : Valuation τ sig (Elt F)) :
    after ops V (main_arg12 : DevRef τ sig) = V (main_arg12 : DevRef τ sig) :=
  keep_of_idx_lt V main_arg12 (by decide)

theorem arg13_eq (V : Valuation τ sig (Elt F)) :
    after ops V (main_arg13 : DevRef τ sig) = V (main_arg13 : DevRef τ sig) :=
  keep_of_idx_lt V main_arg13 (by decide)

theorem arg14_eq (V : Valuation τ sig (Elt F)) :
    after ops V (main_arg14 : DevRef τ sig) = V (main_arg14 : DevRef τ sig) :=
  keep_of_idx_lt V main_arg14 (by decide)

end Cert.ReferenceIdeal.HandRun

end
-- ==== Proof.RefRunCuts.lean ====
import proofs.«424834_j5669356831571_3_alg».proof.Proof.RefRun

/-!
The line of 205 operations cut at its natural joints into nine stretches, and what a stretch leaves alone.
Operation k writes the buffer of index 15 + k, so a stretch writes exactly a range of indices and every buffer
outside that range keeps its contents through it.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The cut -/

/-- The first perceptron: operations 0 … 20, the last writing the dense vector. -/
def cA : List (HloOp τ sig (Elt F)) := ops.take 21
/-- The table lookup, the 27 vectors side by side and their table of inner products: operations 21 … 47. -/
def cB : List (HloOp τ sig (Elt F)) := (ops.drop 21).take 27
/-- The triangle's mask, its running count, the histogram and its running sum: operations 48 … 86. -/
def cC1 : List (HloOp τ sig (Elt F)) := (ops.drop 48).take 39
/-- The floor division of the positions by 27: operations 87 … 103. -/
def cC2a : List (HloOp τ sig (Elt F)) := (ops.drop 87).take 17
/-- Its remainder by 27, the row indices before normalisation: operations 104 … 125. -/
def cC2b : List (HloOp τ sig (Elt F)) := (ops.drop 104).take 22
/-- The floor division of the positions by 1: operations 126 … 142. -/
def cC2c : List (HloOp τ sig (Elt F)) := (ops.drop 126).take 17
/-- Its remainder by 27, the column indices before normalisation: operations 143 … 164. -/
def cC2d : List (HloOp τ sig (Elt F)) := (ops.drop 143).take 22
/-- The two index normalisations: operations 165 … 178. -/
def cC2e : List (HloOp τ sig (Elt F)) := (ops.drop 165).take 14
/-- The pairs' index array, the gather, the join and the second perceptron: operations 179 … 204. -/
def cD : List (HloOp τ sig (Elt F)) := ops.drop 179

/-- The line is its nine stretches one after the other. -/
theorem ops_cut : (ops : List (HloOp τ sig (Elt F))) = cA ++ (cB ++ (cC1 ++ (cC2a ++ (cC2b ++ (cC2c ++ (cC2d ++ (cC2e ++ (cD)))))))) := rfl

/-- The fold over two lines run one after the other is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## What a stretch leaves alone -/

/-- An operation that writes the single buffer `y`, of index in `[lo, hi)`, writes no buffer of an index outside. -/
private theorem range_of_writes {op : HloOp τ sig (Elt F)} {y : Ref sig .tc} {lo hi : Nat}
    (hw : op.writes = {(y : DevRef τ sig)}) (hy : lo ≤ y.idx.val ∧ y.idx.val < hi) (r : Ref sig .tc)
    (hr : (r : DevRef τ sig) ∈ op.writes) : lo ≤ r.idx.val ∧ r.idx.val < hi := by
  rw [hw, Finset.mem_singleton] at hr
  obtain rfl := Proc.devRef_injective _ hr
  exact hy

/-- A line whose operations write buffers of index in `[lo, hi)` only leaves every other TensorCore buffer as it was. -/
theorem keep_of_range {l : List (HloOp τ sig (Elt F))} {lo hi : Nat}
    (h : l.Forall fun op => ∀ r : Ref sig .tc, (r : DevRef τ sig) ∈ op.writes → lo ≤ r.idx.val ∧ r.idx.val < hi)
    (W : Valuation τ sig (Elt F)) (r : Ref sig .tc) (hr : r.idx.val < lo ∨ hi ≤ r.idx.val) :
    after l W (r : DevRef τ sig) = W (r : DevRef τ sig) :=
  after_of_forall_not_mem l W fun op hop hb => by
    have := List.forall_iff_forall_mem.mp h op hop r hb
    omega

theorem cA_range : (cA : List (HloOp τ sig (Elt F))).Forall fun op =>
    ∀ r : Ref sig .tc, (r : DevRef τ sig) ∈ op.writes → 15 ≤ r.idx.val ∧ r.idx.val < 36 := by
  repeat' (first | refine And.intro ?_ ?_ | exact range_of_writes rfl (by decide))
theorem cA_keep (W : Valuation τ sig (Elt F)) (r : Ref sig .tc) (hr : r.idx.val < 15 ∨ 36 ≤ r.idx.val) :
    after cA W (no_index (Proc.devRef .tc r)) = W (Proc.devRef .tc r) := keep_of_range cA_range W r hr

theorem cB_range : (cB : List (HloOp τ sig (Elt F))).Forall fun op =>
    ∀ r : Ref sig .tc, (r : DevRef τ sig) ∈ op.writes → 36 ≤ r.idx.val ∧ r.idx.val < 63 := by
  repeat' (first | refine And.intro ?_ ?_ | exact range_of_writes rfl (by decide))
theorem cB_keep (W : Valuation τ sig (Elt F)) (r : Ref sig .tc) (hr : r.idx.val < 36 ∨ 63 ≤ r.idx.val) :
    after cB W (no_index (Proc.devRef .tc r)) = W (Proc.devRef .tc r) := keep_of_range cB_range W r hr

theorem cC1_range : (cC1 : List (HloOp τ sig (Elt F))).Forall fun op =>
    ∀ r : Ref sig .tc, (r : DevRef τ sig) ∈ op.writes → 63 ≤ r.idx.val ∧ r.idx.val < 102 := by
  repeat' (first | refine And.intro ?_ ?_ | exact range_of_writes rfl (by decide))
theorem cC1_keep (W : Valuation τ sig (Elt F)) (r : Ref sig .tc) (hr : r.idx.val < 63 ∨ 102 ≤ r.idx.val) :
    after cC1 W (no_index (Proc.devRef .tc r)) = W (Proc.devRef .tc r) := keep_of_range cC1_range W r hr

theorem cC2a_range : (cC2a : List (HloOp τ sig (Elt F))).Forall fun op =>
    ∀ r : Ref sig .tc, (r : DevRef τ sig) ∈ op.writes → 102 ≤ r.idx.val ∧ r.idx.val < 119 := by
  repeat' (first | refine And.intro ?_ ?_ | exact range_of_writes rfl (by decide))
theorem cC2a_keep (W : Valuation τ sig (Elt F)) (r : Ref sig .tc) (hr : r.idx.val < 102 ∨ 119 ≤ r.idx.val) :
    after cC2a W (no_index (Proc.devRef .tc r)) = W (Proc.devRef .tc r) := keep_of_range cC2a_range W r hr

theorem cC2b_range : (cC2b : List (HloOp τ sig (Elt F))).Forall fun op =>
    ∀ r : Ref sig .tc, (r : DevRef τ sig) ∈ op.writes → 119 ≤ r.idx.val ∧ r.idx.val < 141 := by
  repeat' (first | refine And.intro ?_ ?_ | exact range_of_writes rfl (by decide))
theorem cC2b_keep (W : Valuation τ sig (Elt F)) (r : Ref sig .tc) (hr : r.idx.val < 119 ∨ 141 ≤ r.idx.val) :
    after cC2b W (no_index (Proc.devRef .tc r)) = W (Proc.devRef .tc r) := keep_of_range cC2b_range W r hr

theorem cC2c_range : (cC2c : List (HloOp τ sig (Elt F))).Forall fun op =>
    ∀ r : Ref sig .tc, (r : DevRef τ sig) ∈ op.writes → 141 ≤ r.idx.val ∧ r.idx.val < 158 := by
  repeat' (first | refine And.intro ?_ ?_ | exact range_of_writes rfl (by decide))
theorem cC2c_keep (W : Valuation τ sig (Elt F)) (r : Ref sig .tc) (hr : r.idx.val < 141 ∨ 158 ≤ r.idx.val) :
    after cC2c W (no_index (Proc.devRef .tc r)) = W (Proc.devRef .tc r) := keep_of_range cC2c_range W r hr

theorem cC2d_range : (cC2d : List (HloOp τ sig (Elt F))).Forall fun op =>
    ∀ r : Ref sig .tc, (r : DevRef τ sig) ∈ op.writes → 158 ≤ r.idx.val ∧ r.idx.val < 180 := by
  repeat' (first | refine And.intro ?_ ?_ | exact range_of_writes rfl (by decide))
theorem cC2d_keep (W : Valuation τ sig (Elt F)) (r : Ref sig .tc) (hr : r.idx.val < 158 ∨ 180 ≤ r.idx.val) :
    after cC2d W (no_index (Proc.devRef .tc r)) = W (Proc.devRef .tc r) := keep_of_range cC2d_range W r hr

theorem cC2e_range : (cC2e : List (HloOp τ sig (Elt F))).Forall fun op =>
    ∀ r : Ref sig .tc, (r : DevRef τ sig) ∈ op.writes → 180 ≤ r.idx.val ∧ r.idx.val < 194 := by
  repeat' (first | refine And.intro ?_ ?_ | exact range_of_writes rfl (by decide))
theorem cC2e_keep (W : Valuation τ sig (Elt F)) (r : Ref sig .tc) (hr : r.idx.val < 180 ∨ 194 ≤ r.idx.val) :
    after cC2e W (no_index (Proc.devRef .tc r)) = W (Proc.devRef .tc r) := keep_of_range cC2e_range W r hr

theorem cD_range : (cD : List (HloOp τ sig (Elt F))).Forall fun op =>
    ∀ r : Ref sig .tc, (r : DevRef τ sig) ∈ op.writes → 194 ≤ r.idx.val ∧ r.idx.val < 220 := by
  repeat' (first | refine And.intro ?_ ?_ | exact range_of_writes rfl (by decide))
theorem cD_keep (W : Valuation τ sig (Elt F)) (r : Ref sig .tc) (hr : r.idx.val < 194 ∨ 220 ≤ r.idx.val) :
    after cD W (no_index (Proc.devRef .tc r)) = W (Proc.devRef .tc r) := keep_of_range cD_range W r hr

end Cert.ReferenceIdeal.HandRun

end
-- ==== Proof.RefTrilDefs.lean ====
/-
  The two index vectors of the strict lower triangle of a 27 × 27 matrix, as the reference program computes
  them: a mask of the entries below the diagonal, flattened; its running count; a histogram of the running
  count; the histogram's running sum, which at `p` is the flat position of the `p`-th entry below the diagonal;
  that position's quotient and remainder by 27. Nothing here depends on an input. This module holds the
  operations composed; their values are proved in the modules that import it.
-/
import proofs.«424834_j5669356831571_3_alg».proof.Proof.Gen.ReferenceIdeal
import proofs.«424834_j5669356831571_3_alg».proof.Proof.Spec

noncomputable section

namespace Cert.ReferenceIdeal.Tril

open Idealize.ShloMosaic Idealize.ShloMosaic.ValueIdx
open Cert.ReferenceIdeal Cert.ReferenceIdeal.Facts₀

/-! ## The operations, in program order -/

/-- `%23`: the 27 × 27 matrix of ones. -/
def v23 : FVec Ideal S27x27 .f32 :=
  broadcastInDim S27x27 ![] bcast_S_S27x27 (constant (F := Ideal) S_ .f32 0x3F800000#32)

/-- `@tril`'s `%4`: row index minus one at least the column index. -/
def trilMask : IVec S27x27 1 :=
  cmpi .sge
    (addi (iotaInDim S27x27 32 0) (broadcastInDim S27x27 ![] bcast_S_S27x27 (constantI S_ 32 4294967295#32)))
    (iotaInDim S27x27 32 1)

/-- `%24`: the ones kept strictly below the diagonal, zero elsewhere. -/
def v24 : FVec Ideal S27x27 .f32 :=
  select trilMask v23 (broadcastInDim S27x27 ![] bcast_S_S27x27 (constant (F := Ideal) S_ .f32 0x00000000#32))

/-- `%26`: where `%24` differs from zero. -/
def v26 : IVec S27x27 1 :=
  cmpf .une v24 (broadcastInDim S27x27 ![] bcast_S_S27x27 (constant (F := Ideal) S_ .f32 0x00000000#32))

/-- `@cumsum`'s `%1`: the mask flattened to 729 entries, as 32-bit integers. -/
def flatMask : IVec S729 32 :=
  extui 32 (shapeCast S729 v26 shapeCasts_S27x27_S729) natLt_1_32

/-- `%27`: the running count of the mask. -/
def v27 : IVec S729 32 :=
  Host.reduceWindow IntOp.addi ![729] ![1] ![728] ![0] flatMask
    (broadcastInDim S_ ![] bcast_S_S_ (constantI S_ 32 0#32)) reduceWindows_S729_S729_w729s1p728_0 h_S_

/-- `%29`: the running count clipped below at zero. -/
def v29 : IVec S729 32 :=
  maxsi (broadcastInDim S729 ![] bcast_S_S729 (id (constantI S_ 32 0#32))) v27

/-- `%34`: a negative entry moved up by 351 (the index normalisation). -/
def v34 : IVec S729 32 :=
  select (cmpi .slt v29 (broadcastInDim S729 ![] bcast_S_S729 (constantI S_ 32 0#32)))
    (addi v29 (broadcastInDim S729 ![] bcast_S_S729 (constantI S_ 32 351#32))) v29

/-- `%37`: the histogram of `%34` over 351 bins, an entry of 351 or more dropped. -/
def v37 : IVec S351 32 :=
  Host.scatter scatter_S351_S729x1_S729_n_0_0_1 IntOp.addi
    (broadcastInDim S351 ![] bcast_S_S351 (constantI S_ 32 0#32))
    (broadcastInDim S729x1 ![0] bcast_S729_S729x1_0 v34)
    (broadcastInDim S729 ![] bcast_S_S729 (constantI S_ 32 1#32))

/-- `%38`: the running sum of the histogram. -/
def v38 : IVec S351 32 :=
  Host.reduceWindow IntOp.addi ![351] ![1] ![350] ![0] v37
    (broadcastInDim S_ ![] bcast_S_S_ (constantI S_ 32 0#32)) reduceWindows_S351_S351_w351s1p350_0 h_S_

/-- `@floor_divide`: the quotient rounded toward zero, less one where the signs differ and the remainder is not zero. -/
def floorDivide (x : IVec S351 32) (c : IVec S_ 32) : IVec S351 32 :=
  let v1 := Host.divsi x (broadcastInDim S351 ![] bcast_S_S351 c)
  select
    (andi (cmpi .ne (signi x) (broadcastInDim S351 ![] bcast_S_S351 (signi c)))
      (cmpi .ne (Host.remsi x (broadcastInDim S351 ![] bcast_S_S351 c))
        (broadcastInDim S351 ![] bcast_S_S351 (constantI S_ 32 0#32))))
    (subi v1 (broadcastInDim S351 ![] bcast_S_S351 (constantI S_ 32 1#32))) v1

/-- `@remainder`: the remainder of the division rounded toward zero, moved by the divisor where it is not zero
    and its sign differs from the divisor's. -/
def remainder (x : IVec S351 32) (c : IVec S_ 32) : IVec S351 32 :=
  let v0 : IVec S_ 32 := id c
  let v2 : IVec S_ 32 := select (cmpi .eq v0 (constantI S_ 32 0#32)) (constantI S_ 32 1#32) v0
  let v4 := Host.remsi x (broadcastInDim S351 ![] bcast_S_S351 v2)
  select
    (andi
      (cmpi .ne (cmpi .slt v4 (broadcastInDim S351 ![] bcast_S_S351 (constantI S_ 32 0#32)))
        (broadcastInDim S351 ![] bcast_S_S351 (cmpi .slt v2 (constantI S_ 32 0#32))))
      (cmpi .ne v4 (broadcastInDim S351 ![] bcast_S_S351 (constantI S_ 32 0#32))))
    (addi v4 (broadcastInDim S351 ![] bcast_S_S351 v2)) v4

/-- The index normalisation of a row or column index: a negative one moved up by 27. -/
def normalise (x : IVec S351 32) : IVec S351 32 :=
  select (cmpi .slt x (broadcastInDim S351 ![] bcast_S_S351 (constantI S_ 32 0#32)))
    (addi x (broadcastInDim S351 ![] bcast_S_S351 (constantI S_ 32 27#32))) x

/-- `%40`: the row of the `p`-th entry. -/
def v40 : IVec S351 32 := remainder (floorDivide v38 (constantI S_ 32 27#32)) (constantI S_ 32 27#32)

/-- `%42`: the column of the `p`-th entry. -/
def v42 : IVec S351 32 := remainder (floorDivide v38 (constantI S_ 32 1#32)) (constantI S_ 32 27#32)

/-- `%47`: the rows of the strict lower triangle's entries, in order. -/
def rows : (⟨S351, .i32⟩ : BufTy).Contents (Elt Ideal) := normalise v40

/-- `%52`: their columns. -/
def cols : (⟨S351, .i32⟩ : BufTy).Contents (Elt Ideal) := normalise v42

/-! ## The running count in closed form -/

/-- The number of entries strictly below the diagonal among the first `n + 1` entries of the flattened matrix:
    with `n = 27 i + j`, the `i (i - 1) / 2` of the rows above row `i` and the `min (j + 1) i` of row `i` up to
    column `j`. -/
def cN (n : ℕ) : ℕ := (n / 27) * (n / 27 - 1) / 2 + min (n % 27 + 1) (n / 27)

end Cert.ReferenceIdeal.Tril

end
-- ==== Proof.LibCumsum.lean ====
/-
  A running sum written as a windowed reduction. The window is as long as the vector and the vector is padded
  in front by one entry less, so the window that ends at entry `n` holds exactly the entries `0 … n`: the
  reduction at `n` is their sum.
-/
import Idealize.ShloMosaic.PureOps
import Idealize.ShloMosaic.Lib.ValueIdx
import Mathlib.Algebra.BigOperators.Fin
import Mathlib.Algebra.BigOperators.Intervals
import Mathlib.Data.BitVec

namespace Cert.LibCumsum

open Idealize.ShloMosaic Idealize.ShloMosaic.ValueIdx

/-- A left fold of word additions from `v` is `v` plus the sum of the terms. -/
theorem foldl_addi_eq {β : Type} (g : β → BitVec 32) (l : List β) (v : BitVec 32) :
    l.foldl (fun r w => IntOp.addi r (g w)) v = v + (l.map g).sum := by
  induction l generalizing v with
  | nil => simp
  | cons a l ih => rw [List.foldl_cons, ih, List.map_cons, List.sum_cons, IntOp.addi, add_assoc]

/-- The entry `k` of a vector of `N` words, zero past its end. -/
def entry {N : ℕ} (x : IVec ⟨1, ![N]⟩ 32) (k : ℕ) : BitVec 32 := if hk : k < N then x (ix1 ⟨k, hk⟩) else 0

/-- The shifted window read as a sum over positions: the positions `w` with `lo ≤ n + w` carry the entries
    `0 … n`. -/
theorem sum_window (N lo : ℕ) (hlo : lo + 1 = N) (f : ℕ → BitVec 32) (n : ℕ) (hn : n < N) :
    (∑ w : Fin N, if lo ≤ n + w.val then f (n + w.val - lo) else 0) = ∑ k ∈ Finset.range (n + 1), f k := by
  rw [Fin.sum_univ_eq_sum_range (fun w => if lo ≤ n + w then f (n + w - lo) else 0) N, ← Finset.sum_filter]
  have hs : (Finset.range N).filter (fun w => lo ≤ n + w) = Finset.Ico (lo - n) N := by
    ext w; simp only [Finset.mem_filter, Finset.mem_range, Finset.mem_Ico]; omega
  rw [hs, Finset.sum_Ico_eq_sum_range]
  have hN : N - (lo - n) = n + 1 := by omega
  rw [hN]
  refine Finset.sum_congr rfl fun k hk => ?_
  rw [Finset.mem_range] at hk
  congr 1; omega

/-- An index of a vector is its one coordinate. -/
def idx1Equiv (N : ℕ) : Fin N ≃ (⟨1, ![N]⟩ : Shape).Idx where
  toFun := ix1
  invFun j := j 0
  left_inv _ := rfl
  right_inv j := (eq_ix1 j).symm

/-- The running sum: the windowed reduction by addition, window `N`, stride one, `N - 1` entries of padding in
    front, read at `n`, is the sum of the entries `0 … n`. -/
theorem cumsum_apply (N lo : ℕ) (hlo : lo + 1 = N) (x : IVec ⟨1, ![N]⟩ 32)
    (init : (⟨0, ![]⟩ : Shape).Idx → BitVec 32)
    (h : (⟨1, ![N]⟩ : Shape).ReduceWindows (![N] : Fin 1 → ℕ) ![1] ![lo] ![0] ⟨1, ![N]⟩)
    (hu : 0 < (⟨0, ![]⟩ : Shape).numel) (hinit : init ix0 = 0) (n : Fin N) :
    Host.reduceWindow IntOp.addi (![N] : Fin 1 → ℕ) ![1] ![lo] ![0] x init h hu (ix1 n)
      = ∑ k ∈ Finset.range (n.val + 1), entry x k := by
  have hv : init (Shape.Idx.first hu) = 0 := by rw [eq_ix0 (Shape.Idx.first hu)]; exact hinit
  unfold Host.reduceWindow
  simp only []
  rw [hv, foldl_addi_eq, zero_add, ← List.ofFn_eq_map, List.sum_ofFn]
  rw [← Equiv.sum_comp (Shape.rowMajor ⟨1, ![N]⟩)]
  simp only [Equiv.symm_apply_apply]
  rw [← Equiv.sum_comp (idx1Equiv N), ← sum_window N lo hlo (entry x) n.val n.isLt]
  refine Finset.sum_congr rfl fun w _ => ?_
  have hn := n.isLt
  have hw := w.isLt
  have hP : ∀ a : Fin 1, (ix1 n (Fin.cast h.1.symm a)).val * (![1] : Fin 1 → ℕ) a + ((idx1Equiv N w) a).val
      = n.val + w.val := by
    intro a; match a with | ⟨0, _⟩ => show n.val * 1 + w.val = _; omega
  have hL : ∀ a : Fin 1, (![lo] : Fin 1 → ℕ) a = lo := by intro a; match a with | ⟨0, _⟩ => rfl
  have hNN : ∀ a : Fin 1, (![N] : Fin 1 → ℕ) a = N := by intro a; match a with | ⟨0, _⟩ => rfl
  by_cases hc : lo ≤ n.val + w.val
  · rw [if_pos hc, dif_pos (fun a => by rw [hP, hL, hNN]; omega)]
    unfold entry
    rw [dif_pos (by omega)]
    congr 1; funext a
    match a with | ⟨0, _⟩ => exact Fin.ext (by show n.val * 1 + w.val - lo = n.val + w.val - lo; omega)
  · rw [if_neg hc, dif_neg (fun hin => hc (by have := (hin 0).1; rw [hP, hL] at this; exact this))]

end Cert.LibCumsum
-- ==== Proof.RefTrilA.lean ====
/-
  The first half of the reference's index computation, in closed form: the mask of the entries strictly
  below the diagonal of a 27 × 27 matrix, flattened to 729 entries, and its running count. At the flat
  position `n = 27 i + j` the mask is one exactly when `j < i`, and the running count is
  `i (i - 1) / 2 + min (j + 1) i`; it is never negative, so the clip at zero and the index normalisation that
  follow leave it as it is.
-/
import proofs.«424834_j5669356831571_3_alg».proof.Proof.RefTrilDefs
import proofs.«424834_j5669356831571_3_alg».proof.Proof.LibCumsum
import Idealize.ShloMosaic.Lib.IdealHost
import Idealize.ShloMosaic.Lib.Pipeline.Value

noncomputable section

namespace Cert.ReferenceIdeal.Tril

open Idealize.ShloMosaic Idealize.ShloMosaic.ValueIdx
open Cert.ReferenceIdeal Cert.ReferenceIdeal.Facts₀
open Cert.LibCumsum

/-! ## The mask -/

/-- Row index minus one at least the column index: the column index is below the row index. -/
theorem trilMask_apply : ∀ i j : Fin 27, trilMask (ix2 i j) = if j.val < i.val then 1#1 else 0#1 := by
  decide +kernel

/-- The pattern of one is the number one, that of zero the number zero, and they differ: the matrix of ones
    kept below the diagonal differs from zero exactly there. -/
theorem v26_apply (i j : Fin 27) : v26 (ix2 i j) = if j.val < i.val then 1#1 else 0#1 := by
  unfold v26 v24 v23
  rw [cmpf_apply, select_apply, trilMask_apply, broadcastInDim_scalar_apply, broadcastInDim_scalar_apply,
    constant_apply, constant_apply, Ideal.ofBits_one_f32, Ideal.ofBits_zero_f32, Ideal.cmpf_def]
  by_cases h : j.val < i.val
  · rw [if_pos h, select_one]
    simp [Ideal.cmp]
  · rw [if_neg h, select_zero]
    simp [Ideal.cmp]

/-- The flat position `n` is row `n / 27`, column `n % 27`. -/
theorem flatMask_apply (n : Fin 729) :
    flatMask (ix1 n) = if n.val % 27 < n.val / 27 then 1#32 else 0#32 := by
  unfold flatMask
  rw [extui_apply, shapeCast_apply _ _ (ix1 n) (ix2 (⟨n.val / 27, by omega⟩ : Fin 27) (⟨n.val % 27, by omega⟩ : Fin 27))
    (by rw [Shape.rowMajor_val_one, Shape.rowMajor_val_two]; show n.val / 27 * 27 + n.val % 27 = n.val; omega),
    v26_apply]
  by_cases h : n.val % 27 < n.val / 27
  · simp [h]
  · simp [h]

/-! ## The running count -/

theorem entry_flatMask (k : ℕ) (hk : k < 729) :
    entry flatMask k = if k % 27 < k / 27 then 1#32 else 0#32 := by
  unfold entry
  rw [dif_pos hk, flatMask_apply]

/-- One more entry of the mask moves the closed form by that entry. -/
theorem cN_step : ∀ n : Fin 728,
    BitVec.ofNat 32 (cN n.val) + (if (n.val + 1) % 27 < (n.val + 1) / 27 then 1#32 else 0#32)
      = BitVec.ofNat 32 (cN (n.val + 1)) := by
  decide +kernel

theorem prefix_closed : ∀ n : ℕ, n < 729 →
    ∑ k ∈ Finset.range (n + 1), entry flatMask k = BitVec.ofNat 32 (cN n)
  | 0, _ => by
    rw [Finset.sum_range_one, entry_flatMask 0 (by omega)]
    decide
  | n + 1, h => by
    rw [Finset.sum_range_succ, prefix_closed n (by omega), entry_flatMask (n + 1) h]
    exact cN_step ⟨n, by omega⟩

theorem v27_apply (n : Fin 729) : v27 (ix1 n) = BitVec.ofNat 32 (cN n.val) := by
  unfold v27
  rw [cumsum_apply 729 728 rfl flatMask _ _ _ rfl n]
  exact prefix_closed n.val n.isLt

/-- The running count as an explicit function of the flat position. -/
def cFn : IVec S729 32 := fun k => BitVec.ofNat 32 (cN (k 0).val)

theorem v27_eq : v27 = cFn := by
  funext k
  obtain ⟨n, rfl⟩ : ∃ n : Fin 729, k = ix1 n := ⟨k 0, eq_ix1 k⟩
  exact v27_apply n

/-- `%29 … %34` over any running count: clipped below at zero, then a negative entry moved up by 351. -/
def v34of (c : IVec S729 32) : IVec S729 32 :=
  let v29 := maxsi (broadcastInDim S729 ![] bcast_S_S729 (id (constantI S_ 32 0#32))) c
  select (cmpi .slt v29 (broadcastInDim S729 ![] bcast_S_S729 (constantI S_ 32 0#32)))
    (addi v29 (broadcastInDim S729 ![] bcast_S_S729 (constantI S_ 32 351#32))) v29

theorem v34_eq_v34of : v34 = v34of v27 := rfl

/-- The running count is never negative: clipping and the index normalisation leave it as it is. -/
theorem v34of_cFn : ∀ n : Fin 729, v34of cFn (ix1 n) = BitVec.ofNat 32 (cN n.val) := by
  decide +kernel

theorem v34_apply (n : Fin 729) : v34 (ix1 n) = BitVec.ofNat 32 (cN n.val) := by
  rw [v34_eq_v34of, v27_eq]
  exact v34of_cFn n

end Cert.ReferenceIdeal.Tril

end
-- ==== Proof.RefTrilBCount.lean ====
/-
  The positions of the entries below the diagonal, and how many flat positions share a running count.

  The `p`-th pair `(i, j)`, `i > j`, of the strict lower triangle of a 27 × 27 matrix sits at the flat position
  `27 i + j`. The running count `cN` of the entries below the diagonal first reaches `p + 1` there, so the flat
  positions whose running count is exactly `p` are those from the `(p-1)`-th pair's position up to, and not
  including, the `p`-th pair's: their number is the gap between the two positions (for `p = 0`: the 27 positions of row 0
  and none more, which is the position of the first pair, `(1, 0)`).

  The proof: every position lies in the window of its own running count (evaluated at the 729 positions); the
  pairs' positions increase (evaluated at the 350 steps), so the windows of different counts are disjoint; hence a
  position in the window of `p` has running count `p`, and the positions with running count `p` are exactly that window.
-/
import proofs.«424834_j5669356831571_3_alg».proof.Proof.RefTrilDefs
import Mathlib.Order.Interval.Finset.Nat

namespace Cert.ReferenceIdeal.Tril

/-- The flat position `27 i + j` of the `p`-th pair `(i, j)` below the diagonal. -/
def gN (p : ℕ) : ℕ := 27 * (Cert.Spec.pairWalk 27 1 p).1 + (Cert.Spec.pairWalk 27 1 p).2

/-- The gap between the `p`-th pair's position and the one before (the first pair's position itself for `p = 0`). -/
def histN (p : ℕ) : ℕ := if p = 0 then 27 else gN p - gN (p - 1)

/-- Where the window of running count `p` begins: at the pair before, at zero for `p = 0`. -/
def loN (p : ℕ) : ℕ := if p = 0 then 0 else gN (p - 1)

/-! ## What is evaluated -/

/-- A position lies in the window of its own running count. -/
theorem cN_window : ∀ n : Fin 729, cN n.val < 351 → loN (cN n.val) ≤ n.val ∧ n.val < gN (cN n.val) := by
  decide +kernel

/-- Only the last two positions have a running count of 351. -/
theorem cN_small : ∀ n : Fin 729, cN n.val < 351 ∨ 727 ≤ n.val := by decide +kernel

/-- A pair's position is at most the next pair's. -/
theorem gN_succ_le : ∀ p : Fin 350, gN p.val ≤ gN (p.val + 1) := by decide +kernel

/-- The last pair, `(26, 25)`, sits at 727. -/
theorem gN_last : gN 350 = 727 := by decide +kernel

/-- The gap is the length of the window. -/
theorem histN_eq : ∀ p : Fin 351, histN p.val = gN p.val - loN p.val := by decide +kernel

/-! ## The windows -/

/-- The pairs' positions increase. -/
theorem gN_mono : ∀ q, q < 351 → ∀ p, p ≤ q → gN p ≤ gN q
  | 0, _, p, hp => by
    have h0 : p = 0 := by omega
    subst h0
    exact le_refl _
  | q + 1, hq, p, hp => by
    rcases Nat.lt_or_ge p (q + 1) with h | h
    · exact (gN_mono q (by omega) p (by omega)).trans (gN_succ_le ⟨q, by omega⟩)
    · have h1 : p = q + 1 := by omega
      subst h1
      exact le_refl _

theorem gN_le_last (p : Fin 351) : gN p.val ≤ 727 := by
  have hp := p.isLt
  rw [← gN_last]
  exact gN_mono 350 (by omega) p.val (by omega)

/-- The running count at `n` is `p` exactly when `n` lies in the window of `p`. -/
theorem cN_eq_iff (p : Fin 351) (n : ℕ) (hn : n < 729) : cN n = p.val ↔ loN p.val ≤ n ∧ n < gN p.val := by
  have hp := p.isLt
  constructor
  · intro h
    have hw : loN (cN n) ≤ n ∧ n < gN (cN n) := cN_window ⟨n, hn⟩ (by show cN n < 351; omega)
    rw [h] at hw
    exact hw
  · rintro ⟨h1, h2⟩
    have htop := gN_le_last p
    have hq : cN n < 351 := by
      rcases cN_small ⟨n, hn⟩ with h | h
      · exact h
      · exfalso
        have h' : 727 ≤ n := h
        omega
    have hw : loN (cN n) ≤ n ∧ n < gN (cN n) := cN_window ⟨n, hn⟩ hq
    obtain ⟨w1, w2⟩ := hw
    rcases Nat.lt_trichotomy (cN n) p.val with hlt | heq | hgt
    · exfalso
      have hlo : loN p.val = gN (p.val - 1) := if_neg (by omega)
      have hm := gN_mono (p.val - 1) (by omega) (cN n) (by omega)
      omega
    · exact heq
    · exfalso
      have hlo : loN (cN n) = gN (cN n - 1) := if_neg (by omega)
      have hm := gN_mono (cN n - 1) (by omega) p.val (by omega)
      omega

/-- The number of flat positions whose running count is `p` is the gap. -/
theorem count_cN (p : Fin 351) : ((Finset.range 729).filter fun n => cN n = p.val).card = histN p.val := by
  have htop := gN_le_last p
  have hset : (Finset.range 729).filter (fun n => cN n = p.val) = Finset.Ico (loN p.val) (gN p.val) := by
    ext n
    rw [Finset.mem_filter, Finset.mem_range, Finset.mem_Ico]
    constructor
    · rintro ⟨hn, hc⟩
      exact (cN_eq_iff p n hn).1 hc
    · rintro ⟨h1, h2⟩
      have hn : n < 729 := by omega
      exact ⟨hn, (cN_eq_iff p n hn).2 ⟨h1, h2⟩⟩
  rw [hset, Nat.card_Ico, histN_eq p]

end Cert.ReferenceIdeal.Tril
-- ==== Proof.RefTrilBEval.lean ====
/-
  The facts of the index table that are settled by evaluating both sides at every index: where each of the 729
  updates of the histogram lands, the step from one pair's flat position to the next, and the quotient and remainder
  by 27 of a pair's flat position.
-/
import proofs.«424834_j5669356831571_3_alg».proof.Proof.RefTrilBCount

noncomputable section

namespace Cert.ReferenceIdeal.Tril

open Idealize.ShloMosaic Idealize.ShloMosaic.ValueIdx
open Cert.ReferenceIdeal Cert.ReferenceIdeal.Facts₀

/-- The running count as an explicit vector. -/
def cVec : IVec S729 32 := fun i => BitVec.ofNat 32 (cN (i 0).val)

/-- The histogram as an explicit vector. -/
def hVec : IVec S351 32 := fun i => BitVec.ofNat 32 (histN (i 0).val)

/-- The pairs' flat positions as an explicit vector. -/
def gVec : IVec S351 32 := fun i => BitVec.ofNat 32 (gN (i 0).val)

/-- The bin the `n`-th update of the histogram adds to, when the running count there is one of the 351 bins. -/
def land (n : Fin S729.numel) : Option S351.Idx :=
  scatter_S351_S729x1_S729_n_0_0_1.resultIdx? (S729.rowMajor.symm n)
    (broadcastInDim S729x1 ![0] bcast_S729_S729x1_0 cVec)

/-- Update `n` lands in bin `cN n` when that is below 351, and nowhere otherwise (the running count is 351 at the
    last two positions). -/
theorem land_table : ∀ n : Fin S729.numel,
    (land n).map (fun i => (i 0).val) = if cN n.val < 351 then some (cN n.val) else none := by
  decide +kernel

/-- One pair's flat position plus the next gap is the next pair's flat position. -/
theorem gN_step : ∀ p : Fin 350, gN p.val + histN (p.val + 1) = gN (p.val + 1) := by decide +kernel

theorem histN_zero : histN 0 = gN 0 := by decide +kernel

/-- The flat position `27 i + j` floor-divided by 27, its remainder by 27 taken and normalised, is `i`. -/
theorem rows_gVec : ∀ p : Fin 351,
    normalise (remainder (floorDivide gVec (constantI S_ 32 27#32)) (constantI S_ 32 27#32)) (ix1 p)
      = BitVec.ofNat 32 (Cert.Spec.li p).val := by decide +kernel

/-- The flat position `27 i + j` floor-divided by 1, its remainder by 27 taken and normalised, is `j`. -/
theorem cols_gVec : ∀ p : Fin 351,
    normalise (remainder (floorDivide gVec (constantI S_ 32 1#32)) (constantI S_ 32 27#32)) (ix1 p)
      = BitVec.ofNat 32 (Cert.Spec.lj p).val := by decide +kernel

end Cert.ReferenceIdeal.Tril

end
-- ==== Proof.LibScatter.lean ====
/-
  A scatter whose body adds, read at an index.

  `stablehlo.scatter` on the host is a left fold over the update positions in row-major order: each position whose
  result index lies inside the operand replaces the element there by the body applied to it and to the update. When
  the body is addition the order does not matter, and the element at `i` is the operand's plus the sum of all
  updates whose result index is `i`. The second part reads the result index for the dimension numbers of a
  histogram: a flat operand, one scalar update per row of an [N,1] index array.
-/
import Idealize.ShloMosaic.PureOps.ShapeOps
import Idealize.ShloMosaic.Lib.ValueIdx
import Mathlib.Algebra.BigOperators.Fin
import Mathlib.Data.BitVec

namespace Cert.LibScatter

open Idealize.ShloMosaic Idealize.ShloMosaic.ValueIdx

/-- A left fold whose every step adds, entry by entry, an amount `a n i` that depends on the list element `n` alone:
    the entry at `i` ends as the start's plus the sum of the amounts along the list. -/
theorem foldl_add_at {ι κ M : Type*} [AddCommMonoid M] (a : ι → κ → M) (step : (κ → M) → ι → κ → M)
    (hstep : ∀ r n i, step r n i = r i + a n i) (l : List ι) (x : κ → M) (i : κ) :
    l.foldl step x i = x i + (l.map fun n => a n i).sum := by
  induction l generalizing x with
  | nil => simp
  | cons n l ih => rw [List.foldl_cons, ih, hstep, List.map_cons, List.sum_cons, add_assoc]

/-- THE SCATTER-ADD READ AT `i`: the operand at `i` plus the sum, over all update positions in row-major order, of
    the updates whose result index is `i` (a position whose result index falls outside the operand adds nothing). -/
theorem scatter_add_apply {s si u : Shape} {w v : Nat} (d : ScatterDims s si u) (x : s.Idx → BitVec v) (idx : IVec si w)
    (upd : u.Idx → BitVec v) (i : s.Idx) :
    Host.scatter d IntOp.addi x idx upd i
      = x i + ∑ n : Fin u.numel,
          (if d.resultIdx? (u.rowMajor.symm n) idx = some i then upd (u.rowMajor.symm n) else 0) := by
  unfold Host.scatter
  rw [Fin.sum_univ_def]
  refine foldl_add_at
    (fun n i => if d.resultIdx? (u.rowMajor.symm n) idx = some i then upd (u.rowMajor.symm n) else 0) _
    (fun r n i => ?_) _ x i
  split
  · next h =>
    rw [h]
    show (if i = i then IntOp.addi (r i) (upd (u.rowMajor.symm n)) else r i) = _
    rw [if_pos rfl]
    rfl
  · next h =>
    rw [add_zero]
    cases hg : d.resultIdx? (u.rowMajor.symm n) idx with
    | none => rfl
    | some t =>
      have hit : ¬ i = t := fun e => h (by rw [hg, e])
      show (if i = t then IntOp.addi (r t) (upd (u.rowMajor.symm n)) else r i) = r i
      rw [if_neg hit]

end Cert.LibScatter
-- ==== Proof.RefTrilB.lean ====
/-
  The second half of the index table: from the running count of the mask to the rows and columns of the entries
  below the diagonal.

  Given the running count in closed form (`cN`), the histogram over 351 bins adds one to bin `cN n` for each flat
  position `n` (the two positions where the count is 351 are dropped), so bin `p` holds the number of positions
  with running count `p`: the gap between the `p`-th pair's flat position and the one before. The running sum of the
  gaps is the `p`-th pair's flat position `27 i + j`, whose quotient and remainder by 27 are `i` and `j`.
-/
import proofs.«424834_j5669356831571_3_alg».proof.Proof.RefTrilBEval
import proofs.«424834_j5669356831571_3_alg».proof.Proof.LibCumsum
import proofs.«424834_j5669356831571_3_alg».proof.Proof.LibScatter

noncomputable section

namespace Cert.ReferenceIdeal.Tril

open Idealize.ShloMosaic Idealize.ShloMosaic.ValueIdx
open Cert.ReferenceIdeal Cert.ReferenceIdeal.Facts₀
open Cert.LibCumsum Cert.LibScatter

/-! ## The histogram -/

/-- Update `n` lands in bin `p` exactly when the running count at `n` is `p`. -/
theorem land_iff (n : Fin S729.numel) (p : Fin 351) : land n = some (ix1 p) ↔ cN n.val = p.val := by
  have ht := land_table n
  cases hl : land n with
  | none =>
    rw [hl, Option.map_none] at ht
    have hc : ¬ cN n.val < 351 := fun h => by rw [if_pos h] at ht; exact Option.some_ne_none _ ht.symm
    have := p.isLt
    constructor
    · intro h; exact (Option.some_ne_none _ h.symm).elim
    · intro h; omega
  | some i =>
    rw [hl, Option.map_some] at ht
    have hc : cN n.val < 351 := by
      by_contra h; rw [if_neg h] at ht; exact Option.some_ne_none _ ht
    rw [if_pos hc] at ht
    have hi : (i 0).val = cN n.val := Option.some.inj ht
    constructor
    · intro h
      have : i = ix1 p := Option.some.inj h
      rw [← hi, this]
    · intro h
      congr 1
      rw [eq_ix1 i]
      congr 1
      exact Fin.ext (hi.trans h)

/-- A sum of ones over the positions below `N` that satisfy `P` counts them. -/
theorem sum_indicator (P : ℕ → Prop) [DecidablePred P] (N : ℕ) :
    (∑ n : Fin N, if P n.val then (1#32 : BitVec 32) else 0#32) = BitVec.ofNat 32 ((Finset.range N).filter P).card :=
  (Fin.sum_univ_eq_sum_range (fun n => if P n then (1#32 : BitVec 32) else 0#32) N).trans
    (Finset.sum_boole P (Finset.range N))

/-- The running count, as the vector it is. -/
theorem v34_eq (h34 : ∀ n : Fin 729, v34 (ix1 n) = BitVec.ofNat 32 (cN n.val)) : v34 = cVec :=
  funext fun i => (congrArg v34 (eq_ix1 i)).trans (h34 (i 0))

/-- Bin `p` of the histogram: zero plus one for every position whose running count is `p`. -/
theorem v37_apply (h34 : ∀ n : Fin 729, v34 (ix1 n) = BitVec.ofNat 32 (cN n.val)) (p : Fin 351) :
    v37 (ix1 p) = BitVec.ofNat 32 (histN p.val) := by
  unfold v37
  rw [v34_eq h34]
  refine (scatter_add_apply _ _ _ _ (ix1 p)).trans ?_
  refine (zero_add _).trans ?_
  refine (Finset.sum_congr rfl fun n _ =>
    if_congr (land_iff n p) (rfl : _ = (1#32 : BitVec 32)) (rfl : _ = 0#32)).trans ?_
  refine (sum_indicator (fun n => cN n = p.val) 729).trans ?_
  rw [count_cN p]

theorem v37_eq (h34 : ∀ n : Fin 729, v34 (ix1 n) = BitVec.ofNat 32 (cN n.val)) : v37 = hVec :=
  funext fun i => (congrArg v37 (eq_ix1 i)).trans (v37_apply h34 (i 0))

/-! ## Its running sum -/

/-- The gaps up to the `m`-th add up to the `m`-th pair's flat position. -/
theorem sum_hist : ∀ m : ℕ, m < 351 → ∑ k ∈ Finset.range (m + 1), entry hVec k = BitVec.ofNat 32 (gN m)
  | 0, _ => by
    rw [Finset.sum_range_one]
    unfold entry
    rw [dif_pos (by omega)]
    show BitVec.ofNat 32 (histN 0) = _
    rw [histN_zero]
  | m + 1, h => by
    rw [Finset.sum_range_succ, sum_hist m (by omega)]
    unfold entry
    rw [dif_pos h]
    show BitVec.ofNat 32 (gN m) + BitVec.ofNat 32 (histN (m + 1)) = _
    rw [← BitVec.ofNat_add, gN_step ⟨m, by omega⟩]

/-- Entry `p` of the running sum of the histogram is the `p`-th pair's flat position. -/
theorem v38_apply (h34 : ∀ n : Fin 729, v34 (ix1 n) = BitVec.ofNat 32 (cN n.val)) (p : Fin 351) :
    v38 (ix1 p) = BitVec.ofNat 32 (gN p.val) := by
  unfold v38
  rw [v37_eq h34]
  refine (cumsum_apply 351 350 rfl hVec _ _ _ rfl p).trans ?_
  exact sum_hist p.val p.isLt

theorem v38_eq (h34 : ∀ n : Fin 729, v34 (ix1 n) = BitVec.ofNat 32 (cN n.val)) : v38 = gVec :=
  funext fun i => (congrArg v38 (eq_ix1 i)).trans (v38_apply h34 (i 0))

/-! ## Rows and columns -/

/-- The row of the `p`-th entry below the diagonal is the larger member of the `p`-th pair. -/
theorem rows_apply_of (h34 : ∀ n : Fin 729, v34 (ix1 n) = BitVec.ofNat 32 (cN n.val)) (p : Fin 351) :
    rows (ix1 p) = BitVec.ofNat 32 (Cert.Spec.li p).val := by
  show normalise (remainder (floorDivide v38 (constantI S_ 32 27#32)) (constantI S_ 32 27#32)) (ix1 p) = _
  rw [v38_eq h34]
  exact rows_gVec p

/-- Its column is the smaller member. -/
theorem cols_apply_of (h34 : ∀ n : Fin 729, v34 (ix1 n) = BitVec.ofNat 32 (cN n.val)) (p : Fin 351) :
    cols (ix1 p) = BitVec.ofNat 32 (Cert.Spec.lj p).val := by
  show normalise (remainder (floorDivide v38 (constantI S_ 32 1#32)) (constantI S_ 32 27#32)) (ix1 p) = _
  rw [v38_eq h34]
  exact cols_gVec p

end Cert.ReferenceIdeal.Tril

end
-- ==== Proof.RefTril.lean ====
/-
  The two index vectors of the strict lower triangle of a 27 × 27 matrix, as the reference program computes
  them, and their values: at `p` the row and the column of the `p`-th pair `i > j`, the pairs counted row by
  row. The running count of the flattened mask is in closed form (the first half); the histogram of the running
  count, its running sum and the quotient and remainder by 27 then give the pair (the second half).
-/
import proofs.«424834_j5669356831571_3_alg».proof.Proof.RefTrilA
import proofs.«424834_j5669356831571_3_alg».proof.Proof.RefTrilB

namespace Cert.ReferenceIdeal.Tril

open Idealize.ShloMosaic Idealize.ShloMosaic.ValueIdx

/-- The rows: entry `p` is the larger member of the `p`-th pair. -/
theorem rows_apply (p : Fin 351) : rows (ix1 p) = BitVec.ofNat 32 (Cert.Spec.li p).val :=
  rows_apply_of v34_apply p

/-- The columns: entry `p` is the smaller member of the `p`-th pair. -/
theorem cols_apply (p : Fin 351) : cols (ix1 p) = BitVec.ofNat 32 (Cert.Spec.lj p).val :=
  cols_apply_of v34_apply p

end Cert.ReferenceIdeal.Tril
-- ==== Proof.RefBottom.lean ====
/-
  The first half of the reference's value on the extended reals: the first perceptron (three affine layers,
  the positive part after the first two) and the 27 feature vectors of a sample (the perceptron's output, then
  one table row per sparse feature), each read index by index.
-/
import proofs.«424834_j5669356831571_3_alg».proof.Proof.Gen.ReferenceIdeal
import proofs.«424834_j5669356831571_3_alg».proof.Proof.Spec
import Idealize.ShloMosaic.Lib.ValueLayout
import Idealize.ShloMosaic.Lib.IdealHost
import Idealize.ShloMosaic.Lib.StackMember
import Idealize.ShloMosaic.Lib.StableHlo.Predicate

noncomputable section

namespace Cert.ReferenceIdeal.HandValue

open Idealize.ShloMosaic Idealize.ShloMosaic.ValueIdx
open Cert.ReferenceIdeal Cert.ReferenceIdeal.Facts₀

/-- The first perceptron: three times a product with the transposed weights plus the bias spread over the rows,
    the positive part taken after the first and the second. -/
def botTerm (x : FVec Ideal S4096x13 .f32) (w0 : FVec Ideal S512x13 .f32) (b0 : FVec Ideal S512 .f32)
    (w1 : FVec Ideal S256x512 .f32) (b1 : FVec Ideal S256 .f32) (w2 : FVec Ideal S64x256 .f32)
    (b2 : FVec Ideal S64 .f32) : FVec Ideal S4096x64 .f32 :=
  let v0 : FVec Ideal S13x512 .f32 := transpose S13x512 [1, 0] w0 transposes_S512x13_S13x512_1_0
  let v1 : FVec Ideal S4096x512 .f32 := Host.dotGeneral dot_S4096x13_S13x512_S4096x512_1_0_0_1_n_n none x v0
  let v2 : FVec Ideal S1x512 .f32 := broadcastInDim S1x512 ![1] bcast_S512_S1x512_1 b0
  let v3 : FVec Ideal S4096x512 .f32 := broadcastInDim S4096x512 ![0, 1] bcast_S1x512_S4096x512_0_1 v2
  let v4 : FVec Ideal S4096x512 .f32 := addf v1 v3
  let c0 : FVec Ideal S_ .f32 := constant S_ .f32 0x00000000#32
  let z0 : FVec Ideal S4096x512 .f32 := broadcastInDim S4096x512 ![] bcast_S_S4096x512 c0
  let v5 : FVec Ideal S4096x512 .f32 := maximumf v4 z0
  let v6 : FVec Ideal S512x256 .f32 := transpose S512x256 [1, 0] w1 transposes_S256x512_S512x256_1_0
  let v7 : FVec Ideal S4096x256 .f32 := Host.dotGeneral dot_S4096x512_S512x256_S4096x256_1_0_0_1_n_n none v5 v6
  let v8 : FVec Ideal S1x256 .f32 := broadcastInDim S1x256 ![1] bcast_S256_S1x256_1 b1
  let v9 : FVec Ideal S4096x256 .f32 := broadcastInDim S4096x256 ![0, 1] bcast_S1x256_S4096x256_0_1 v8
  let v10 : FVec Ideal S4096x256 .f32 := addf v7 v9
  let c1 : FVec Ideal S_ .f32 := constant S_ .f32 0x00000000#32
  let z1 : FVec Ideal S4096x256 .f32 := broadcastInDim S4096x256 ![] bcast_S_S4096x256 c1
  let v11 : FVec Ideal S4096x256 .f32 := maximumf v10 z1
  let v12 : FVec Ideal S256x64 .f32 := transpose S256x64 [1, 0] w2 transposes_S64x256_S256x64_1_0
  let v13 : FVec Ideal S4096x64 .f32 := Host.dotGeneral dot_S4096x256_S256x64_S4096x64_1_0_0_1_n_n none v11 v12
  let v14 : FVec Ideal S1x64 .f32 := broadcastInDim S1x64 ![1] bcast_S64_S1x64_1 b2
  let v15 : FVec Ideal S4096x64 .f32 := broadcastInDim S4096x64 ![0, 1] bcast_S1x64_S4096x64_0_1 v14
  addf v13 v15

/-- The 27 vectors of every sample: the perceptron's output as vector 0, then for each sparse feature the table row
    its index selects (the index moved into range when negative, the row replaced by an undefined value when the
    index is out of range), the feature axis brought second. -/
def featTerm (x16 : FVec Ideal S4096x64 .f32) (idx : IVec S26x4096 32) (emb : FVec Ideal S26x100000x64 .f32) :
    FVec Ideal S4096x27x64 .f32 :=
  let v17 : IVec S26x4096x1 32 := broadcastInDim S26x4096x1 ![0, 1] bcast_S26x4096_S26x4096x1_0_1 idx
  let c : IVec S_ 32 := constantI S_ 32 0#32
  let t0 : IVec S26x4096x1 32 := broadcastInDim S26x4096x1 ![] bcast_S_S26x4096x1 c
  let t1 : IVec S26x4096x1 1 := cmpi .slt v17 t0
  let c_0 : IVec S_ 32 := constantI S_ 32 100000#32
  let t2 : IVec S26x4096x1 32 := broadcastInDim S26x4096x1 ![] bcast_S_S26x4096x1 c_0
  let t3 : IVec S26x4096x1 32 := addi v17 t2
  let t4 : IVec S26x4096x1 32 := select t1 t3 v17
  let c_1 : IVec S1 32 := constantI S1 32 99999#32
  let c_2 : IVec S_ 32 := constantI S_ 32 0#32
  let t5 : IVec S26x4096x1 32 := broadcastInDim S26x4096x1 ![] bcast_S_S26x4096x1 c_2
  let t6 : IVec S26x4096x1 1 := cmpi .sge t4 t5
  let t7 : IVec S1x1x1 32 := broadcastInDim S1x1x1 ![2] bcast_S1_S1x1x1_2 c_1
  let t8 : IVec S26x4096x1 32 := broadcastInDim S26x4096x1 ![0, 1, 2] bcast_S1x1x1_S26x4096x1_0_1_2 t7
  let t9 : IVec S26x4096x1 1 := cmpi .sle t4 t8
  let t10 : IVec S26x4096x1 1 := andi t6 t9
  let c_3 : IVec S_ 1 := constantI S_ 1 1#1
  let t11 : IVec S26x4096 1 := Host.reduce IntOp.andi t10 c_3 reducesTo_S26x4096x1_S26x4096_d2 h_S_
  let t12 : FVec Ideal S26x4096x64 .f32 :=
    Host.gather gather_S26x100000x64_S26x4096x1_S26x4096x64_2_1_0_0_1_2_1164 emb t4
  let t13 : IVec S26x4096x64 1 := broadcastInDim S26x4096x64 ![0, 1] bcast_S26x4096_S26x4096x64_0_1 t11
  let cst : FVec Ideal S_ .f32 := constant S_ .f32 0x7FC00000#32
  let t14 : FVec Ideal S26x4096x64 .f32 := broadcastInDim S26x4096x64 ![] bcast_S_S26x4096x64 cst
  let v18 : FVec Ideal S26x4096x64 .f32 := select t13 t12 t14
  let v19 : FVec Ideal S4096x1x64 .f32 := broadcastInDim S4096x1x64 ![0, 2] bcast_S4096x64_S4096x1x64_0_2 x16
  let v20 : FVec Ideal S4096x26x64 .f32 :=
    transpose S4096x26x64 [1, 0, 2] v18 transposes_S26x4096x64_S4096x26x64_1_0_2
  concatenate S4096x27x64 1 [⟨S4096x1x64, v19⟩, ⟨S4096x26x64, v20⟩]
    concatenates_S4096x1x64_S4096x26x64_S4096x27x64_d1

/-! The pieces the two statements are read through. -/
namespace Bottom

/-! ## One layer at an index -/

/-- An affine layer — the product with the transposed weights plus the bias laid along every row — read at
    `(r, n)`: the inner product of sample `r` with weight row `n`, plus entry `n` of the bias. -/
theorem affine_apply {M K N : Nat}
    (x : FVec Ideal ⟨2, ![M, K]⟩ .f32) (w : FVec Ideal ⟨2, ![N, K]⟩ .f32) (b : FVec Ideal ⟨1, ![N]⟩ .f32)
    (ht : (⟨2, ![N, K]⟩ : Shape).Transposes [1, 0] ⟨2, ![K, N]⟩)
    (D : DotDims ⟨2, ![M, K]⟩ ⟨2, ![K, N]⟩ ⟨2, ![M, N]⟩) (hD : D = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (r : Fin M) (n : Fin N) :
    addf (Host.dotGeneral D none x (transpose ⟨2, ![K, N]⟩ [1, 0] w ht))
        (broadcastInDim ⟨2, ![M, N]⟩ ![0, 1] h2 (broadcastInDim ⟨2, ![1, N]⟩ ![1] h1 b)) (ix2 r n)
      = (∑ k : Fin K, x (ix2 r k) * w (ix2 n k)) + b (ix1 n) := by
  subst hD
  rw [addf_apply, StackMember.dotGeneral_plain_apply, broadcastInDim_oneRow_apply]
  have eb : broadcastInDim ⟨2, ![1, N]⟩ ![1] h1 b (ix2 (0 : Fin 1) n) = b (ix1 n) :=
    broadcastInDim_apply ![1] h1 b _ _ fun c => match c with
      | ⟨0, _⟩ => by
        show n.val = if N = 1 then 0 else n.val
        split
        · have := n.isLt; omega
        · rfl
  rw [eb]
  congr 1
  refine Finset.sum_congr rfl fun k _ => ?_
  rw [transpose_ix2_apply]

/-- The positive part — the maximum with a zero spread over the array — read at an index. -/
theorem relu_apply {s : Shape} (h : S_.BroadcastsInDim s ![]) (v : FVec Ideal s .f32) (i : s.Idx) :
    maximumf v (broadcastInDim s ![] h (constant (F := Ideal) S_ .f32 0x00000000#32)) i = max (v i) 0 := by
  rw [maximumf_apply, broadcastInDim_scalar_apply, constant_apply, Ideal.ofBits_zero_f32]

/-! ## The table rows the sparse features select -/

/-- The record of the gather: feature axis against feature axis, the sample's index along the table's rows, the
    whole 64-vector taken. -/
abbrev rowGather : GatherDims S26x100000x64 S26x4096x1 S26x4096x64 :=
  gather_S26x100000x64_S26x4096x1_S26x4096x64_2_1_0_0_1_2_1164

/-- The indices as the gather reads them: a negative one is moved up by the table's length. -/
def normIdx (idx : IVec S26x4096 32) : IVec S26x4096x1 32 :=
  select
    (cmpi .slt (broadcastInDim S26x4096x1 ![0, 1] bcast_S26x4096_S26x4096x1_0_1 idx)
      (broadcastInDim S26x4096x1 ![] bcast_S_S26x4096x1 (constantI S_ 32 0#32)))
    (addi (broadcastInDim S26x4096x1 ![0, 1] bcast_S26x4096_S26x4096x1_0_1 idx)
      (broadcastInDim S26x4096x1 ![] bcast_S_S26x4096x1 (constantI S_ 32 100000#32)))
    (broadcastInDim S26x4096x1 ![0, 1] bcast_S26x4096_S26x4096x1_0_1 idx)

/-- Which indices are inside the table, once moved: between 0 and 99999. -/
def inRange (idx : IVec S26x4096 32) : IVec S26x4096 1 :=
  Host.reduce IntOp.andi
    (andi
      (cmpi .sge (normIdx idx) (broadcastInDim S26x4096x1 ![] bcast_S_S26x4096x1 (constantI S_ 32 0#32)))
      (cmpi .sle (normIdx idx)
        (broadcastInDim S26x4096x1 ![0, 1, 2] bcast_S1x1x1_S26x4096x1_0_1_2
          (broadcastInDim S1x1x1 ![2] bcast_S1_S1x1x1_2 (constantI S1 32 99999#32)))))
    (constantI S_ 1 1#1) reducesTo_S26x4096x1_S26x4096_d2 h_S_

/-- The selected rows, feature by feature: the table read at the moved index where it is inside the table. -/
def rows (idx : IVec S26x4096 32) (emb : FVec Ideal S26x100000x64 .f32) : FVec Ideal S26x4096x64 .f32 :=
  select (broadcastInDim S26x4096x64 ![0, 1] bcast_S26x4096_S26x4096x64_0_1 (inRange idx))
    (Host.gather rowGather emb (normIdx idx))
    (broadcastInDim S26x4096x64 ![] bcast_S_S26x4096x64 (constant (F := Ideal) S_ .f32 0x7FC00000#32))

/-- The 27 vectors are the perceptron's output and those rows, joined along the second axis. -/
theorem featTerm_eq (x16 : FVec Ideal S4096x64 .f32) (idx : IVec S26x4096 32) (emb : FVec Ideal S26x100000x64 .f32) :
    featTerm x16 idx emb
      = concatenate S4096x27x64 1
          [⟨S4096x1x64, broadcastInDim S4096x1x64 ![0, 2] bcast_S4096x64_S4096x1x64_0_2 x16⟩,
           ⟨S4096x26x64, transpose S4096x26x64 [1, 0, 2] (rows idx emb) transposes_S26x4096x64_S4096x26x64_1_0_2⟩]
          concatenates_S4096x1x64_S4096x26x64_S4096x27x64_d1 := rfl

/-! ### Words: an index below the table's length -/

/-- A word below 100000 is not negative, so it is not moved. -/
theorem norm_word (w : BitVec 32) (hw : w.toNat < 100000) :
    Scalar.select (IntOp.cmpi .slt w 0#32) (IntOp.addi w 100000#32) w = w := by
  have h : ¬ IntOp.cmpi .slt w 0#32 = 1#1 := by
    rw [StableHlo.Predicate.slt_iff_toNat (by omega) (by decide)]
    exact Nat.not_lt_zero _
  exact if_neg h

/-- A word below 100000 is between 0 and 99999. -/
theorem mask_word (w : BitVec 32) (hw : w.toNat < 100000) :
    IntOp.andi (IntOp.cmpi .sge w 0#32) (IntOp.cmpi .sle w 99999#32) = 1#1 := by
  have h1 : IntOp.cmpi .sge w 0#32 = 1#1 :=
    (StableHlo.Predicate.sge_iff_toNat (by omega) (by decide)).2 (Nat.zero_le _)
  have h2 : IntOp.cmpi .sle w 99999#32 = 1#1 :=
    (StableHlo.Predicate.sle_iff_toNat (by omega) (by decide)).2 (by
      show w.toNat ≤ 99999
      omega)
  rw [h1, h2]
  rfl

/-- A fold by `and` from 1 over ones is 1. -/
theorem foldl_andi_ones {ι : Type} (x : ι → BitVec 1) :
    ∀ l : List ι, (∀ i ∈ l, x i = 1#1) → l.foldl (fun r i => IntOp.andi r (x i)) 1#1 = 1#1
  | [], _ => rfl
  | i :: l, h => by
    rw [List.foldl_cons, h i List.mem_cons_self]
    exact foldl_andi_ones x l fun j hj => h j (List.mem_cons_of_mem _ hj)

/-! ### The pieces at an index -/

/-- Every index is below the table's length, so the gather reads the index itself. -/
theorem normIdx_apply (idx : IVec S26x4096 32) (hidx : ∀ i, (idx i).toNat < 100000) (e : Fin 26) (r : Fin 4096)
    (z : Fin 1) : normIdx idx (ix3 e r z) = idx (ix2 e r) := by
  have e17 : broadcastInDim S26x4096x1 ![0, 1] bcast_S26x4096_S26x4096x1_0_1 idx (ix3 e r z) = idx (ix2 e r) :=
    broadcastInDim_apply ![0, 1] bcast_S26x4096_S26x4096x1_0_1 idx (ix3 e r z) (ix2 e r) fun c => match c with
      | ⟨0, _⟩ => rfl
      | ⟨1, _⟩ => rfl
  show Scalar.select (IntOp.cmpi .slt (broadcastInDim S26x4096x1 ![0, 1] bcast_S26x4096_S26x4096x1_0_1 idx (ix3 e r z)) 0#32)
      (IntOp.addi (broadcastInDim S26x4096x1 ![0, 1] bcast_S26x4096_S26x4096x1_0_1 idx (ix3 e r z)) 100000#32)
      (broadcastInDim S26x4096x1 ![0, 1] bcast_S26x4096_S26x4096x1_0_1 idx (ix3 e r z)) = _
  rw [e17]
  exact norm_word _ (hidx _)

/-- … so every index is inside its table. -/
theorem inRange_apply (idx : IVec S26x4096 32) (hidx : ∀ i, (idx i).toNat < 100000) (j : S26x4096.Idx) :
    inRange idx j = 1#1 := by
  unfold inRange
  rw [Host.reduce_eq_foldl]
  refine foldl_andi_ones _ _ fun i _ => ?_
  obtain ⟨e, r, z, rfl⟩ : ∃ (e : Fin 26) (r : Fin 4096) (z : Fin 1), i = ix3 e r z := ⟨i 0, i 1, i 2, eq_ix3 i⟩
  show IntOp.andi (IntOp.cmpi .sge (normIdx idx (ix3 e r z)) 0#32) (IntOp.cmpi .sle (normIdx idx (ix3 e r z)) 99999#32) = 1#1
  rw [normIdx_apply idx hidx]
  exact mask_word _ (hidx _)

/-! The gather's operand index, axis by axis: the feature on the batching axis, the start index (read signed, kept
    inside the table) on the collapsed axis, the entry on the offset axis. -/

theorem gather_axis0 (si : IVec S26x4096x1 32) (e : Fin 26) (r : Fin 4096) (d : Fin 64) :
    rowGather.start (ix3 e r d) si 0 + rowGather.batchCoord (ix3 e r d) 0 + rowGather.offCoord (ix3 e r d) 0 = e.val := by
  rw [GatherDims.start_batching _ _ _ _ (List.mem_singleton.mpr rfl),
    GatherDims.offCoord_eq_zero _ _ _ (fun h => ((GatherDims.mem_sKept _ _).mp h).2 (List.mem_singleton.mpr rfl))]
  unfold GatherDims.batchCoord
  rw [dif_pos (show (0 : Fin 3) ∈ rowGather.operandBatchingDims from List.mem_singleton.mpr rfl)]
  rw [Nat.zero_add, Nat.add_zero]
  rfl

theorem gather_axis1 (si : IVec S26x4096x1 32) (e : Fin 26) (r : Fin 4096) (d : Fin 64) :
    rowGather.start (ix3 e r d) si 1 + rowGather.batchCoord (ix3 e r d) 1 + rowGather.offCoord (ix3 e r d) 1
      = min (si (ix3 e r (0 : Fin 1))).toInt.toNat 99999 := by
  rw [GatherDims.batchCoord_eq_zero _ _ _ (by decide),
    GatherDims.offCoord_eq_zero _ _ _ (fun h => ((GatherDims.mem_sKept _ _).mp h).1 (List.mem_singleton.mpr rfl))]
  simp only [Nat.add_zero]
  unfold GatherDims.start
  rw [dif_pos (show (1 : Fin 3) ∈ rowGather.startIndexMap from List.mem_singleton.mpr rfl)]
  have hsi : rowGather.siIdx (ix3 e r d) ⟨List.idxOf (1 : Fin 3) rowGather.startIndexMap,
      List.idxOf_lt_length_iff.2 (List.mem_singleton.mpr rfl)⟩ = ix3 e r (0 : Fin 1) := by
    funext b; refine Fin.ext ?_
    match b with
    | ⟨0, _⟩ => rfl
    | ⟨1, _⟩ => rfl
    | ⟨2, _⟩ => rfl
  rw [hsi]
  rfl

theorem gather_axis2 (si : IVec S26x4096x1 32) (e : Fin 26) (r : Fin 4096) (d : Fin 64) :
    rowGather.start (ix3 e r d) si 2 + rowGather.batchCoord (ix3 e r d) 2 + rowGather.offCoord (ix3 e r d) 2 = d.val := by
  rw [GatherDims.batchCoord_eq_zero _ _ _ (by decide)]
  have hs : rowGather.start (ix3 e r d) si (2 : Fin 3) = 0 := by
    unfold GatherDims.start
    rw [dif_neg (by decide)]
  rw [hs]
  unfold GatherDims.offCoord
  rw [dif_pos (by decide)]
  simp only [Nat.zero_add]
  rfl

/-- The gather's operand index at `(e, r, d)`: feature `e`'s table, the row the start index names, entry `d`. -/
theorem gather_idx (si : IVec S26x4096x1 32) (e : Fin 26) (r : Fin 4096) (d : Fin 64) :
    rowGather.operandIdx (ix3 e r d) si
      = ix3 e (⟨min (si (ix3 e r (0 : Fin 1))).toInt.toNat 99999, by omega⟩ : Fin 100000) d := by
  funext a
  refine Fin.ext ?_
  match a with
  | ⟨0, _⟩ => exact gather_axis0 si e r d
  | ⟨1, _⟩ => exact gather_axis1 si e r d
  | ⟨2, _⟩ => exact gather_axis2 si e r d

/-- The selected row of feature `e` for sample `r`: the table's row at the sample's index. -/
theorem rows_apply (idx : IVec S26x4096 32) (emb : FVec Ideal S26x100000x64 .f32)
    (hidx : ∀ i, (idx i).toNat < 100000) (e : Fin 26) (r : Fin 4096) (d : Fin 64) :
    rows idx emb (ix3 e r d) = emb (ix3 e (⟨(idx (ix2 e r)).toNat, hidx _⟩ : Fin 100000) d) := by
  have e13 : broadcastInDim S26x4096x64 ![0, 1] bcast_S26x4096_S26x4096x64_0_1 (inRange idx) (ix3 e r d) = 1#1 := by
    rw [broadcastInDim_apply ![0, 1] bcast_S26x4096_S26x4096x64_0_1 (inRange idx) (ix3 e r d) (ix2 e r) fun c => match c with
      | ⟨0, _⟩ => rfl
      | ⟨1, _⟩ => rfl]
    exact inRange_apply idx hidx _
  unfold rows
  rw [select_apply, e13, select_one]
  unfold Host.gather
  rw [gather_idx]
  refine congrArg emb ?_
  have hw := hidx (ix2 e r)
  have hi : (idx (ix2 e r)).toInt = (idx (ix2 e r)).toNat := StableHlo.Predicate.toInt_eq_toNat_of_lt (by omega)
  funext a
  refine Fin.ext ?_
  match a with
  | ⟨0, _⟩ => rfl
  | ⟨1, _⟩ =>
    show min (normIdx idx (ix3 e r (0 : Fin 1))).toInt.toNat 99999 = (idx (ix2 e r)).toNat
    rw [normIdx_apply idx hidx, hi, Int.toNat_natCast]
    omega
  | ⟨2, _⟩ => rfl

end Bottom

open Bottom
/-! ## The three layers -/

theorem botTerm_apply (a : Cert.Spec.Inputs) (r : Fin 4096) (d : Fin 64) :
    botTerm a.dense a.bw0 a.bb0 a.bw1 a.bb1 a.bw2 a.bb2 (ix2 r d) = Cert.Spec.bot a r d := by
  unfold botTerm
  dsimp only
  rw [affine_apply _ _ _ _ dot_S4096x256_S256x64_S4096x64_1_0_0_1_n_n rfl]
  unfold Cert.Spec.bot
  congr 1
  refine Finset.sum_congr rfl fun k _ => ?_
  congr 1
  rw [relu_apply, affine_apply _ _ _ _ dot_S4096x512_S512x256_S4096x256_1_0_0_1_n_n rfl]
  unfold Cert.Spec.h1
  congr 2
  refine Finset.sum_congr rfl fun j _ => ?_
  congr 1
  rw [relu_apply, affine_apply _ _ _ _ dot_S4096x13_S13x512_S4096x512_1_0_0_1_n_n rfl]
  rfl

/-! ## The 27 vectors -/

theorem featTerm_apply (a : Cert.Spec.Inputs) (hidx : ∀ i, (a.idx i).toNat < 100000) (r : Fin 4096) (f : Fin 27)
    (d : Fin 64) :
    featTerm (botTerm a.dense a.bw0 a.bb0 a.bw1 a.bb1 a.bw2 a.bb2) a.idx a.emb (ix3 r f d)
      = Cert.Spec.feat a r f d := by
  rw [featTerm_eq]
  unfold Cert.Spec.feat
  by_cases hf : f.val = 0
  · rw [dif_pos hf]
    rw [concatenate_pair_apply_left (s₁ := S4096x1x64) (s₂ := S4096x26x64) (1 : Fin 3) _ _
      concatenates_S4096x1x64_S4096x26x64_S4096x27x64_d1 (ix3 r f d) rfl (ix3 r (0 : Fin 1) d) (fun b => match b with
      | ⟨0, _⟩ => rfl
      | ⟨1, _⟩ => hf.symm
      | ⟨2, _⟩ => rfl)]
    rw [broadcastInDim_apply ![0, 2] bcast_S4096x64_S4096x1x64_0_2 _ (ix3 r (0 : Fin 1) d) (ix2 r d) fun c => match c with
      | ⟨0, _⟩ => rfl
      | ⟨1, _⟩ => rfl]
    exact botTerm_apply a r d
  · rw [dif_neg hf]
    have hf26 : f.val - 1 < 26 := by have := f.isLt; omega
    rw [concatenate_pair_apply_right (s₁ := S4096x1x64) (s₂ := S4096x26x64) (1 : Fin 3) _ _
      concatenates_S4096x1x64_S4096x26x64_S4096x27x64_d1 (ix3 r f d) rfl rfl (ix3 r (⟨f.val - 1, hf26⟩ : Fin 26) d)
      (fun b hb => match b, hb with
        | ⟨0, _⟩, _ => rfl
        | ⟨1, _⟩, hb => absurd rfl hb
        | ⟨2, _⟩, _ => rfl)
      (by show f.val - 1 + 1 = f.val; omega)]
    rw [transpose_apply [1, 0, 2] _ transposes_S26x4096x64_S4096x26x64_1_0_2 (ix3 r (⟨f.val - 1, hf26⟩ : Fin 26) d) (ix3 (⟨f.val - 1, hf26⟩ : Fin 26) r d)
      fun c => match c with
        | ⟨0, _⟩ => rfl
        | ⟨1, _⟩ => rfl
        | ⟨2, _⟩ => rfl]
    rw [rows_apply a.idx a.emb hidx]
    congr 1
    funext c
    refine Fin.ext ?_
    match c with
    | ⟨0, _⟩ => rfl
    | ⟨1, _⟩ =>
      show (a.idx (ix2 ⟨f.val - 1, hf26⟩ r)).toNat = (a.idx (ix2 ⟨f.val - 1, _⟩ r)).toNat % 100000
      exact (Nat.mod_eq_of_lt (hidx _)).symm
    | ⟨2, _⟩ => rfl

end Cert.ReferenceIdeal.HandValue

end
-- ==== Proof.RefTop.lean ====
/-
  The second half of the reference's value, index by index on the extended reals: the table of all inner
  products between a row's 27 vectors, the 351 entries of it the pairs i > j select, their concatenation
  behind the dense vector, and the second three-layer perceptron; then the whole reference as one function
  of its fifteen arrays, equal to the common specification.
-/
import proofs.«424834_j5669356831571_3_alg».proof.Proof.Gen.ReferenceIdeal
import proofs.«424834_j5669356831571_3_alg».proof.Proof.Spec
import proofs.«424834_j5669356831571_3_alg».proof.Proof.RefTril
import proofs.«424834_j5669356831571_3_alg».proof.Proof.RefBottom
import Idealize.ShloMosaic.Lib.ValueIdx
import Idealize.ShloMosaic.Lib.Pipeline.Value
import Idealize.ShloMosaic.Lib.ValueLayout
import Idealize.ShloMosaic.Lib.KernelVsHost
import Idealize.ShloMosaic.Lib.IdealHost
import Idealize.ShloMosaic.Lib.StackMember
import Idealize.ShloMosaic.PureOps.Ideal.Laws

noncomputable section

namespace Cert.ReferenceIdeal.HandValue

open Idealize.ShloMosaic Idealize.ShloMosaic.ValueIdx Cert.ReferenceIdeal Cert.ReferenceIdeal.Facts₀

namespace Top

/-- All pairwise inner products of a row's 27 vectors: entry (r, f, g) is the inner product of vectors f and g of row r. -/
abbrev gramTerm (T : FVec Ideal S4096x27x64 .f32) : FVec Ideal S4096x27x27 .f32 :=
  Host.dotGeneral (F := Ideal) dot_S4096x27x64_S4096x27x64_S4096x27x27_2_2_1_1_0_0 none T T

/-- The two index vectors side by side: row p holds the pair (rows p, cols p). -/
abbrev pairIdxTerm (rows cols : IVec S351 32) : IVec S351x2 32 :=
  concatenate S351x2 1
    [⟨S351x1, broadcastInDim S351x1 ![0] bcast_S351_S351x1_0 rows⟩,
     ⟨S351x1, broadcastInDim S351x1 ![0] bcast_S351_S351x1_0 cols⟩]
    concatenates_S351x1_S351x1_S351x2_d1

/-- The entries of the table of inner products the pairs select. -/
abbrev interTermOf (rows cols : IVec S351 32) (T : FVec Ideal S4096x27x64 .f32) : FVec Ideal S4096x351 .f32 :=
  Host.gather gather_S4096x27x27_S351x2_S4096x351_0_12_n_n_12_1_409611 (gramTerm T) (pairIdxTerm rows cols)

/-! ## The table of inner products at an index -/

theorem gram_lhs_0 (j : S4096x27x27.Idx) (k : dot_S4096x27x64_S4096x27x64_S4096x27x27_2_2_1_1_0_0.contr.Idx) :
    (dot_S4096x27x64_S4096x27x64_S4096x27x27_2_2_1_1_0_0.lhsIdx j k 0).val = (j 0).val := by
  unfold DotDims.lhsIdx
  rw [dif_pos (show (0 : Fin S4096x27x64.rank) ∈ dot_S4096x27x64_S4096x27x64_S4096x27x27_2_2_1_1_0_0.lhsBatch by decide)]
  rfl

theorem gram_lhs_1 (j : S4096x27x27.Idx) (k : dot_S4096x27x64_S4096x27x64_S4096x27x27_2_2_1_1_0_0.contr.Idx) :
    (dot_S4096x27x64_S4096x27x64_S4096x27x27_2_2_1_1_0_0.lhsIdx j k 1).val = (j 1).val := by
  unfold DotDims.lhsIdx
  rw [dif_neg (show ¬ (1 : Fin S4096x27x64.rank) ∈ dot_S4096x27x64_S4096x27x64_S4096x27x27_2_2_1_1_0_0.lhsBatch by decide),
    dif_pos (show (1 : Fin S4096x27x64.rank) ∈ dot_S4096x27x64_S4096x27x64_S4096x27x27_2_2_1_1_0_0.lhsNonContracting by decide)]
  rfl

theorem gram_lhs_2 (j : S4096x27x27.Idx) (k : dot_S4096x27x64_S4096x27x64_S4096x27x27_2_2_1_1_0_0.contr.Idx) :
    (dot_S4096x27x64_S4096x27x64_S4096x27x27_2_2_1_1_0_0.lhsIdx j k 2).val = (k ⟨0, by decide⟩).val :=
  DotDims.lhsIdx_val_of_single _ (cl := 2) rfl j k

theorem gram_rhs_0 (j : S4096x27x27.Idx) (k : dot_S4096x27x64_S4096x27x64_S4096x27x27_2_2_1_1_0_0.contr.Idx) :
    (dot_S4096x27x64_S4096x27x64_S4096x27x27_2_2_1_1_0_0.rhsIdx j k 0).val = (j 0).val := by
  unfold DotDims.rhsIdx
  rw [dif_pos (show (0 : Fin S4096x27x64.rank) ∈ dot_S4096x27x64_S4096x27x64_S4096x27x27_2_2_1_1_0_0.rhsBatch by decide)]
  rfl

theorem gram_rhs_1 (j : S4096x27x27.Idx) (k : dot_S4096x27x64_S4096x27x64_S4096x27x27_2_2_1_1_0_0.contr.Idx) :
    (dot_S4096x27x64_S4096x27x64_S4096x27x27_2_2_1_1_0_0.rhsIdx j k 1).val = (j 2).val := by
  unfold DotDims.rhsIdx
  rw [dif_neg (show ¬ (1 : Fin S4096x27x64.rank) ∈ dot_S4096x27x64_S4096x27x64_S4096x27x27_2_2_1_1_0_0.rhsBatch by decide),
    dif_pos (show (1 : Fin S4096x27x64.rank) ∈ dot_S4096x27x64_S4096x27x64_S4096x27x27_2_2_1_1_0_0.rhsNonContracting by decide)]
  rfl

theorem gram_rhs_2 (j : S4096x27x27.Idx) (k : dot_S4096x27x64_S4096x27x64_S4096x27x27_2_2_1_1_0_0.contr.Idx) :
    (dot_S4096x27x64_S4096x27x64_S4096x27x27_2_2_1_1_0_0.rhsIdx j k 2).val = (k ⟨0, by decide⟩).val :=
  DotDims.rhsIdx_val_of_single _ (cr := 2) rfl j k

/-- Entry (r, f, g) of the table is the inner product of vectors f and g of row r. -/
theorem gramTerm_apply (T : FVec Ideal S4096x27x64 .f32) (r : Fin 4096) (f g : Fin 27) :
    gramTerm T (ix3 r f g) = ∑ d : Fin 64, T (ix3 r f d) * T (ix3 r g d) := by
  show FloatOps.dotGeneral dot_S4096x27x64_S4096x27x64_S4096x27x27_2_2_1_1_0_0 none _ T T (ix3 r f g) = _
  rw [Ideal.dotGeneral_apply,
    ← Equiv.sum_comp (contrEquiv1 dot_S4096x27x64_S4096x27x64_S4096x27x27_2_2_1_1_0_0 64 rfl rfl).symm]
  refine Finset.sum_congr rfl fun d _ => ?_
  have hk := contrEquiv1_symm_val dot_S4096x27x64_S4096x27x64_S4096x27x27_2_2_1_1_0_0 64 rfl rfl d
  have hl : dot_S4096x27x64_S4096x27x64_S4096x27x27_2_2_1_1_0_0.lhsIdx (ix3 r f g)
      ((contrEquiv1 dot_S4096x27x64_S4096x27x64_S4096x27x27_2_2_1_1_0_0 64 rfl rfl).symm d) = ix3 r f d := by
    funext ax; apply Fin.ext
    match ax with
    | ⟨0, _⟩ => exact gram_lhs_0 _ _
    | ⟨1, _⟩ => exact gram_lhs_1 _ _
    | ⟨2, _⟩ => exact (gram_lhs_2 _ _).trans hk
  have hr : dot_S4096x27x64_S4096x27x64_S4096x27x27_2_2_1_1_0_0.rhsIdx (ix3 r f g)
      ((contrEquiv1 dot_S4096x27x64_S4096x27x64_S4096x27x27_2_2_1_1_0_0 64 rfl rfl).symm d) = ix3 r g d := by
    funext ax; apply Fin.ext
    match ax with
    | ⟨0, _⟩ => exact gram_rhs_0 _ _
    | ⟨1, _⟩ => exact gram_rhs_1 _ _
    | ⟨2, _⟩ => exact (gram_rhs_2 _ _).trans hk
  rw [hl, hr]

/-! ## The pairs' index array -/

/-- Column 0 of the pairs' index array is the first index vector. -/
theorem pairIdxTerm_fst (rows cols : IVec S351 32) (p : Fin 351) :
    pairIdxTerm rows cols (ix2 p (0 : Fin 2)) = rows (ix1 p) := by
  unfold pairIdxTerm
  rw [concatenate_pair_apply_left (1 : Fin S351x2.rank) _ _ concatenates_S351x1_S351x1_S351x2_d1 (ix2 p (0 : Fin 2)) rfl
    (ix2 p (0 : Fin 1)) (fun b => match b with | ⟨0, _⟩ => rfl | ⟨1, _⟩ => rfl)]
  exact broadcastInDim_apply ![0] bcast_S351_S351x1_0 rows (ix2 p (0 : Fin 1)) (ix1 p)
    (fun a => match a with | ⟨0, _⟩ => by show p.val = if (351 : ℕ) = 1 then 0 else p.val; rw [if_neg (by decide)])

/-- Column 1 of the pairs' index array is the second index vector. -/
theorem pairIdxTerm_snd (rows cols : IVec S351 32) (p : Fin 351) :
    pairIdxTerm rows cols (ix2 p (1 : Fin 2)) = cols (ix1 p) := by
  unfold pairIdxTerm
  rw [concatenate_pair_apply_right (1 : Fin S351x2.rank) _ _ concatenates_S351x1_S351x1_S351x2_d1 (ix2 p (1 : Fin 2)) rfl rfl
    (ix2 p (0 : Fin 1)) (fun b => match b with | ⟨0, _⟩ => fun _ => rfl | ⟨1, _⟩ => fun h => absurd rfl h) rfl]
  exact broadcastInDim_apply ![0] bcast_S351_S351x1_0 cols (ix2 p (0 : Fin 1)) (ix1 p)
    (fun a => match a with | ⟨0, _⟩ => by show p.val = if (351 : ℕ) = 1 then 0 else p.val; rw [if_neg (by decide)])

/-- A small natural number written as a 32-bit word and read back signed is itself. -/
theorem toInt_toNat_ofNat_lt (n : ℕ) (h : n < 27) : (BitVec.ofNat 32 n).toInt.toNat = n := by
  have h1 : (BitVec.ofNat 32 n).toNat = n := by rw [BitVec.toNat_ofNat]; omega
  unfold BitVec.toInt
  rw [h1]
  split <;> omega

/-! ## The gather at an index

The gather keeps the row coordinate (its one offset axis) and takes the other two coordinates of the table from the
pairs' index array, each read signed and clamped into [0, 26]. -/

/-- Axis 0 of the operand index is the result's row. -/
theorem gather_axis0 (idx : IVec S351x2 32) (r : Fin 4096) (p : Fin 351) :
    (gather_S4096x27x27_S351x2_S4096x351_0_12_n_n_12_1_409611.operandIdx (ix2 r p) idx 0).val = r.val := by
  show gather_S4096x27x27_S351x2_S4096x351_0_12_n_n_12_1_409611.start (ix2 r p) idx 0
      + gather_S4096x27x27_S351x2_S4096x351_0_12_n_n_12_1_409611.batchCoord (ix2 r p) 0
      + gather_S4096x27x27_S351x2_S4096x351_0_12_n_n_12_1_409611.offCoord (ix2 r p) 0 = _
  rw [GatherDims.batchCoord_eq_zero _ _ _ List.not_mem_nil]
  unfold GatherDims.start GatherDims.offCoord
  rw [dif_neg (show ¬ (0 : Fin S4096x27x27.rank) ∈ gather_S4096x27x27_S351x2_S4096x351_0_12_n_n_12_1_409611.startIndexMap by decide),
    dif_pos (show (0 : Fin S4096x27x27.rank) ∈ gather_S4096x27x27_S351x2_S4096x351_0_12_n_n_12_1_409611.sKept by decide)]
  show 0 + 0 + r.val = r.val
  omega

/-- Axis 1 of the operand index is column 0 of the pairs' index array at the pair, read signed and clamped. -/
theorem gather_axis1 (idx : IVec S351x2 32) (r : Fin 4096) (p : Fin 351) :
    (gather_S4096x27x27_S351x2_S4096x351_0_12_n_n_12_1_409611.operandIdx (ix2 r p) idx 1).val
      = min (idx (ix2 p (0 : Fin 2))).toInt.toNat 26 := by
  show gather_S4096x27x27_S351x2_S4096x351_0_12_n_n_12_1_409611.start (ix2 r p) idx 1
      + gather_S4096x27x27_S351x2_S4096x351_0_12_n_n_12_1_409611.batchCoord (ix2 r p) 1
      + gather_S4096x27x27_S351x2_S4096x351_0_12_n_n_12_1_409611.offCoord (ix2 r p) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin S4096x27x27.rank) ∈ gather_S4096x27x27_S351x2_S4096x351_0_12_n_n_12_1_409611.startIndexMap by decide)]
  have hsi : gather_S4096x27x27_S351x2_S4096x351_0_12_n_n_12_1_409611.siIdx (ix2 r p)
      ⟨List.idxOf (1 : Fin S4096x27x27.rank) gather_S4096x27x27_S351x2_S4096x351_0_12_n_n_12_1_409611.startIndexMap,
        List.idxOf_lt_length_iff.2 (by decide)⟩ = ix2 p (0 : Fin 2) := by
    funext b; refine Fin.ext ?_
    match b with
    | ⟨0, _⟩ => rfl
    | ⟨1, _⟩ => rfl
  rw [hsi]
  rfl

/-- Axis 2 of the operand index is column 1 of the pairs' index array at the pair, read signed and clamped. -/
theorem gather_axis2 (idx : IVec S351x2 32) (r : Fin 4096) (p : Fin 351) :
    (gather_S4096x27x27_S351x2_S4096x351_0_12_n_n_12_1_409611.operandIdx (ix2 r p) idx 2).val
      = min (idx (ix2 p (1 : Fin 2))).toInt.toNat 26 := by
  show gather_S4096x27x27_S351x2_S4096x351_0_12_n_n_12_1_409611.start (ix2 r p) idx 2
      + gather_S4096x27x27_S351x2_S4096x351_0_12_n_n_12_1_409611.batchCoord (ix2 r p) 2
      + gather_S4096x27x27_S351x2_S4096x351_0_12_n_n_12_1_409611.offCoord (ix2 r p) 2 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (2 : Fin S4096x27x27.rank) ∈ gather_S4096x27x27_S351x2_S4096x351_0_12_n_n_12_1_409611.startIndexMap by decide)]
  have hsi : gather_S4096x27x27_S351x2_S4096x351_0_12_n_n_12_1_409611.siIdx (ix2 r p)
      ⟨List.idxOf (2 : Fin S4096x27x27.rank) gather_S4096x27x27_S351x2_S4096x351_0_12_n_n_12_1_409611.startIndexMap,
        List.idxOf_lt_length_iff.2 (by decide)⟩ = ix2 p (1 : Fin 2) := by
    funext b; refine Fin.ext ?_
    match b with
    | ⟨0, _⟩ => rfl
    | ⟨1, _⟩ => rfl
  rw [hsi]
  rfl

/-- With index vectors that hold the pairs' members (all below 27, so the clamp changes nothing), the selected entry
    of the table is the inner product of the pair's two vectors. -/
theorem interTermOf_apply (rows cols : IVec S351 32)
    (hrows : ∀ p : Fin 351, rows (ix1 p) = BitVec.ofNat 32 (Cert.Spec.li p).val)
    (hcols : ∀ p : Fin 351, cols (ix1 p) = BitVec.ofNat 32 (Cert.Spec.lj p).val)
    (T : FVec Ideal S4096x27x64 .f32) (r : Fin 4096) (p : Fin 351) :
    interTermOf rows cols T (ix2 r p) = ∑ d : Fin 64, T (ix3 r (Cert.Spec.li p) d) * T (ix3 r (Cert.Spec.lj p) d) := by
  have hop : gather_S4096x27x27_S351x2_S4096x351_0_12_n_n_12_1_409611.operandIdx (ix2 r p) (pairIdxTerm rows cols)
      = ix3 r (Cert.Spec.li p) (Cert.Spec.lj p) := by
    funext a; refine Fin.ext ?_
    match a with
    | ⟨0, _⟩ => exact gather_axis0 _ r p
    | ⟨1, _⟩ =>
      refine (gather_axis1 _ r p).trans ?_
      rw [pairIdxTerm_fst, hrows, toInt_toNat_ofNat_lt _ (Cert.Spec.li p).isLt]
      have := (Cert.Spec.li p).isLt
      show min (Cert.Spec.li p).val 26 = (Cert.Spec.li p).val
      omega
    | ⟨2, _⟩ =>
      refine (gather_axis2 _ r p).trans ?_
      rw [pairIdxTerm_snd, hcols, toInt_toNat_ofNat_lt _ (Cert.Spec.lj p).isLt]
      have := (Cert.Spec.lj p).isLt
      show min (Cert.Spec.lj p).val 26 = (Cert.Spec.lj p).val
      omega
  show gramTerm T (gather_S4096x27x27_S351x2_S4096x351_0_12_n_n_12_1_409611.operandIdx (ix2 r p) (pairIdxTerm rows cols)) = _
  rw [hop, gramTerm_apply]

end Top

open Top

/-- The 351 inner products of a row: the table of all inner products read at the pairs i > j, row by row. -/
def interTerm (T : FVec Ideal S4096x27x64 .f32) : FVec Ideal S4096x351 .f32 :=
  interTermOf Tril.rows Tril.cols T

theorem interTerm_apply (T : FVec Ideal S4096x27x64 .f32) (r : Fin 4096) (p : Fin 351) :
    interTerm T (ix2 r p) = ∑ d : Fin 64, T (ix3 r (Cert.Spec.li p) d) * T (ix3 r (Cert.Spec.lj p) d) :=
  interTermOf_apply Tril.rows Tril.cols Tril.rows_apply Tril.cols_apply T r p

namespace Top

/-! ## The second perceptron, stage by stage in program order -/

/-- The second perceptron's input: the dense vector, then the 351 inner products. -/
def topJoin (x16 : FVec Ideal S4096x64 .f32) (z : FVec Ideal S4096x351 .f32) : FVec Ideal S4096x415 .f32 :=
  concatenate S4096x415 1 [⟨S4096x64, x16⟩, ⟨S4096x351, z⟩] concatenates_S4096x64_S4096x351_S4096x415_d1

/-- First layer: the product with the transposed weights, plus the bias spread over the rows, then the positive part. -/
def topLayer0 (v57 : FVec Ideal S4096x415 .f32) (w0 : FVec Ideal S512x415 .f32) (b0 : FVec Ideal S512 .f32) :
    FVec Ideal S4096x512 .f32 :=
  let v58 : FVec Ideal S415x512 .f32 := transpose S415x512 [1, 0] w0 transposes_S512x415_S415x512_1_0
  let v59 : FVec Ideal S4096x512 .f32 := Host.dotGeneral (F := Ideal) dot_S4096x415_S415x512_S4096x512_1_0_0_1_n_n none v57 v58
  let v60 : FVec Ideal S1x512 .f32 := broadcastInDim S1x512 ![1] bcast_S512_S1x512_1 b0
  let v61 : FVec Ideal S4096x512 .f32 := broadcastInDim S4096x512 ![0, 1] bcast_S1x512_S4096x512_0_1 v60
  let v62 : FVec Ideal S4096x512 .f32 := addf v59 v61
  let cst : FVec Ideal S_ .f32 := constant (F := Ideal) S_ .f32 0x00000000#32
  let z0 : FVec Ideal S4096x512 .f32 := broadcastInDim S4096x512 ![] bcast_S_S4096x512 cst
  maximumf v62 z0

/-- Second layer: the same with the second weights and bias. -/
def topLayer1 (v63 : FVec Ideal S4096x512 .f32) (w1 : FVec Ideal S256x512 .f32) (b1 : FVec Ideal S256 .f32) :
    FVec Ideal S4096x256 .f32 :=
  let v64 : FVec Ideal S512x256 .f32 := transpose S512x256 [1, 0] w1 transposes_S256x512_S512x256_1_0
  let v65 : FVec Ideal S4096x256 .f32 := Host.dotGeneral (F := Ideal) dot_S4096x512_S512x256_S4096x256_1_0_0_1_n_n none v63 v64
  let v66 : FVec Ideal S1x256 .f32 := broadcastInDim S1x256 ![1] bcast_S256_S1x256_1 b1
  let v67 : FVec Ideal S4096x256 .f32 := broadcastInDim S4096x256 ![0, 1] bcast_S1x256_S4096x256_0_1 v66
  let v68 : FVec Ideal S4096x256 .f32 := addf v65 v67
  let cst : FVec Ideal S_ .f32 := constant (F := Ideal) S_ .f32 0x00000000#32
  let z0 : FVec Ideal S4096x256 .f32 := broadcastInDim S4096x256 ![] bcast_S_S4096x256 cst
  maximumf v68 z0

/-- Third layer: the product and the bias only, down to one number per row. -/
def topLayer2 (v69 : FVec Ideal S4096x256 .f32) (w2 : FVec Ideal S1x256 .f32) (b2 : FVec Ideal S1 .f32) :
    FVec Ideal S4096x1 .f32 :=
  let v70 : FVec Ideal S256x1 .f32 := transpose S256x1 [1, 0] w2 transposes_S1x256_S256x1_1_0
  let v71 : FVec Ideal S4096x1 .f32 := Host.dotGeneral (F := Ideal) dot_S4096x256_S256x1_S4096x1_1_0_0_1_n_n none v69 v70
  let v72 : FVec Ideal S1x1 .f32 := broadcastInDim S1x1 ![1] bcast_S1_S1x1_1 b2
  let v73 : FVec Ideal S4096x1 .f32 := broadcastInDim S4096x1 ![0, 1] bcast_S1x1_S4096x1_0_1 v72
  addf v71 v73

end Top

/-- The second perceptron, on the dense vector followed by the inner products: three layers x·Wᵀ + b, the positive
    part taken after the first and the second. -/
def topTerm (x16 : FVec Ideal S4096x64 .f32) (z : FVec Ideal S4096x351 .f32)
    (w0 : FVec Ideal S512x415 .f32) (b0 : FVec Ideal S512 .f32)
    (w1 : FVec Ideal S256x512 .f32) (b1 : FVec Ideal S256 .f32)
    (w2 : FVec Ideal S1x256 .f32) (b2 : FVec Ideal S1 .f32) : FVec Ideal S4096x1 .f32 :=
  topLayer2 (topLayer1 (topLayer0 (topJoin x16 z) w0 b0) w1 b1) w2 b2

namespace Top

/-- The join at an index: the dense vector's entry below 64, the inner product 64 places back from there on. -/
theorem topJoin_apply (x16 : FVec Ideal S4096x64 .f32) (z : FVec Ideal S4096x351 .f32) (r : Fin 4096) (q : Fin 415) :
    topJoin x16 z (ix2 r q)
      = if h : q.val < 64 then x16 (ix2 r ⟨q.val, h⟩) else z (ix2 r ⟨q.val - 64, by omega⟩) := by
  unfold topJoin
  split
  · next h =>
    exact concatenate_pair_apply_left (1 : Fin S4096x415.rank) x16 z _ (ix2 r q) rfl (ix2 r ⟨q.val, h⟩)
      (fun b => match b with | ⟨0, _⟩ => rfl | ⟨1, _⟩ => rfl)
  · next h =>
    exact concatenate_pair_apply_right (1 : Fin S4096x415.rank) x16 z _ (ix2 r q) rfl rfl (ix2 r ⟨q.val - 64, by omega⟩)
      (fun b => match b with | ⟨0, _⟩ => fun _ => rfl | ⟨1, _⟩ => fun hb => absurd rfl hb)
      (by show q.val - 64 + 64 = q.val; omega)

/-- The positive part against the zero constant spread over any shape. -/
theorem posPart_apply {T : Shape} (h : S_.BroadcastsInDim T (![] : Fin 0 → Fin T.rank)) (y : FVec Ideal T .f32) (i : T.Idx) :
    maximumf y (broadcastInDim T ![] h (constant (F := Ideal) S_ .f32 0x00000000#32)) i = max (y i) 0 := by
  show max (y i) (broadcastInDim T ![] h (constant (F := Ideal) S_ .f32 0x00000000#32) i) = _
  rw [broadcastInDim_scalar_apply]
  show max (y i) (Ideal.ofBits .f32 0x00000000#32) = _
  rw [Ideal.ofBits_zero_f32]

theorem topLayer0_apply (v57 : FVec Ideal S4096x415 .f32) (w0 : FVec Ideal S512x415 .f32) (b0 : FVec Ideal S512 .f32)
    (r : Fin 4096) (n : Fin 512) :
    topLayer0 v57 w0 b0 (ix2 r n) = max ((∑ k : Fin 415, v57 (ix2 r k) * w0 (ix2 n k)) + b0 (ix1 n)) 0 := by
  unfold topLayer0
  simp only []
  rw [posPart_apply, addf_apply]
  congr 2
  · show Host.dotGeneral (F := Ideal) (DotDims.plain 4096 415 512) none v57 _ (ix2 r n) = _
    rw [StackMember.dotGeneral_plain_apply]
    exact Finset.sum_congr rfl fun k _ => by rw [transpose_ix2_apply]
  · rw [broadcastInDim_oneRow_apply]
    exact broadcastInDim_apply ![1] bcast_S512_S1x512_1 b0 (ix2 (0 : Fin 1) n) (ix1 n)
      (fun a => match a with | ⟨0, _⟩ => by show n.val = if (512 : ℕ) = 1 then 0 else n.val; rw [if_neg (by decide)])

theorem topLayer1_apply (v63 : FVec Ideal S4096x512 .f32) (w1 : FVec Ideal S256x512 .f32) (b1 : FVec Ideal S256 .f32)
    (r : Fin 4096) (n : Fin 256) :
    topLayer1 v63 w1 b1 (ix2 r n) = max ((∑ k : Fin 512, v63 (ix2 r k) * w1 (ix2 n k)) + b1 (ix1 n)) 0 := by
  unfold topLayer1
  simp only []
  rw [posPart_apply, addf_apply]
  congr 2
  · show Host.dotGeneral (F := Ideal) (DotDims.plain 4096 512 256) none v63 _ (ix2 r n) = _
    rw [StackMember.dotGeneral_plain_apply]
    exact Finset.sum_congr rfl fun k _ => by rw [transpose_ix2_apply]
  · rw [broadcastInDim_oneRow_apply]
    exact broadcastInDim_apply ![1] bcast_S256_S1x256_1 b1 (ix2 (0 : Fin 1) n) (ix1 n)
      (fun a => match a with | ⟨0, _⟩ => by show n.val = if (256 : ℕ) = 1 then 0 else n.val; rw [if_neg (by decide)])

theorem topLayer2_apply (v69 : FVec Ideal S4096x256 .f32) (w2 : FVec Ideal S1x256 .f32) (b2 : FVec Ideal S1 .f32)
    (r : Fin 4096) (c : Fin 1) :
    topLayer2 v69 w2 b2 (ix2 r c) = (∑ k : Fin 256, v69 (ix2 r k) * w2 (ix2 c k)) + b2 (ix1 c) := by
  unfold topLayer2
  simp only []
  rw [addf_apply]
  congr 1
  · show Host.dotGeneral (F := Ideal) (DotDims.plain 4096 256 1) none v69 _ (ix2 r c) = _
    rw [StackMember.dotGeneral_plain_apply]
    exact Finset.sum_congr rfl fun k _ => by rw [transpose_ix2_apply]
  · rw [broadcastInDim_oneRow_apply]
    exact broadcastInDim_apply ![1] bcast_S1_S1x1_1 b2 (ix2 (0 : Fin 1) c) (ix1 c)
      (fun a => match a with
        | ⟨0, _⟩ => by
          show c.val = if (1 : ℕ) = 1 then 0 else c.val
          rw [if_pos rfl]; omega)

end Top

/-- The whole reference as one function of its fifteen arrays, in the order the program takes them. -/
def refTerm (a0 : FVec Ideal S4096x13 .f32) (a1 : IVec S26x4096 32) (a2 : FVec Ideal S26x100000x64 .f32)
    (a3 : FVec Ideal S512x13 .f32) (a4 : FVec Ideal S512 .f32) (a5 : FVec Ideal S256x512 .f32) (a6 : FVec Ideal S256 .f32)
    (a7 : FVec Ideal S64x256 .f32) (a8 : FVec Ideal S64 .f32) (a9 : FVec Ideal S512x415 .f32) (a10 : FVec Ideal S512 .f32)
    (a11 : FVec Ideal S256x512 .f32) (a12 : FVec Ideal S256 .f32) (a13 : FVec Ideal S1x256 .f32) (a14 : FVec Ideal S1 .f32) :
    FVec Ideal S4096x1 .f32 :=
  topTerm (botTerm a0 a3 a4 a5 a6 a7 a8) (interTerm (featTerm (botTerm a0 a3 a4 a5 a6 a7 a8) a1 a2)) a9 a10 a11 a12 a13 a14

namespace Top

/-! ## The whole reference is the specification -/

/-- The reference's dense vector, of the inputs' arrays. -/
abbrev botOf (a : Cert.Spec.Inputs) : FVec Ideal S4096x64 .f32 := botTerm a.dense a.bw0 a.bb0 a.bw1 a.bb1 a.bw2 a.bb2

/-- The second perceptron's input is the specification's. -/
theorem join_eq (a : Cert.Spec.Inputs) (hidx : ∀ i, (a.idx i).toNat < 100000) (r : Fin 4096) (q : Fin 415) :
    topJoin (botOf a) (interTerm (featTerm (botOf a) a.idx a.emb)) (ix2 r q) = Cert.Spec.joined a r q := by
  rw [topJoin_apply]
  unfold Cert.Spec.joined
  by_cases h : q.val < 64
  · rw [dif_pos h, dif_pos h]
    exact botTerm_apply a r ⟨q.val, h⟩
  · rw [dif_neg h, dif_neg h, interTerm_apply]
    unfold Cert.Spec.inter
    exact Finset.sum_congr rfl fun d _ => by rw [featTerm_apply a hidx, featTerm_apply a hidx]

/-- The first layer's output is the specification's. -/
theorem layer0_eq (a : Cert.Spec.Inputs) (hidx : ∀ i, (a.idx i).toNat < 100000) (r : Fin 4096) (n : Fin 512) :
    topLayer0 (topJoin (botOf a) (interTerm (featTerm (botOf a) a.idx a.emb))) a.tw0 a.tb0 (ix2 r n) = Cert.Spec.t0 a r n := by
  rw [topLayer0_apply]
  unfold Cert.Spec.t0
  simp only [join_eq a hidx]

/-- The second layer's output is the specification's. -/
theorem layer1_eq (a : Cert.Spec.Inputs) (hidx : ∀ i, (a.idx i).toNat < 100000) (r : Fin 4096) (n : Fin 256) :
    topLayer1 (topLayer0 (topJoin (botOf a) (interTerm (featTerm (botOf a) a.idx a.emb))) a.tw0 a.tb0) a.tw1 a.tb1 (ix2 r n)
      = Cert.Spec.t1 a r n := by
  rw [topLayer1_apply]
  unfold Cert.Spec.t1
  simp only [layer0_eq a hidx]

end Top

theorem refTerm_eq (a : Cert.Spec.Inputs) (hidx : ∀ i, (a.idx i).toNat < 100000) :
    refTerm a.dense a.idx a.emb a.bw0 a.bb0 a.bw1 a.bb1 a.bw2 a.bb2 a.tw0 a.tb0 a.tw1 a.tb1 a.tw2 a.tb2 = Cert.Spec.out a := by
  funext i
  obtain ⟨r, c, rfl⟩ : ∃ (r : Fin 4096) (c : Fin 1), i = ix2 r c := ⟨i 0, i 1, eq_ix2 i⟩
  obtain rfl : c = 0 := Subsingleton.elim _ _
  show topLayer2 (topLayer1 (topLayer0 (topJoin (botOf a) (interTerm (featTerm (botOf a) a.idx a.emb))) a.tw0 a.tb0) a.tw1 a.tb1)
      a.tw2 a.tb2 (ix2 r (0 : Fin 1)) = Cert.Spec.score a r
  rw [topLayer2_apply]
  unfold Cert.Spec.score
  simp only [layer1_eq a hidx]

end Cert.ReferenceIdeal.HandValue

end
-- ==== Proof.RefRunStageA.lean ====
import proofs.«424834_j5669356831571_3_alg».proof.Proof.RefRunCuts
import proofs.«424834_j5669356831571_3_alg».proof.Proof.RefTop

/-!
What six of the nine stretches compute. On any contents `W`, the buffer a stretch is read for holds the
stretch's operations composed over what `W` holds at the buffers the stretch reads: the first perceptron, the
two floor divisions, the two index normalisations, and the last stretch (the pairs' index array, the gather,
the join and the second perceptron). Each is the fold unrolled at literal buffers.
-/

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.HandValue

variable {F : FTy → Type} [FloatOps F]

set_option maxRecDepth 65536 in
set_option maxHeartbeats 2000000 in
theorem cA_val (W : Valuation τ sig (Elt Ideal)) :
    after cA W (main_v16 : DevRef τ sig)
      = botTerm (W (main_arg0 : DevRef τ sig)) (W (main_arg3 : DevRef τ sig)) (W (main_arg4 : DevRef τ sig)) (W (main_arg5 : DevRef τ sig)) (W (main_arg6 : DevRef τ sig)) (W (main_arg7 : DevRef τ sig)) (W (main_arg8 : DevRef τ sig)) := rfl

set_option maxRecDepth 65536 in
set_option maxHeartbeats 2000000 in
theorem cC2a_val (W : Valuation τ sig (Elt Ideal)) :
    after cC2a W (main_v39 : DevRef τ sig) = Tril.floorDivide (W (main_v38 : DevRef τ sig)) (constantI S_ 32 27#32) := rfl

set_option maxRecDepth 65536 in
set_option maxHeartbeats 2000000 in
theorem cC2c_val (W : Valuation τ sig (Elt Ideal)) :
    after cC2c W (main_v41 : DevRef τ sig) = Tril.floorDivide (W (main_v38 : DevRef τ sig)) (constantI S_ 32 1#32) := rfl

set_option maxRecDepth 65536 in
set_option maxHeartbeats 2000000 in
theorem cC2e_rows (W : Valuation τ sig (Elt Ideal)) : after cC2e W (main_v47 : DevRef τ sig) = Tril.normalise (W (main_v40 : DevRef τ sig)) := rfl

set_option maxRecDepth 65536 in
set_option maxHeartbeats 2000000 in
theorem cC2e_cols (W : Valuation τ sig (Elt Ideal)) : after cC2e W (main_v52 : DevRef τ sig) = Tril.normalise (W (main_v42 : DevRef τ sig)) := rfl

set_option maxRecDepth 65536 in
set_option maxHeartbeats 2000000 in
theorem cD_val (W : Valuation τ sig (Elt Ideal)) :
    after cD W (main_v74 : DevRef τ sig)
      = topTerm (W (main_v16 : DevRef τ sig))
          (Host.gather gather_S4096x27x27_S351x2_S4096x351_0_12_n_n_12_1_409611 (W (main_v22 : DevRef τ sig))
            (Top.pairIdxTerm (W (main_v47 : DevRef τ sig)) (W (main_v52 : DevRef τ sig))))
          (W (main_arg9 : DevRef τ sig)) (W (main_arg10 : DevRef τ sig)) (W (main_arg11 : DevRef τ sig)) (W (main_arg12 : DevRef τ sig)) (W (main_arg13 : DevRef τ sig)) (W (main_arg14 : DevRef τ sig)) := rfl

end Cert.ReferenceIdeal.HandRun

end
-- ==== Proof.RefRunStageB.lean ====
import proofs.«424834_j5669356831571_3_alg».proof.Proof.RefRunCuts
import proofs.«424834_j5669356831571_3_alg».proof.Proof.RefTop

/-!
What the lookup stretch computes: on any contents `W`, the table of inner products of the 27 vectors of
every sample, over the dense vector, the indices and the tables `W` holds. The stretch is written out, each
operation's result rewritten to its function's value (the two operands of the join, computed in the stretch,
included), and what is left is the definition of those vectors written out.
-/

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.HandValue

variable {F : FTy → Type} [FloatOps F]

set_option maxRecDepth 65536 in
set_option maxHeartbeats 4000000 in
theorem cB_val (W : Valuation τ sig (Elt Ideal)) :
    after cB W (main_v22 : DevRef τ sig) = Top.gramTerm (featTerm (W (main_v16 : DevRef τ sig)) (W (main_arg1 : DevRef τ sig)) (W (main_arg2 : DevRef τ sig))) := by
  simp only [cB, ops, List.drop_succ_cons, List.drop_zero, List.take_succ_cons, List.take_zero]
  after_results
  try simp only [TRef.ofBuf, TRef.toBuf, cast_eq]
  rfl

end Cert.ReferenceIdeal.HandRun

end
-- ==== Proof.RefRunStageC.lean ====
import proofs.«424834_j5669356831571_3_alg».proof.Proof.RefRunCuts
import proofs.«424834_j5669356831571_3_alg».proof.Proof.RefTop

/-!
What the three remaining stretches compute: the two remainders by 27 and the triangle's positions. A remainder's
intermediate values are read several times, so the stretch is written out and each operation's result
rewritten to its function's value once; the typed references' transports are the identity at literal buffers.
-/

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.HandValue

variable {F : FTy → Type} [FloatOps F]

set_option maxRecDepth 65536 in
set_option maxHeartbeats 2000000 in
theorem cC2b_val (W : Valuation τ sig (Elt Ideal)) :
    after cC2b W (main_v40 : DevRef τ sig) = Tril.remainder (W (main_v39 : DevRef τ sig)) (constantI S_ 32 27#32) := by
  simp only [cC2b, ops, List.drop_succ_cons, List.drop_zero, List.take_succ_cons, List.take_zero]
  after_results_simp
  try simp only [TRef.ofBuf, TRef.toBuf, cast_eq]
  rfl

set_option maxRecDepth 65536 in
set_option maxHeartbeats 2000000 in
theorem cC2d_val (W : Valuation τ sig (Elt Ideal)) :
    after cC2d W (main_v42 : DevRef τ sig) = Tril.remainder (W (main_v41 : DevRef τ sig)) (constantI S_ 32 27#32) := by
  simp only [cC2d, ops, List.drop_succ_cons, List.drop_zero, List.take_succ_cons, List.take_zero]
  after_results_simp
  try simp only [TRef.ofBuf, TRef.toBuf, cast_eq]
  rfl

/-! ## The triangle's positions, operation by operation

The stretch 48 … 86 cut at every buffer that is read: ten pieces, each one operation (with the constants it
takes) over values read from the contents before it. -/

/-- The matrix of ones: operations 48, 49. -/
def t1 : List (HloOp τ sig (Elt F)) := (ops.drop 48).take 2
/-- Row index minus one: operations 50 … 53. -/
def t2 : List (HloOp τ sig (Elt F)) := (ops.drop 50).take 4
/-- The mask, row index minus one at least the column index: operations 54, 55. -/
def t3 : List (HloOp τ sig (Elt F)) := (ops.drop 54).take 2
/-- The ones kept under the mask: operations 56 … 58. -/
def t4 : List (HloOp τ sig (Elt F)) := (ops.drop 56).take 3
/-- Where that differs from zero: operations 59 … 61. -/
def t5 : List (HloOp τ sig (Elt F)) := (ops.drop 59).take 3
/-- Flattened, and its running count: operations 62 … 66. -/
def t6 : List (HloOp τ sig (Elt F)) := (ops.drop 62).take 5
/-- The zero histogram and the count clipped below at zero: operations 67 … 72. -/
def t7 : List (HloOp τ sig (Elt F)) := (ops.drop 67).take 6
/-- The clipped count's index normalisation: operations 73 … 79. -/
def t8 : List (HloOp τ sig (Elt F)) := (ops.drop 73).take 7
/-- The scatter of ones into the histogram: operations 80 … 83. -/
def t9 : List (HloOp τ sig (Elt F)) := (ops.drop 80).take 4
/-- The histogram's running sum: operations 84 … 86. -/
def t10 : List (HloOp τ sig (Elt F)) := (ops.drop 84).take 3

set_option maxRecDepth 8192 in
set_option maxHeartbeats 1000000 in
theorem cC1_cut : (cC1 : List (HloOp τ sig (Elt F)))
    = t1 ++ (t2 ++ (t3 ++ (t4 ++ (t5 ++ (t6 ++ (t7 ++ (t8 ++ (t9 ++ t10)))))))) := rfl

set_option maxRecDepth 8192 in
set_option maxHeartbeats 1000000 in
theorem t1_val (W : Valuation τ sig (Elt Ideal)) : after t1 W (main_v23 : DevRef τ sig) = Tril.v23 := rfl

set_option maxRecDepth 8192 in
set_option maxHeartbeats 1000000 in
theorem t2_val (W : Valuation τ sig (Elt Ideal)) :
    after t2 W (main_call3_v2 : DevRef τ sig)
      = addi (iotaInDim S27x27 32 0) (broadcastInDim S27x27 ![] bcast_S_S27x27 (constantI S_ 32 4294967295#32)) := rfl
set_option maxRecDepth 8192 in
set_option maxHeartbeats 1000000 in
theorem t2_keep (W : Valuation τ sig (Elt Ideal)) : after t2 W (main_v23 : DevRef τ sig) = W (main_v23 : DevRef τ sig) := rfl

set_option maxRecDepth 8192 in
set_option maxHeartbeats 1000000 in
theorem t3_val (W : Valuation τ sig (Elt Ideal)) :
    after t3 W (main_call3_v4 : DevRef τ sig) = cmpi .sge (W (main_call3_v2 : DevRef τ sig)) (iotaInDim S27x27 32 1) := rfl
set_option maxRecDepth 8192 in
set_option maxHeartbeats 1000000 in
theorem t3_keep (W : Valuation τ sig (Elt Ideal)) : after t3 W (main_v23 : DevRef τ sig) = W (main_v23 : DevRef τ sig) := rfl

set_option maxRecDepth 8192 in
set_option maxHeartbeats 1000000 in
theorem t4_val (W : Valuation τ sig (Elt Ideal)) :
    after t4 W (main_v24 : DevRef τ sig) = select (W (main_call3_v4 : DevRef τ sig)) (W (main_v23 : DevRef τ sig)) (broadcastInDim S27x27 ![] bcast_S_S27x27 (constant (F := Ideal) S_ .f32 0x00000000#32)) := rfl

set_option maxRecDepth 8192 in
set_option maxHeartbeats 1000000 in
theorem t5_val (W : Valuation τ sig (Elt Ideal)) : after t5 W (main_v26 : DevRef τ sig) = cmpf .une (W (main_v24 : DevRef τ sig)) (broadcastInDim S27x27 ![] bcast_S_S27x27 (constant (F := Ideal) S_ .f32 0x00000000#32)) := rfl

set_option maxRecDepth 8192 in
set_option maxHeartbeats 1000000 in
theorem t6_val (W : Valuation τ sig (Elt Ideal)) :
    after t6 W (main_v27 : DevRef τ sig)
      = Host.reduceWindow IntOp.addi ![729] ![1] ![728] ![0]
          (extui 32 (shapeCast S729 (W (main_v26 : DevRef τ sig)) shapeCasts_S27x27_S729) natLt_1_32)
          (broadcastInDim S_ ![] bcast_S_S_ (constantI S_ 32 0#32)) reduceWindows_S729_S729_w729s1p728_0 h_S_ := rfl

set_option maxRecDepth 8192 in
set_option maxHeartbeats 1000000 in
theorem t7_hist (W : Valuation τ sig (Elt Ideal)) :
    after t7 W (main_v28 : DevRef τ sig) = broadcastInDim S351 ![] bcast_S_S351 (constantI S_ 32 0#32) := rfl
set_option maxRecDepth 8192 in
set_option maxHeartbeats 1000000 in
theorem t7_val (W : Valuation τ sig (Elt Ideal)) :
    after t7 W (main_v29 : DevRef τ sig) = maxsi (broadcastInDim S729 ![] bcast_S_S729 (id (constantI S_ 32 0#32))) (W (main_v27 : DevRef τ sig)) := rfl

set_option maxRecDepth 8192 in
set_option maxHeartbeats 1000000 in
theorem t8_val (W : Valuation τ sig (Elt Ideal)) :
    after t8 W (main_v34 : DevRef τ sig)
      = select (cmpi .slt (W (main_v29 : DevRef τ sig)) (broadcastInDim S729 ![] bcast_S_S729 (constantI S_ 32 0#32)))
          (addi (W (main_v29 : DevRef τ sig)) (broadcastInDim S729 ![] bcast_S_S729 (constantI S_ 32 351#32))) (W (main_v29 : DevRef τ sig)) := rfl
set_option maxRecDepth 8192 in
set_option maxHeartbeats 1000000 in
theorem t8_keep (W : Valuation τ sig (Elt Ideal)) : after t8 W (main_v28 : DevRef τ sig) = W (main_v28 : DevRef τ sig) := rfl

set_option maxRecDepth 8192 in
set_option maxHeartbeats 1000000 in
attribute [local irreducible] Host.scatter in
theorem t9_val (W : Valuation τ sig (Elt Ideal)) :
    after t9 W (main_v37 : DevRef τ sig)
      = Host.scatter scatter_S351_S729x1_S729_n_0_0_1 IntOp.addi (W (main_v28 : DevRef τ sig))
          (broadcastInDim S729x1 ![0] bcast_S729_S729x1_0 (W (main_v34 : DevRef τ sig))) (broadcastInDim S729 ![] bcast_S_S729 (constantI S_ 32 1#32)) := rfl

set_option maxRecDepth 8192 in
set_option maxHeartbeats 1000000 in
theorem t10_val (W : Valuation τ sig (Elt Ideal)) :
    after t10 W (main_v38 : DevRef τ sig)
      = Host.reduceWindow IntOp.addi ![351] ![1] ![350] ![0] (W (main_v37 : DevRef τ sig))
          (broadcastInDim S_ ![] bcast_S_S_ (constantI S_ 32 0#32)) reduceWindows_S351_S351_w351s1p350_0 h_S_ := rfl

set_option maxRecDepth 8192 in
set_option maxHeartbeats 1000000 in
/-- The triangle stretch puts the histogram's running sum at its buffer: the ten pieces chained, last first, each
    buffer read followed back to the piece that wrote it; what results is the definition of that running sum
    written out. -/
theorem cC1_val (W : Valuation τ sig (Elt Ideal)) : after cC1 W (main_v38 : DevRef τ sig) = Tril.v38 := by
  rw [cC1_cut]
  simp only [after_app]
  rw [t10_val, t9_val, t8_val, t8_keep, t7_hist, t7_val, t6_val, t5_val, t4_val, t3_val, t3_keep, t2_val, t2_keep, t1_val]
  rfl

end Cert.ReferenceIdeal.HandRun

end
-- ==== Proof.RefRunOut.lean ====
import proofs.«424834_j5669356831571_3_alg».proof.Proof.RefRunCuts
import proofs.«424834_j5669356831571_3_alg».proof.Proof.RefTop
import proofs.«424834_j5669356831571_3_alg».proof.Proof.RefRunStageA
import proofs.«424834_j5669356831571_3_alg».proof.Proof.RefRunStageB
import proofs.«424834_j5669356831571_3_alg».proof.Proof.RefRunStageC

/-!
The reference's result buffer after the run, as one function of the fifteen arguments: the nine stretches'
values chained through what each stretch leaves alone.
-/

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.HandValue

variable {F : FTy → Type} [FloatOps F]

/-! ## The whole line -/

set_option maxRecDepth 65536 in
set_option maxHeartbeats 2000000 in
/-- The result buffer after the whole line is the reference's term of the fifteen arguments: the last stretch's
    value over what the earlier stretches left — each buffer it reads followed back, through the stretches that
    leave it alone, to the stretch that wrote it, and each argument back to the launch contents — and the term so
    assembled is the reference's by unfolding its definition. -/
theorem out_eq (V : Valuation τ sig (Elt Ideal)) :
    after (ops (F := Ideal)) V (main_v74 : DevRef τ sig)
      = refTerm (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) (V (main_arg9 : DevRef τ sig))
          (V (main_arg10 : DevRef τ sig)) (V (main_arg11 : DevRef τ sig)) (V (main_arg12 : DevRef τ sig)) (V (main_arg13 : DevRef τ sig)) (V (main_arg14 : DevRef τ sig)) := by
  rw [ops_cut]
  simp only [after_app]
  rw [cD_val]
  simp (disch := decide) only [cA_keep, cB_keep, cC1_keep, cC2a_keep, cC2b_keep, cC2c_keep, cC2d_keep, cC2e_keep]
  rw [cC2e_rows, cC2e_cols]
  simp (disch := decide) only [cA_keep, cB_keep, cC1_keep, cC2a_keep, cC2b_keep, cC2c_keep, cC2d_keep, cC2e_keep]
  rw [cC2d_val, cC2c_val, cC2b_val, cC2a_val]
  simp (disch := decide) only [cA_keep, cB_keep, cC1_keep, cC2a_keep, cC2b_keep, cC2c_keep, cC2d_keep, cC2e_keep]
  rw [cC1_val, cB_val]
  simp (disch := decide) only [cA_keep, cB_keep, cC1_keep, cC2a_keep, cC2b_keep, cC2c_keep, cC2d_keep, cC2e_keep]
  rw [cA_val]
  unfold refTerm interTerm Tril.rows Tril.cols Tril.v40 Tril.v42
  rfl

end Cert.ReferenceIdeal.HandRun

end
-- ==== Proof.RefFinal.lean ====
/-
  The reference program, read: every weakly fair execution of its @main ends with the result array holding the common
  function `Cert.Spec.out` of the argument arrays (when every table index is below 100000) and the arguments unchanged.
  The run's fold at the result buffer is the operations' composed term; that term is the common function index by index.
-/
import proofs.«424834_j5669356831571_3_alg».proof.Proof.RefRunOut
import proofs.«424834_j5669356831571_3_alg».proof.Proof.RefTop

noncomputable section

namespace Cert.ReferenceIdeal.Final

open Cert.ReferenceIdeal Cert.ReferenceIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The fifteen argument arrays as launched on device `c`. -/
def inputs (c : Dev nD) : Cert.Spec.Inputs :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14)⟩

/-- The arguments end as launched: no operation of @main writes an argument buffer. -/
theorem ref_frame : θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(h c main_arg0).trans (Cert.ReferenceIdeal.HandRun.arg0_eq _),
      (h c main_arg1).trans (Cert.ReferenceIdeal.HandRun.arg1_eq _),
      (h c main_arg2).trans (Cert.ReferenceIdeal.HandRun.arg2_eq _),
      (h c main_arg3).trans (Cert.ReferenceIdeal.HandRun.arg3_eq _),
      (h c main_arg4).trans (Cert.ReferenceIdeal.HandRun.arg4_eq _),
      (h c main_arg5).trans (Cert.ReferenceIdeal.HandRun.arg5_eq _),
      (h c main_arg6).trans (Cert.ReferenceIdeal.HandRun.arg6_eq _),
      (h c main_arg7).trans (Cert.ReferenceIdeal.HandRun.arg7_eq _),
      (h c main_arg8).trans (Cert.ReferenceIdeal.HandRun.arg8_eq _),
      (h c main_arg9).trans (Cert.ReferenceIdeal.HandRun.arg9_eq _),
      (h c main_arg10).trans (Cert.ReferenceIdeal.HandRun.arg10_eq _),
      (h c main_arg11).trans (Cert.ReferenceIdeal.HandRun.arg11_eq _),
      (h c main_arg12).trans (Cert.ReferenceIdeal.HandRun.arg12_eq _),
      (h c main_arg13).trans (Cert.ReferenceIdeal.HandRun.arg13_eq _),
      (h c main_arg14).trans (Cert.ReferenceIdeal.HandRun.arg14_eq _)⟩)
    (Cert.ReferenceIdeal.HandRun.run_main m ρ)

/-- The result array ends at the common function of the arguments. -/
theorem ref_run (hidx : ∀ (c : Dev nD) i, ((inputs m c).idx i).toNat < 100000) :
    θ_run defs (onTc (τ := τ) (main (F := Ideal))) ⟨m, fun _ => 0, ρ⟩ fun r => ∀ c : Dev nD,
      r.2.mem ((c.tc : Thread nD τ).loc main_v74) = Cert.Spec.out (inputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(h c main_v74).trans
        ((Cert.ReferenceIdeal.HandRun.out_eq (launchContents m c)).trans
          (Cert.ReferenceIdeal.HandValue.refTerm_eq (inputs m c) (hidx c))),
      (h c main_arg0).trans (Cert.ReferenceIdeal.HandRun.arg0_eq _),
      (h c main_arg1).trans (Cert.ReferenceIdeal.HandRun.arg1_eq _),
      (h c main_arg2).trans (Cert.ReferenceIdeal.HandRun.arg2_eq _),
      (h c main_arg3).trans (Cert.ReferenceIdeal.HandRun.arg3_eq _),
      (h c main_arg4).trans (Cert.ReferenceIdeal.HandRun.arg4_eq _),
      (h c main_arg5).trans (Cert.ReferenceIdeal.HandRun.arg5_eq _),
      (h c main_arg6).trans (Cert.ReferenceIdeal.HandRun.arg6_eq _),
      (h c main_arg7).trans (Cert.ReferenceIdeal.HandRun.arg7_eq _),
      (h c main_arg8).trans (Cert.ReferenceIdeal.HandRun.arg8_eq _),
      (h c main_arg9).trans (Cert.ReferenceIdeal.HandRun.arg9_eq _),
      (h c main_arg10).trans (Cert.ReferenceIdeal.HandRun.arg10_eq _),
      (h c main_arg11).trans (Cert.ReferenceIdeal.HandRun.arg11_eq _),
      (h c main_arg12).trans (Cert.ReferenceIdeal.HandRun.arg12_eq _),
      (h c main_arg13).trans (Cert.ReferenceIdeal.HandRun.arg13_eq _),
      (h c main_arg14).trans (Cert.ReferenceIdeal.HandRun.arg14_eq _)⟩)
    (Cert.ReferenceIdeal.HandRun.run_main m ρ)

end Cert.ReferenceIdeal.Final

end
-- ==== Proof.lean ====
/-
  The certificate of a recommendation model's forward pass: a three-layer perceptron on 13 dense features, 26 table rows
  selected by integer indices, the 351 pairwise inner products of those 27 vectors in lower-triangle order, and a second
  three-layer perceptron on the dense vector joined with the inner products — one score per sample, 4096 samples.

  On the extended reals both programs compute `Cert.Spec.out` of their arguments, index by index: the kernel (8 grid
  points of 512 samples; sums as matrix products into a zero accumulator; the inner products stored pair by pair into a
  scratch and read back) and the reference (whole-array products; the pairs' index vectors computed by the program itself).
  The two sides differ only in the order of the two factors of each inner product, so the one law used is commutativity
  of the product; finiteness of the inputs is not used. The precondition's last conjunct puts every table index in
  [0, 100000): there both gathers read the same row, and outside it the reference yields no number.
-/
import proofs.«424834_j5669356831571_3_alg».proof.Defs
import proofs.«424834_j5669356831571_3_alg».proof.Proof.Gen.Kernel
import proofs.«424834_j5669356831571_3_alg».proof.Proof.Gen.Kernel.Skeleton
import proofs.«424834_j5669356831571_3_alg».proof.Proof.Gen.Kernel.Launch
import proofs.«424834_j5669356831571_3_alg».proof.Proof.Gen.Kernel.Points
import proofs.«424834_j5669356831571_3_alg».proof.Proof.Gen.Kernel.Frame
import proofs.«424834_j5669356831571_3_alg».proof.Proof.Gen.KernelIdeal
import proofs.«424834_j5669356831571_3_alg».proof.Proof.Gen.KernelIdeal.Skeleton
import proofs.«424834_j5669356831571_3_alg».proof.Proof.Gen.KernelIdeal.Launch
import proofs.«424834_j5669356831571_3_alg».proof.Proof.Gen.KernelIdeal.Points
import proofs.«424834_j5669356831571_3_alg».proof.Proof.Gen.KernelIdeal.Frame
import proofs.«424834_j5669356831571_3_alg».proof.Proof.Gen.KernelIdeal.Value
import proofs.«424834_j5669356831571_3_alg».proof.Proof.Gen.ReferenceIdeal
import proofs.«424834_j5669356831571_3_alg».proof.Proof.Gen.Pre_finite_inputs
import Idealize.ShloMosaic.Adequacy
import Idealize.ShloMosaic.Init

import proofs.«424834_j5669356831571_3_alg».proof.Proof.PreIdx
import proofs.«424834_j5669356831571_3_alg».proof.Proof.KernelFinal
import proofs.«424834_j5669356831571_3_alg».proof.Proof.RefFinal

noncomputable section

namespace Cert.Proof

open Idealize.ShloMosaic Idealize.SL.Sem

/-- Memories agreeing on the arguments give the two programs the same fifteen arrays. -/
theorem inputs_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Final.inputs m' c = Cert.KernelIdeal.Host.inputs m c := by
  obtain ⟨h0, h1, h2, h3, h4, h5, h6, h7, h8, h9, h10, h11, h12, h13, h14⟩ := hagree
  unfold Cert.ReferenceIdeal.Final.inputs Cert.KernelIdeal.Host.inputs
  rw [h0, h1, h2, h3, h4, h5, h6, h7, h8, h9, h10, h11, h12, h13, h14]

/-- Both idealized programs end with the common function of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hidx : ∀ (c : Dev Cert.KernelIdeal.nD) i, ((Cert.KernelIdeal.Host.inputs m c).idx i).toNat < 100000 :=
    fun c i => Cert.Proof.Pre.idx_lt m hpre c i
  have hin : ∀ c, Cert.ReferenceIdeal.Final.inputs m' c = Cert.KernelIdeal.Host.inputs m c :=
    fun c => inputs_agree m m' c (hagree c)
  refine ⟨fun c => Cert.Spec.out (Cert.KernelIdeal.Host.inputs m c), Cert.KernelIdeal.Final.kernel_run m ρ hidx, ?_⟩
  refine (θ_run _ _ _).mono (fun r h c => ?_)
    (Cert.ReferenceIdeal.Final.ref_run m' ρ' (fun c i => by rw [hin c]; exact hidx c i))
  have h' := h c
  rw [hin c] at h'
  exact h'

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Final.ref_frame m ρ,
  trivial,
  algebraic⟩

end Cert.Proof

end
